-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40962x128 : Shape := ⟨2, ![40962, 128]⟩
abbrev S163842x64 : Shape := ⟨2, ![163842, 64]⟩
abbrev S448x128 : Shape := ⟨2, ![448, 128]⟩
abbrev S448 : Shape := ⟨1, ![448]⟩
abbrev S64x896 : Shape := ⟨2, ![64, 896]⟩
abbrev S64 : Shape := ⟨1, ![64]⟩
abbrev S64x448 : Shape := ⟨2, ![64, 448]⟩
abbrev S1146894 : Shape := ⟨1, ![1146894]⟩
abbrev S40962 : Shape := ⟨1, ![40962]⟩
abbrev S245760 : Shape := ⟨1, ![245760]⟩
abbrev S_ : Shape := ⟨0, ![]⟩

class Facts : Prop where
  bcast_S_S40962x128 : S_.BroadcastsInDim S40962x128 (![] : Fin 0 → Fin S40962x128.rank)
  reducesTo_S40962x128_S_d0_1 : S40962x128.ReducesTo [0, 1] S_
  h_S_ : 0 < S_.numel
  bcast_S_S163842x64 : S_.BroadcastsInDim S163842x64 (![] : Fin 0 → Fin S163842x64.rank)
  reducesTo_S163842x64_S_d0_1 : S163842x64.ReducesTo [0, 1] S_
  bcast_S_S448x128 : S_.BroadcastsInDim S448x128 (![] : Fin 0 → Fin S448x128.rank)
  reducesTo_S448x128_S_d0_1 : S448x128.ReducesTo [0, 1] S_
  bcast_S_S448 : S_.BroadcastsInDim S448 (![] : Fin 0 → Fin S448.rank)
  reducesTo_S448_S_d0 : S448.ReducesTo [0] S_
  bcast_S_S64x896 : S_.BroadcastsInDim S64x896 (![] : Fin 0 → Fin S64x896.rank)
  reducesTo_S64x896_S_d0_1 : S64x896.ReducesTo [0, 1] S_
  bcast_S_S64 : S_.BroadcastsInDim S64 (![] : Fin 0 → Fin S64.rank)
  reducesTo_S64_S_d0 : S64.ReducesTo [0] S_
  bcast_S_S64x448 : S_.BroadcastsInDim S64x448 (![] : Fin 0 → Fin S64x448.rank)
  reducesTo_S64x448_S_d0_1 : S64x448.ReducesTo [0, 1] S_
  bcast_S_S1146894 : S_.BroadcastsInDim S1146894 (![] : Fin 0 → Fin S1146894.rank)
  reducesTo_S1146894_S_d0 : S1146894.ReducesTo [0] S_
  bcast_S_S40962 : S_.BroadcastsInDim S40962 (![] : Fin 0 → Fin S40962.rank)
  reducesTo_S40962_S_d0 : S40962.ReducesTo [0] S_
  bcast_S_S245760 : S_.BroadcastsInDim S245760 (![] : Fin 0 → Fin S245760.rank)
  reducesTo_S245760_S_d0 : S245760.ReducesTo [0] S_

variable [Facts]

def fn_part4 {F : FTy → Type} [FloatOps F] (main_arg13 : IVec S40962 32) (main_arg14 : IVec S245760 32) (main_v65 : IVec S_ 1) (main_v67 : IVec S40962 1) : IVec S_ 1 :=
  let main_c_26 : IVec S_ 32 := constantI S_ 32 286734#32
  let main_v68 : IVec S40962 32 := broadcastInDim S40962 ![] bcast_S_S40962 main_c_26
  let main_v69 : IVec S40962 1 := cmpi .slt main_arg13 main_v68
  let main_v70 : IVec S40962 1 := andi main_v67 main_v69
  let main_c_27 : IVec S_ 1 := constantI S_ 1 1#1
  let main_v71 : IVec S_ 1 := (fun x v => Host.reduce IntOp.andi x v reducesTo_S40962_S_d0 h_S_) main_v70 main_c_27
  let main_v72 : IVec S_ 1 := andi main_v65 main_v71
  let main_c_28 : IVec S_ 32 := constantI S_ 32 0#32
  let main_v73 : IVec S245760 32 := broadcastInDim S245760 ![] bcast_S_S245760 main_c_28
  let main_v74 : IVec S245760 1 := cmpi .sge main_arg14 main_v73
  let main_c_29 : IVec S_ 32 := constantI S_ 32 286734#32
  let main_v75 : IVec S245760 32 := broadcastInDim S245760 ![] bcast_S_S245760 main_c_29
  let main_v76 : IVec S245760 1 := cmpi .slt main_arg14 main_v75
  let main_v77 : IVec S245760 1 := andi main_v74 main_v76
  let main_c_30 : IVec S_ 1 := constantI S_ 1 1#1
  let main_v78 : IVec S_ 1 := (fun x v => Host.reduce IntOp.andi x v reducesTo_S245760_S_d0 h_S_) main_v77 main_c_30
  let main_v79 : IVec S_ 1 := andi main_v72 main_v78
  main_v79

def fn_part3 {F : FTy → Type} [FloatOps F] (main_arg11 : FVec F S64 .f32) (main_arg12 : IVec S1146894 32) (main_arg13 : IVec S40962 32) (main_arg14 : IVec S245760 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S1146894 32 := broadcastInDim S1146894 ![] bcast_S_S1146894 main_c_22
  let main_v60 : IVec S1146894 1 := cmpi .sge main_arg12 main_v59
  let main_c_23 : IVec S_ 32 := constantI S_ 32 163842#32
  let main_v61 : IVec S1146894 32 := broadcastInDim S1146894 ![] bcast_S_S1146894 main_c_23
  let main_v62 : IVec S1146894 1 := cmpi .slt main_arg12 main_v61
  let main_v63 : IVec S1146894 1 := andi main_v60 main_v62
  let main_c_24 : IVec S_ 1 := constantI S_ 1 1#1
  let main_v64 : IVec S_ 1 := (fun x v => Host.reduce IntOp.andi x v reducesTo_S1146894_S_d0 h_S_) main_v63 main_c_24
  let main_v65 : IVec S_ 1 := andi main_v58 main_v64
  let main_c_25 : IVec S_ 32 := constantI S_ 32 0#32
  let main_v66 : IVec S40962 32 := broadcastInDim S40962 ![] bcast_S_S40962 main_c_25
  let main_v67 : IVec S40962 1 := cmpi .sge main_arg13 main_v66
  fn_part4 (F := F) main_arg13 main_arg14 main_v65 main_v67

def fn_part2 {F : FTy → Type} [FloatOps F] (main_arg7 : FVec F S64 .f32) (main_arg8 : FVec F S64x448 .f32) (main_arg9 : FVec F S64 .f32) (main_arg10 : FVec F S64 .f32) (main_arg11 : FVec F S64 .f32) (main_arg12 : IVec S1146894 32) (main_arg13 : IVec S40962 32) (main_arg14 : IVec S245760 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x448 .f32 := Host.absf main_arg8
  let main_cst_14 : FVec F S_ .f32 := constant S_ .f32 0x7F800000#32
  let main_v40 : FVec F S64x448 .f32 := broadcastInDim S64x448 ![] bcast_S_S64x448 main_cst_14
  let main_v41 : IVec S64x448 1 := cmpf .olt main_v39 main_v40
  let main_c_15 : IVec S_ 1 := constantI S_ 1 1#1
  let main_v42 : IVec S_ 1 := (fun x v => Host.reduce IntOp.andi x v reducesTo_S64x448_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S64x896 .f32) (main_arg5 : FVec F S64 .f32) (main_arg6 : FVec F S64 .f32) (main_arg7 : FVec F S64 .f32) (main_arg8 : FVec F S64x448 .f32) (main_arg9 : FVec F S64 .f32) (main_arg10 : FVec F S64 .f32) (main_arg11 : FVec F S64 .f32) (main_arg12 : IVec S1146894 32) (main_arg13 : IVec S40962 32) (main_arg14 : IVec S245760 32) (main_v13 : IVec S_ 1) (main_v16 : IVec S448 1) : IVec S_ 1 :=
  let main_c_5 : IVec S_ 1 := constantI S_ 1 1#1
  let main_v17 : IVec S_ 1 := (fun x v => Host.reduce IntOp.andi x v reducesTo_S448_S_d0 h_S_) main_v16 main_c_5
  let main_v18 : IVec S_ 1 := andi main_v13 main_v17
  let main_v19 : FVec F S64x896 .f32 := Host.absf main_arg4
  let main_cst_6 : FVec F S_ .f32 := constant S_ .f32 0x7F800000#32
  let main_v20 : FVec F S64x896 .f32 := broadcastInDim S64x896 ![] bcast_S_S64x896 main_cst_6
  let main_v21 : IVec S64x896 1 := cmpf .olt main_v19 main_v20
  let main_c_7 : IVec S_ 1 := constantI S_ 1 1#1
  let main_v22 : IVec S_ 1 := (fun x v => Host.reduce IntOp.andi x v reducesTo_S64x896_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S40962x128 .f32) (main_arg1 : FVec F S163842x64 .f32) (main_arg2 : FVec F S448x128 .f32) (main_arg3 : FVec F S448 .f32) (main_arg4 : FVec F S64x896 .f32) (main_arg5 : FVec F S64 .f32) (main_arg6 : FVec F S64 .f32) (main_arg7 : FVec F S64 .f32) (main_arg8 : FVec F S64x448 .f32) (main_arg9 : FVec F S64 .f32) (main_arg10 : FVec F S64 .f32) (main_arg11 : FVec F S64 .f32) (main_arg12 : IVec S1146894 32) (main_arg13 : IVec S40962 32) (main_arg14 : IVec S245760 32) : IVec S_ 1 :=
  let main_v0 : FVec F S40962x128 .f32 := Host.absf main_arg0
  let main_cst : FVec F S_ .f32 := constant S_ .f32 0x7F800000#32
  let main_v1 : FVec F S40962x128 .f32 := broadcastInDim S40962x128 ![] bcast_S_S40962x128 main_cst
  let main_v2 : IVec S40962x128 1 := cmpf .olt main_v0 main_v1
  let main_c : IVec S_ 1 := constantI S_ 1 1#1
  let main_v3 : IVec S_ 1 := (fun x v => Host.reduce IntOp.andi x v reducesTo_S40962x128_S_d0_1 h_S_) main_v2 main_c
  let main_v4 : FVec F S163842x64 .f32 := Host.absf main_arg1
  let main_cst_0 : FVec F S_ .f32 := constant S_ .f32 0x7F800000#32
  let main_v5 : FVec F S163842x64 .f32 := broadcastInDim S163842x64 ![] bcast_S_S163842x64 main_cst_0
  let main_v6 : IVec S163842x64 1 := cmpf .olt main_v4 main_v5
  let main_c_1 : IVec S_ 1 := constantI S_ 1 1#1
  let main_v7 : IVec S_ 1 := (fun x v => Host.reduce IntOp.andi x v reducesTo_S163842x64_S_d0_1 h_S_) main_v6 main_c_1
  let main_v8 : IVec S_ 1 := andi main_v3 main_v7
  let main_v9 : FVec F S448x128 .f32 := Host.absf main_arg2
  let main_cst_2 : FVec F S_ .f32 := constant S_ .f32 0x7F800000#32
  let main_v10 : FVec F S448x128 .f32 := broadcastInDim S448x128 ![] bcast_S_S448x128 main_cst_2
  let main_v11 : IVec S448x128 1 := cmpf .olt main_v9 main_v10
  let main_c_3 : IVec S_ 1 := constantI S_ 1 1#1
  let main_v12 : IVec S_ 1 := (fun x v => Host.reduce IntOp.andi x v reducesTo_S448x128_S_d0_1 h_S_) main_v11 main_c_3
  let main_v13 : IVec S_ 1 := andi main_v8 main_v12
  let main_v14 : FVec F S448 .f32 := Host.absf main_arg3
  let main_cst_4 : FVec F S_ .f32 := constant S_ .f32 0x7F800000#32
  let main_v15 : FVec F S448 .f32 := broadcastInDim S448 ![] bcast_S_S448 main_cst_4
  let main_v16 : IVec S448 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S40962x128 : Shape := ⟨2, ![40962, 128]⟩
abbrev S163842x64 : Shape := ⟨2, ![163842, 64]⟩
abbrev S448x128 : Shape := ⟨2, ![448, 128]⟩
abbrev S448 : Shape := ⟨1, ![448]⟩
abbrev S64x896 : Shape := ⟨2, ![64, 896]⟩
abbrev S64 : Shape := ⟨1, ![64]⟩
abbrev S64x448 : Shape := ⟨2, ![64, 448]⟩
abbrev S1146894 : Shape := ⟨1, ![1146894]⟩
abbrev S40962 : Shape := ⟨1, ![40962]⟩
abbrev S245760 : Shape := ⟨1, ![245760]⟩
abbrev S128x448 : Shape := ⟨2, ![128, 448]⟩
abbrev S_ : Shape := ⟨0, ![]⟩
abbrev S49152x128 : Shape := ⟨2, ![49152, 128]⟩
abbrev S1x448 : Shape := ⟨2, ![1, 448]⟩
abbrev S49152x448 : Shape := ⟨2, ![49152, 448]⟩
abbrev S8192x128 : Shape := ⟨2, ![8192, 128]⟩
abbrev S8192x448 : Shape := ⟨2, ![8192, 448]⟩
abbrev S40962x448 : Shape := ⟨2, ![40962, 448]⟩
abbrev S286734x64 : Shape := ⟨2, ![286734, 64]⟩
abbrev S40962x1 : Shape := ⟨2, ![40962, 1]⟩
abbrev S1 : Shape := ⟨1, ![1]⟩
abbrev S1x1 : Shape := ⟨2, ![1, 1]⟩
abbrev S40962x64 : Shape := ⟨2, ![40962, 64]⟩
abbrev S245760x1 : Shape := ⟨2, ![245760, 1]⟩
abbrev S245760x64 : Shape := ⟨2, ![245760, 64]⟩
abbrev S122880x64x2 : Shape := ⟨3, ![122880, 64, 2]⟩
abbrev S122880x64 : Shape := ⟨2, ![122880, 64]⟩
abbrev S64x7x128 : Shape := ⟨3, ![64, 7, 128]⟩
abbrev S7x64x128 : Shape := ⟨3, ![7, 64, 128]⟩
abbrev S172032x64 : Shape := ⟨2, ![172032, 64]⟩
abbrev S172032x448 : Shape := ⟨2, ![172032, 448]⟩
abbrev S8192x64 : Shape := ⟨2, ![8192, 64]⟩
abbrev S163842x448 : Shape := ⟨2, ![163842, 448]⟩
abbrev S163842x7 : Shape := ⟨2, ![163842, 7]⟩
abbrev S7 : Shape := ⟨1, ![7]⟩
abbrev S1x7 : Shape := ⟨2, ![1, 7]⟩
abbrev S1146894x64 : Shape := ⟨2, ![1146894, 64]⟩
abbrev S1146894x1 : Shape := ⟨2, ![1146894, 1]⟩
abbrev S163842x7x64 : Shape := ⟨3, ![163842, 7, 64]⟩
abbrev S1x64 : Shape := ⟨2, ![1, 64]⟩
abbrev S448x64 : Shape := ⟨2, ![448, 64]⟩

abbrev nBuf : Space → Nat
  | .hbm => 240
  | .vmem => 35
  | .smem => 0
  | _ => 0

abbrev hbmTy0_0 (i : Nat) : BufTy := match i % 128 with
  | 0 => ⟨S40962x128, .f32⟩
  | 1 => ⟨S163842x64, .f32⟩
  | 2 => ⟨S448x128, .f32⟩
  | 3 => ⟨S448, .f32⟩
  | 4 => ⟨S64x896, .f32⟩
  | 5 => ⟨S64, .f32⟩
  | 6 => ⟨S64, .f32⟩
  | 7 => ⟨S64, .f32⟩
  | 8 => ⟨S64x448, .f32⟩
  | 9 => ⟨S64, .f32⟩
  | 10 => ⟨S64, .f32⟩
  | 11 => ⟨S64, .f32⟩
  | 12 => ⟨S1146894, .i32⟩
  | 13 => ⟨S40962, .i32⟩
  | 14 => ⟨S245760, .i32⟩
  | 15 => ⟨S128x448, .f32⟩
  | 16 => ⟨S_, .i32⟩
  | 17 => ⟨S_, .f32⟩
  | 18 => ⟨S49152x128, .f32⟩
  | 19 => ⟨S1x448, .f32⟩
  | 20 => ⟨S49152x448, .f32⟩
  | 21 => ⟨S40962x448, .f32⟩
  | 22 => ⟨S286734x64, .f32⟩
  | 23 => ⟨S_, .i32⟩
  | 24 => ⟨S40962, .i32⟩
  | 25 => ⟨S40962, .i1⟩
  | 26 => ⟨S_, .i32⟩
  | 27 => ⟨S40962, .i32⟩
  | 28 => ⟨S40962, .i32⟩
  | 29 => ⟨S40962, .i32⟩
  | 30 => ⟨S40962x1, .i32⟩
  | 31 => ⟨S1, .i32⟩
  | 32 => ⟨S_, .i32⟩
  | 33 => ⟨S40962x1, .i32⟩
  | 34 => ⟨S40962x1, .i1⟩
  | 35 => ⟨S1x1, .i32⟩
  | 36 => ⟨S40962x1, .i32⟩
  | 37 => ⟨S40962x1, .i1⟩
  | 38 => ⟨S40962x1, .i1⟩
  | 39 => ⟨S_, .i1⟩
  | 40 => ⟨S40962, .i1⟩
  | 41 => ⟨S40962x64, .f32⟩
  | 42 => ⟨S40962x64, .i1⟩
  | 43 => ⟨S_, .f32⟩
  | 44 => ⟨S40962x64, .f32⟩
  | 45 => ⟨S40962x64, .f32⟩
  | 46 => ⟨S_, .i32⟩
  | 47 => ⟨S245760, .i32⟩
  | 48 => ⟨S245760, .i1⟩
  | 49 => ⟨S_, .i32⟩
  | 50 => ⟨S245760, .i32⟩
  | 51 => ⟨S245760, .i32⟩
  | 52 => ⟨S245760, .i32⟩
  | 53 => ⟨S245760x1, .i32⟩
  | 54 => ⟨S1, .i32⟩
  | 55 => ⟨S_, .i32⟩
  | 56 => ⟨S245760x1, .i32⟩
  | 57 => ⟨S245760x1, .i1⟩
  | 58 => ⟨S1x1, .i32⟩
  | 59 => ⟨S245760x1, .i32⟩
  | 60 => ⟨S245760x1, .i1⟩
  | 61 => ⟨S245760x1, .i1⟩
  | 62 => ⟨S_, .i1⟩
  | 63 => ⟨S245760, .i1⟩
  | 64 => ⟨S245760x64, .f32⟩
  | 65 => ⟨S245760x64, .i1⟩
  | 66 => ⟨S_, .f32⟩
  | 67 => ⟨S245760x64, .f32⟩
  | 68 => ⟨S245760x64, .f32⟩
  | 69 => ⟨S122880x64x2, .f32⟩
  | 70 => ⟨S_, .f32⟩
  | 71 => ⟨S122880x64, .f32⟩
  | 72 => ⟨S_, .f32⟩
  | 73 => ⟨S122880x64, .f32⟩
  | 74 => ⟨S122880x64, .f32⟩
  | 75 => ⟨S163842x64, .f32⟩
  | 76 => ⟨S64x7x128, .f32⟩
  | 77 => ⟨S7x64x128, .f32⟩
  | 78 => ⟨S448x128, .f32⟩
  | 79 => ⟨S128x448, .f32⟩
  | 80 => ⟨S_, .i32⟩
  | 81 => ⟨S_, .f32⟩
  | 82 => ⟨S172032x64, .f32⟩
  | 83 => ⟨S_, .i32⟩
  | 84 => ⟨S_, .f32⟩
  | 85 => ⟨S172032x64, .f32⟩
  | 86 => ⟨S172032x448, .f32⟩
  | 87 => ⟨S163842x448, .f32⟩
  | 88 => ⟨S163842x7, .i32⟩
  | 89 => ⟨S7, .i32⟩
  | 90 => ⟨S1x7, .i32⟩
  | 91 => ⟨S_, .i32⟩
  | 92 => ⟨S163842x7, .i32⟩
  | 93 => ⟨S163842x7, .i32⟩
  | 94 => ⟨S163842x7, .i32⟩
  | 95 => ⟨S163842x7, .i32⟩
  | 96 => ⟨S1146894x64, .f32⟩
  | 97 => ⟨S1146894, .i32⟩
  | 98 => ⟨S_, .i32⟩
  | 99 => ⟨S1146894, .i32⟩
  | 100 => ⟨S1146894, .i1⟩
  | 101 => ⟨S_, .i32⟩
  | 102 => ⟨S1146894, .i32⟩
  | 103 => ⟨S1146894, .i32⟩
  | 104 => ⟨S1146894, .i32⟩
  | 105 => ⟨S1146894x1, .i32⟩
  | 106 => ⟨S1, .i32⟩
  | 107 => ⟨S_, .i32⟩
  | 108 => ⟨S1146894x1, .i32⟩
  | 109 => ⟨S1146894x1, .i1⟩
  | 110 => ⟨S1x1, .i32⟩
  | 111 => ⟨S1146894x1, .i32⟩
  | 112 => ⟨S1146894x1, .i1⟩
  | 113 => ⟨S1146894x1, .i1⟩
  | 114 => ⟨S_, .i1⟩
  | 115 => ⟨S1146894, .i1⟩
  | 116 => ⟨S1146894x64, .f32⟩
  | 117 => ⟨S1146894x64, .i1⟩
  | 118 => ⟨S_, .f32⟩
  | 119 => ⟨S1146894x64, .f32⟩
  | 120 => ⟨S1146894x64, .f32⟩
  | 121 => ⟨S163842x7x64, .f32⟩
  | 122 => ⟨S_, .f32⟩
  | 123 => ⟨S163842x64, .f32⟩
  | 124 => ⟨S1x64, .f32⟩
  | 125 => ⟨S163842x64, .f32⟩
  | 126 => ⟨S163842x64, .f32⟩
  | 127 => ⟨S_, .f32⟩
  | _ => ⟨S40962x128, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S_, .i32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S163842x64, .f32⟩
  | 12 => ⟨S163842x64, .f32⟩
  | 13 => ⟨S163842x64, .f32⟩
  | 14 => ⟨S_, .f32⟩
  | 15 => ⟨S_, .f32⟩
  | 16 => ⟨S_, .f32⟩
  | 17 => ⟨S_, .f32⟩
  | 18 => ⟨S64, .f32⟩
  | 19 => ⟨S64, .f32⟩
  | 20 => ⟨S64, .f32⟩
  | 21 => ⟨S_, .f32⟩
  | 22 => ⟨S_, .i1⟩
  | 23 => ⟨S_, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S64, .f32⟩
  | 31 => ⟨S_, .i32⟩
  | 32 => ⟨S_, .f32⟩
  | 33 => ⟨S172032x64, .f32⟩
  | 34 => ⟨S1x64, .f32⟩
  | 35 => ⟨S1x64, .f32⟩
  | 36 => ⟨S1x64, .f32⟩
  | 37 => ⟨S1x64, .f32⟩
  | 38 => ⟨S172032x64, .f32⟩
  | 39 => ⟨S163842x64, .f32⟩
  | 40 => ⟨S_, .i32⟩
  | 41 => ⟨S1146894, .i32⟩
  | 42 => ⟨S1146894, .i1⟩
  | 43 => ⟨S_, .i32⟩
  | 44 => ⟨S1146894, .i32⟩
  | 45 => ⟨S1146894, .i32⟩
  | 46 => ⟨S1146894, .i32⟩
  | 47 => ⟨S1146894x1, .i32⟩
  | 48 => ⟨S1, .i32⟩
  | 49 => ⟨S_, .i32⟩
  | 50 => ⟨S1146894x1, .i32⟩
  | 51 => ⟨S1146894x1, .i1⟩
  | 52 => ⟨S1x1, .i32⟩
  | 53 => ⟨S1146894x1, .i32⟩
  | 54 => ⟨S1146894x1, .i1⟩
  | 55 => ⟨S1146894x1, .i1⟩
  | 56 => ⟨S_, .i1⟩
  | 57 => ⟨S1146894, .i1⟩
  | 58 => ⟨S1146894x64, .f32⟩
  | 59 => ⟨S1146894x64, .i1⟩
  | 60 => ⟨S_, .f32⟩
  | 61 => ⟨S1146894x64, .f32⟩
  | 62 => ⟨S1146894x64, .f32⟩
  | 63 => ⟨S163842x448, .f32⟩
  | 64 => ⟨S448x64, .f32⟩
  | 65 => ⟨S_, .i32⟩
  | 66 => ⟨S_, .f32⟩
  | 67 => ⟨S172032x448, .f32⟩
  | 68 => ⟨S1x64, .f32⟩
  | 69 => ⟨S172032x64, .f32⟩
  | 70 => ⟨S163842x64, .f32⟩
  | 71 => ⟨S_, .f32⟩
  | 72 => ⟨S64, .f32⟩
  | 73 => ⟨S_, .f32⟩
  | 74 => ⟨S64, .f32⟩
  | 75 => ⟨S64, .f32⟩
  | 76 => ⟨S_, .i32⟩
  | 77 => ⟨S_, .f32⟩
  | 78 => ⟨S64, .f32⟩
  | 79 => ⟨S1x64, .f32⟩
  | 80 => ⟨S_, .f32⟩
  | 81 => ⟨S1x64, .f32⟩
  | 82 => ⟨S1x64, .f32⟩
  | 83 => ⟨S163842x64, .f32⟩
  | 84 => ⟨S163842x64, .f32⟩
  | 85 => ⟨S163842x64, .f32⟩
  | 86 => ⟨S_, .f32⟩
  | 87 => ⟨S_, .f32⟩
  | 88 => ⟨S_, .f32⟩
  | 89 => ⟨S_, .f32⟩
  | 90 => ⟨S64, .f32⟩
  | 91 => ⟨S64, .f32⟩
  | 92 => ⟨S64, .f32⟩
  | 93 => ⟨S_, .f32⟩
  | 94 => ⟨S_, .i1⟩
  | 95 => ⟨S_, .f32⟩
  | 96 => ⟨S_, .f32⟩
  | 97 => ⟨S64, .f32⟩
  | 98 => ⟨S64, .f32⟩
  | 99 => ⟨S_, .f32⟩
  | 100 => ⟨S64, .f32⟩
  | 101 => ⟨S64, .f32⟩
  | 102 => ⟨S64, .f32⟩
  | 103 => ⟨S_, .i32⟩
  | 104 => ⟨S_, .f32⟩
  | 105 => ⟨S172032x64, .f32⟩
  | 106 => ⟨S1x64, .f32⟩
  | 107 => ⟨S1x64, .f32⟩
  | 108 => ⟨S1x64, .f32⟩
  | 109 => ⟨S1x64, .f32⟩
  | 110 => ⟨S172032x64, .f32⟩
  | 111 => ⟨S163842x64, .f32⟩
  | _ => ⟨S40962x128, .f32⟩

abbrev hbmTy (i : Nat) : BufTy := match i / 128 with
  | 0 => hbmTy0_0 i
  | 1 => hbmTy0_1 i
  | _ => ⟨S40962x128, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S128x448, .f32⟩
  | .local _ .vmem, ⟨3, _⟩ => ⟨S1x448, .f32⟩
  | .local _ .vmem, ⟨4, _⟩ => ⟨S8192x448, .f32⟩
  | .local _ .vmem, ⟨5, _⟩ => ⟨S8192x448, .f32⟩
  | .local _ .vmem, ⟨6, _⟩ => ⟨S8192x64, .f32⟩
  | .local _ .vmem, ⟨7, _⟩ => ⟨S8192x64, .f32⟩
  | .local _ .vmem, ⟨8, _⟩ => ⟨S8192x64, .f32⟩
  | .local _ .vmem, ⟨9, _⟩ => ⟨S8192x64, .f32⟩
  | .local _ .vmem, ⟨10, _⟩ => ⟨S128x448, .f32⟩
  | .local _ .vmem, ⟨11, _⟩ => ⟨S8192x448, .f32⟩
  | .local _ .vmem, ⟨12, _⟩ => ⟨S8192x448, .f32⟩
  | .local _ .vmem, ⟨13, _⟩ => ⟨S8192x64, .f32⟩
  | .local _ .vmem, ⟨14, _⟩ => ⟨S8192x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S8192x64, .f32⟩
  | .local _ .vmem, ⟨20, _⟩ => ⟨S8192x64, .f32⟩
  | .local _ .vmem, ⟨21, _⟩ => ⟨S8192x448, .f32⟩
  | .local _ .vmem, ⟨22, _⟩ => ⟨S8192x448, .f32⟩
  | .local _ .vmem, ⟨23, _⟩ => ⟨S448x64, .f32⟩
  | .local _ .vmem, ⟨24, _⟩ => ⟨S1x64, .f32⟩
  | .local _ .vmem, ⟨25, _⟩ => ⟨S8192x64, .f32⟩
  | .local _ .vmem, ⟨26, _⟩ => ⟨S8192x64, .f32⟩
  | .local _ .vmem, ⟨27, _⟩ => ⟨S8192x64, .f32⟩
  | .local _ .vmem, ⟨28, _⟩ => ⟨S8192x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S8192x64, .f32⟩
  | .local _ .vmem, ⟨34, _⟩ => ⟨S8192x64, .f32⟩
  | _, _ => ⟨S40962x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_cst : Ref sig .tc := ⟨.hbm, 43, rfl⟩
abbrev main_call1_v15 : Ref sig .tc := ⟨.hbm, 44, rfl⟩
abbrev main_v6 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_call2_cst : Ref sig .tc := ⟨.hbm, 66, rfl⟩
abbrev main_call2_v15 : Ref sig .tc := ⟨.hbm, 67, rfl⟩
abbrev main_v7 : Ref sig .tc := ⟨.hbm, 68, rfl⟩
abbrev main_v8 : Ref sig .tc := ⟨.hbm, 69, rfl⟩
abbrev main_cst : Ref sig .tc := ⟨.hbm, 70, rfl⟩
abbrev main_v9 : Ref sig .tc := ⟨.hbm, 71, rfl⟩
abbrev main_cst_0 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_c_1 : Ref sig .tc := ⟨.hbm, 80, rfl⟩
abbrev main_call3_v0 : Ref sig .tc := ⟨.hbm, 81, rfl⟩
abbrev main_v17 : Ref sig .tc := ⟨.hbm, 82, rfl⟩
abbrev main_c_2 : Ref sig .tc := ⟨.hbm, 83, rfl⟩
abbrev main_call4_v0 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_c_3 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_call5_c : Ref sig .tc := ⟨.hbm, 98, rfl⟩
abbrev main_call5_v0 : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_c_1 : Ref sig .tc := ⟨.hbm, 106, rfl⟩
abbrev main_call5_c_2 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_3 : Ref sig .tc := ⟨.hbm, 114, rfl⟩
abbrev main_call5_v12 : Ref sig .tc := ⟨.hbm, 115, rfl⟩
abbrev main_call5_v13 : Ref sig .tc := ⟨.hbm, 116, rfl⟩
abbrev main_call5_v14 : Ref sig .tc := ⟨.hbm, 117, rfl⟩
abbrev main_call5_cst : Ref sig .tc := ⟨.hbm, 118, rfl⟩
abbrev main_call5_v15 : Ref sig .tc := ⟨.hbm, 119, rfl⟩
abbrev main_v30 : Ref sig .tc := ⟨.hbm, 120, rfl⟩
abbrev main_v31 : Ref sig .tc := ⟨.hbm, 121, rfl⟩
abbrev main_cst_4 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_cst_5 : Ref sig .tc := ⟨.hbm, 127, rfl⟩
abbrev main_v36 : Ref sig .tc := ⟨.hbm, 128, rfl⟩
abbrev main_cst_6 : Ref sig .tc := ⟨.hbm, 129, rfl⟩
abbrev main_v37 : Ref sig .tc := ⟨.hbm, 130, rfl⟩
abbrev main_v38 : Ref sig .tc := ⟨.hbm, 131, rfl⟩
abbrev main_c_7 : Ref sig .tc := ⟨.hbm, 132, rfl⟩
abbrev main_call6_cst : Ref sig .tc := ⟨.hbm, 133, rfl⟩
abbrev main_call6_v0 : Ref sig .tc := ⟨.hbm, 134, rfl⟩
abbrev main_call6_v1 : Ref sig .tc := ⟨.hbm, 135, rfl⟩
abbrev main_call6_cst_0 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_v5 : Ref sig .tc := ⟨.hbm, 140, rfl⟩
abbrev main_call6_v6 : Ref sig .tc := ⟨.hbm, 141, rfl⟩
abbrev main_call6_v7 : Ref sig .tc := ⟨.hbm, 142, rfl⟩
abbrev main_call6_cst_1 : Ref sig .tc := ⟨.hbm, 143, rfl⟩
abbrev main_call6_v8 : Ref sig .tc := ⟨.hbm, 144, rfl⟩
abbrev main_call6_cst_2 : Ref sig .tc := ⟨.hbm, 145, rfl⟩
abbrev main_call6_v9 : Ref sig .tc := ⟨.hbm, 146, rfl⟩
abbrev main_call6_v10 : Ref sig .tc := ⟨.hbm, 147, rfl⟩
abbrev main_call6_v11 : Ref sig .tc := ⟨.hbm, 148, rfl⟩
abbrev main_call6_cst_3 : Ref sig .tc := ⟨.hbm, 149, rfl⟩
abbrev main_call6_v12 : Ref sig .tc := ⟨.hbm, 150, rfl⟩
abbrev main_call6_cst_4 : Ref sig .tc := ⟨.hbm, 151, rfl⟩
abbrev main_call6_call0_v0 : Ref sig .tc := ⟨.hbm, 152, rfl⟩
abbrev main_call6_call0_v1 : Ref sig .tc := ⟨.hbm, 153, rfl⟩
abbrev main_v39 : Ref sig .tc := ⟨.hbm, 154, rfl⟩
abbrev main_cst_8 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_c_9 : Ref sig .tc := ⟨.hbm, 159, rfl⟩
abbrev main_call7_v0 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_call8_c : Ref sig .tc := ⟨.hbm, 168, rfl⟩
abbrev main_call8_v0 : Ref sig .tc := ⟨.hbm, 169, rfl⟩
abbrev main_call8_v1 : Ref sig .tc := ⟨.hbm, 170, rfl⟩
abbrev main_call8_c_0 : Ref sig .tc := ⟨.hbm, 171, rfl⟩
abbrev main_call8_v2 : Ref sig .tc := ⟨.hbm, 172, rfl⟩
abbrev main_call8_v3 : Ref sig .tc := ⟨.hbm, 173, rfl⟩
abbrev main_call8_v4 : Ref sig .tc := ⟨.hbm, 174, rfl⟩
abbrev main_call8_v5 : Ref sig .tc := ⟨.hbm, 175, rfl⟩
abbrev main_call8_c_1 : Ref sig .tc := ⟨.hbm, 176, rfl⟩
abbrev main_call8_c_2 : Ref sig .tc := ⟨.hbm, 177, rfl⟩
abbrev main_call8_v6 : Ref sig .tc := ⟨.hbm, 178, rfl⟩
abbrev main_call8_v7 : Ref sig .tc := ⟨.hbm, 179, rfl⟩
abbrev main_call8_v8 : Ref sig .tc := ⟨.hbm, 180, rfl⟩
abbrev main_call8_v9 : Ref sig .tc := ⟨.hbm, 181, rfl⟩
abbrev main_call8_v10 : Ref sig .tc := ⟨.hbm, 182, rfl⟩
abbrev main_call8_v11 : Ref sig .tc := ⟨.hbm, 183, rfl⟩
abbrev main_call8_c_3 : Ref sig .tc := ⟨.hbm, 184, rfl⟩
abbrev main_call8_v12 : Ref sig .tc := ⟨.hbm, 185, rfl⟩
abbrev main_call8_v13 : Ref sig .tc := ⟨.hbm, 186, rfl⟩
abbrev main_call8_v14 : Ref sig .tc := ⟨.hbm, 187, rfl⟩
abbrev main_call8_cst : Ref sig .tc := ⟨.hbm, 188, rfl⟩
abbrev main_call8_v15 : Ref sig .tc := ⟨.hbm, 189, rfl⟩
abbrev main_v50 : Ref sig .tc := ⟨.hbm, 190, rfl⟩
abbrev main_v51 : Ref sig .tc := ⟨.hbm, 191, rfl⟩
abbrev main_v52 : Ref sig .tc := ⟨.hbm, 192, rfl⟩
abbrev main_c_10 : Ref sig .tc := ⟨.hbm, 193, rfl⟩
abbrev main_call9_v0 : Ref sig .tc := ⟨.hbm, 194, rfl⟩
abbrev main_v53 : Ref sig .tc := ⟨.hbm, 195, rfl⟩
abbrev main_v54 : Ref sig .tc := ⟨.hbm, 196, rfl⟩
abbrev main_v55 : Ref sig .tc := ⟨.hbm, 197, rfl⟩
abbrev main_v56 : Ref sig .tc := ⟨.hbm, 198, rfl⟩
abbrev main_cst_11 : Ref sig .tc := ⟨.hbm, 199, rfl⟩
abbrev main_v57 : Ref sig .tc := ⟨.hbm, 200, rfl⟩
abbrev main_cst_12 : Ref sig .tc := ⟨.hbm, 201, rfl⟩
abbrev main_v58 : Ref sig .tc := ⟨.hbm, 202, rfl⟩
abbrev main_v59 : Ref sig .tc := ⟨.hbm, 203, rfl⟩
abbrev main_c_13 : Ref sig .tc := ⟨.hbm, 204, rfl⟩
abbrev main_call10_cst : Ref sig .tc := ⟨.hbm, 205, rfl⟩
abbrev main_call10_v0 : Ref sig .tc := ⟨.hbm, 206, rfl⟩
abbrev main_call10_v1 : Ref sig .tc := ⟨.hbm, 207, rfl⟩
abbrev main_call10_cst_0 : Ref sig .tc := ⟨.hbm, 208, rfl⟩
abbrev main_call10_v2 : Ref sig .tc := ⟨.hbm, 209, rfl⟩
abbrev main_call10_v3 : Ref sig .tc := ⟨.hbm, 210, rfl⟩
abbrev main_call10_v4 : Ref sig .tc := ⟨.hbm, 211, rfl⟩
abbrev main_call10_v5 : Ref sig .tc := ⟨.hbm, 212, rfl⟩
abbrev main_call10_v6 : Ref sig .tc := ⟨.hbm, 213, rfl⟩
abbrev main_call10_v7 : Ref sig .tc := ⟨.hbm, 214, rfl⟩
abbrev main_call10_cst_1 : Ref sig .tc := ⟨.hbm, 215, rfl⟩
abbrev main_call10_v8 : Ref sig .tc := ⟨.hbm, 216, rfl⟩
abbrev main_call10_cst_2 : Ref sig .tc := ⟨.hbm, 217, rfl⟩
abbrev main_call10_v9 : Ref sig .tc := ⟨.hbm, 218, rfl⟩
abbrev main_call10_v10 : Ref sig .tc := ⟨.hbm, 219, rfl⟩
abbrev main_call10_v11 : Ref sig .tc := ⟨.hbm, 220, rfl⟩
abbrev main_call10_cst_3 : Ref sig .tc := ⟨.hbm, 221, rfl⟩
abbrev main_call10_v12 : Ref sig .tc := ⟨.hbm, 222, rfl⟩
abbrev main_call10_cst_4 : Ref sig .tc := ⟨.hbm, 223, rfl⟩
abbrev main_call10_call0_v0 : Ref sig .tc := ⟨.hbm, 224, rfl⟩
abbrev main_call10_call0_v1 : Ref sig .tc := ⟨.hbm, 225, rfl⟩
abbrev main_v60 : Ref sig .tc := ⟨.hbm, 226, rfl⟩
abbrev main_cst_14 : Ref sig .tc := ⟨.hbm, 227, rfl⟩
abbrev main_v61 : Ref sig .tc := ⟨.hbm, 228, rfl⟩
abbrev main_v62 : Ref sig .tc := ⟨.hbm, 229, rfl⟩
abbrev main_v63 : Ref sig .tc := ⟨.hbm, 230, rfl⟩
abbrev main_c_15 : Ref sig .tc := ⟨.hbm, 231, rfl⟩
abbrev main_call11_v0 : Ref sig .tc := ⟨.hbm, 232, rfl⟩
abbrev main_v64 : Ref sig .tc := ⟨.hbm, 233, rfl⟩
abbrev main_v65 : Ref sig .tc := ⟨.hbm, 234, rfl⟩
abbrev main_v66 : Ref sig .tc := ⟨.hbm, 235, rfl⟩
abbrev main_v67 : Ref sig .tc := ⟨.hbm, 236, rfl⟩
abbrev main_v68 : Ref sig .tc := ⟨.hbm, 237, rfl⟩
abbrev main_v69 : Ref sig .tc := ⟨.hbm, 238, rfl⟩
abbrev main_v70 : Ref sig .tc := ⟨.hbm, 239, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg5_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem5_1 : DmaSem sig := 34

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x448 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![21], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x448 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x448 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![21], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8192x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![21], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x448 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S448x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8192x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![21], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8192x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  transposes_S448x128_S128x448_1_0 : S448x128.Transposes [1, 0] S128x448
  pads_S40962x128_S49152x128_081900_000 : S40962x128.Pads (![0, 0] : Fin 2 → Nat) ![8190, 0] ![0, 0] S49152x128
  h_S_ : 0 < S_.numel
  shapeCasts_S448_S1x448 : S448.ShapeCasts S1x448
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x448_S128x448_0_0 : ∀ a, (![0, 0] : Fin 2 → Nat) a + S128x448.size a ≤ S128x448.size a
  h_S128x448 : 0 < S128x448.numel
  shapeCasts_S128x448_S128x448 : S128x448.ShapeCasts S128x448
  inb_S1x448_S1x448_0_0 : ∀ a, (![0, 0] : Fin 2 → Nat) a + S1x448.size a ≤ S1x448.size a
  h_S1x448 : 0 < S1x448.numel
  shapeCasts_S1x448_S1x448 : S1x448.ShapeCasts S1x448
  broadcasts_S1x448_S8192x448 : S1x448.Broadcasts S8192x448
  inb_S8192x448_S8192x448_0_0 : ∀ a, (![0, 0] : Fin 2 → Nat) a + S8192x448.size a ≤ S8192x448.size a
  h_S8192x448 : 0 < S8192x448.numel
  slices_S49152x448_S40962x448_0_0 : S49152x448.Slices ![0, 0] S40962x448
  shapeCasts_S40962x448_S286734x64 : S40962x448.ShapeCasts S286734x64
  bcast_S_S40962 : S_.BroadcastsInDim S40962 (![] : Fin 0 → Fin S40962.rank)
  bcast_S40962_S40962x1_0 : S40962.BroadcastsInDim S40962x1 (![0] : Fin 1 → Fin S40962x1.rank)
  bcast_S_S40962x1 : S_.BroadcastsInDim S40962x1 (![] : Fin 0 → Fin S40962x1.rank)
  bcast_S1_S1x1_1 : S1.BroadcastsInDim S1x1 (![1] : Fin 1 → Fin S1x1.rank)
  bcast_S1x1_S40962x1_0_1 : S1x1.BroadcastsInDim S40962x1 (![0, 1] : Fin 2 → Fin S40962x1.rank)
  reducesTo_S40962x1_S40962_d1 : S40962x1.ReducesTo [1] S40962
  bcast_S40962_S40962x64_0 : S40962.BroadcastsInDim S40962x64 (![0] : Fin 1 → Fin S40962x64.rank)
  bcast_S_S40962x64 : S_.BroadcastsInDim S40962x64 (![] : Fin 0 → Fin S40962x64.rank)
  bcast_S_S245760 : S_.BroadcastsInDim S245760 (![] : Fin 0 → Fin S245760.rank)
  bcast_S245760_S245760x1_0 : S245760.BroadcastsInDim S245760x1 (![0] : Fin 1 → Fin S245760x1.rank)
  bcast_S_S245760x1 : S_.BroadcastsInDim S245760x1 (![] : Fin 0 → Fin S245760x1.rank)
  bcast_S1x1_S245760x1_0_1 : S1x1.BroadcastsInDim S245760x1 (![0, 1] : Fin 2 → Fin S245760x1.rank)
  reducesTo_S245760x1_S245760_d1 : S245760x1.ReducesTo [1] S245760
  bcast_S245760_S245760x64_0 : S245760.BroadcastsInDim S245760x64 (![0] : Fin 1 → Fin S245760x64.rank)
  bcast_S_S245760x64 : S_.BroadcastsInDim S245760x64 (![] : Fin 0 → Fin S245760x64.rank)
  shapeCasts_S245760x64_S122880x64x2 : S245760x64.ShapeCasts S122880x64x2
  reducesTo_S122880x64x2_S122880x64_d2 : S122880x64x2.ReducesTo [2] S122880x64
  bcast_S_S122880x64 : S_.BroadcastsInDim S122880x64 (![] : Fin 0 → Fin S122880x64.rank)
  concatenates_S40962x64_S122880x64_S163842x64_d0 : Shape.Concatenates [S40962x64, S122880x64] S163842x64 0
  shapeCasts_S64x896_S64x7x128 : S64x896.ShapeCasts S64x7x128
  transposes_S64x7x128_S7x64x128_1_0_2 : S64x7x128.Transposes [1, 0, 2] S7x64x128
  shapeCasts_S7x64x128_S448x128 : S7x64x128.ShapeCasts S448x128
  pads_S163842x64_S172032x64_081900_000 : S163842x64.Pads (![0, 0] : Fin 2 → Nat) ![8190, 0] ![0, 0] S172032x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  concatenates_S8192x64_S8192x64_S8192x128_d1 : Shape.Concatenates [S8192x64, S8192x64] S8192x128 1
  slices_S172032x448_S163842x448_0_0 : S172032x448.Slices ![0, 0] S163842x448
  shapeCasts_S1146894_S163842x7 : S1146894.ShapeCasts S163842x7
  bcast_S7_S1x7_1 : S7.BroadcastsInDim S1x7 (![1] : Fin 1 → Fin S1x7.rank)
  bcast_S_S163842x7 : S_.BroadcastsInDim S163842x7 (![] : Fin 0 → Fin S163842x7.rank)
  bcast_S1x7_S163842x7_0_1 : S1x7.BroadcastsInDim S163842x7 (![0, 1] : Fin 2 → Fin S163842x7.rank)
  shapeCasts_S163842x448_S1146894x64 : S163842x448.ShapeCasts S1146894x64
  shapeCasts_S163842x7_S1146894 : S163842x7.ShapeCasts S1146894
  bcast_S_S1146894 : S_.BroadcastsInDim S1146894 (![] : Fin 0 → Fin S1146894.rank)
  bcast_S1146894_S1146894x1_0 : S1146894.BroadcastsInDim S1146894x1 (![0] : Fin 1 → Fin S1146894x1.rank)
  bcast_S_S1146894x1 : S_.BroadcastsInDim S1146894x1 (![] : Fin 0 → Fin S1146894x1.rank)
  bcast_S1x1_S1146894x1_0_1 : S1x1.BroadcastsInDim S1146894x1 (![0, 1] : Fin 2 → Fin S1146894x1.rank)
  reducesTo_S1146894x1_S1146894_d1 : S1146894x1.ReducesTo [1] S1146894
  bcast_S1146894_S1146894x64_0 : S1146894.BroadcastsInDim S1146894x64 (![0] : Fin 1 → Fin S1146894x64.rank)
  bcast_S_S1146894x64 : S_.BroadcastsInDim S1146894x64 (![] : Fin 0 → Fin S1146894x64.rank)
  shapeCasts_S1146894x64_S163842x7x64 : S1146894x64.ShapeCasts S163842x7x64
  reducesTo_S163842x7x64_S163842x64_d1 : S163842x7x64.ReducesTo [1] S163842x64
  shapeCasts_S64_S1x64 : S64.ShapeCasts S1x64
  bcast_S1x64_S163842x64_0_1 : S1x64.BroadcastsInDim S163842x64 (![0, 1] : Fin 2 → Fin S163842x64.rank)
  reducesTo_S163842x64_S64_d0 : S163842x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  slices_S172032x64_S163842x64_0_0 : S172032x64.Slices ![0, 0] S163842x64
  shapeCasts_S1146894x64_S163842x448 : S1146894x64.ShapeCasts S163842x448
  transposes_S64x448_S448x64_1_0 : S64x448.Transposes [1, 0] S448x64
  pads_S163842x448_S172032x448_081900_000 : S163842x448.Pads (![0, 0] : Fin 2 → Nat) ![8190, 0] ![0, 0] S172032x448
  shapeCasts_S8192x448_S8192x448 : S8192x448.ShapeCasts S8192x448
  inb_S448x64_S448x64_0_0 : ∀ a, (![0, 0] : Fin 2 → Nat) a + S448x64.size a ≤ S448x64.size a
  h_S448x64 : 0 < S448x64.numel
  shapeCasts_S448x64_S448x64 : S448x64.ShapeCasts S448x64
  dot_S8192x128_S128x448_S8192x448_1_0_0_1_n_n_wf : DotDims.WF S8192x128 S128x448 S8192x448 [1] [0] [0] [1] [] []
  gather_S286734x64_S40962x1_S40962x64_1_0_n_n_0_1_164_wf : GatherDims.WF S286734x64 S40962x1 S40962x64 [1] [0] [] [0] [] 1 ![1, 64]
  gather_S286734x64_S245760x1_S245760x64_1_0_n_n_0_1_164_wf : GatherDims.WF S286734x64 S245760x1 S245760x64 [1] [0] [] [0] [] 1 ![1, 64]
  gather_S1146894x64_S1146894x1_S1146894x64_1_0_n_n_0_1_164_wf : GatherDims.WF S1146894x64 S1146894x1 S1146894x64 [1] [0] [] [0] [] 1 ![1, 64]
  gather_S163842x64_S1146894x1_S1146894x64_1_0_n_n_0_1_164_wf : GatherDims.WF S163842x64 S1146894x1 S1146894x64 [1] [0] [] [0] [] 1 ![1, 64]
  dot_S8192x448_S448x64_S8192x64_1_0_0_1_n_n_wf : DotDims.WF S8192x448 S448x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S49152x128.size a
  hwx0_0 : ∀ i : grid0.Coords, EltTy.bits .f32 = 32 ∨ (Rect.block (s := S49152x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x448.size a ≤ S128x448.size a
  hwx0_1 : ∀ i : grid0.Coords, EltTy.bits .f32 = 32 ∨ (Rect.block (s := S128x448) S128x448.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x448.size a ≤ S1x448.size a
  hwx0_2 : ∀ i : grid0.Coords, EltTy.bits .f32 = 32 ∨ (Rect.block (s := S1x448) S1x448.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x448.size a ≤ S49152x448.size a
  hwx0_3 : ∀ i : grid0.Coords, EltTy.bits .f32 = 32 ∨ (Rect.block (s := S49152x448) S8192x448.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S172032x64.size a
  hwx1_0 : ∀ i : grid1.Coords, EltTy.bits .f32 = 32 ∨ (Rect.block (s := S172032x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S172032x64.size a
  hwx1_1 : ∀ i : grid1.Coords, EltTy.bits .f32 = 32 ∨ (Rect.block (s := S172032x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x448.size a ≤ S128x448.size a
  hwx1_2 : ∀ i : grid1.Coords, EltTy.bits .f32 = 32 ∨ (Rect.block (s := S128x448) S128x448.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x448.size a ≤ S172032x448.size a
  hwx1_3 : ∀ i : grid1.Coords, EltTy.bits .f32 = 32 ∨ (Rect.block (s := S172032x448) S8192x448.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S172032x64.size a
  hwx2_0 : ∀ i : grid2.Coords, EltTy.bits .f32 = 32 ∨ (Rect.block (s := S172032x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8192x64.size a ≤ S172032x64.size a
  hwx2_5 : ∀ i : grid2.Coords, EltTy.bits .f32 = 32 ∨ (Rect.block (s := S172032x64) S8192x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x448.size a ≤ S172032x448.size a
  hwx3_0 : ∀ i : grid3.Coords, EltTy.bits .f32 = 32 ∨ (Rect.block (s := S172032x448) S8192x448.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S448x64.size a ≤ S448x64.size a
  hwx3_1 : ∀ i : grid3.Coords, EltTy.bits .f32 = 32 ∨ (Rect.block (s := S448x64) S448x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x64.size a ≤ S172032x64.size a
  hwx3_3 : ∀ i : grid3.Coords, EltTy.bits .f32 = 32 ∨ (Rect.block (s := S172032x64) S8192x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S172032x64.size a
  hwx4_0 : ∀ i : grid4.Coords, EltTy.bits .f32 = 32 ∨ (Rect.block (s := S172032x64) S8192x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8192x64.size a ≤ S172032x64.size a
  hwx4_5 : ∀ i : grid4.Coords, EltTy.bits .f32 = 32 ∨ (Rect.block (s := S172032x64) S8192x64.size (cc4_transform_5 i) (hinb4_5 i)).WholeWords (EltTy.packing .f32)

variable [Facts₀]

def dot_S8192x128_S128x448_S8192x448_1_0_0_1_n_n : DotDims S8192x128 S128x448 S8192x448 where
  lhsContracting := [1]
  rhsContracting := [0]
  lhsNonContracting := [0]
  rhsNonContracting := [1]
  lhsBatch := []
  rhsBatch := []
  wf := dot_S8192x128_S128x448_S8192x448_1_0_0_1_n_n_wf
def gather_S286734x64_S40962x1_S40962x64_1_0_n_n_0_1_164 : GatherDims S286734x64 S40962x1 S40962x64 where
  offsetDims := [1]
  collapsedSliceDims := [0]
  operandBatchingDims := []
  startIndicesBatchingDims := []
  startIndexMap := [0]
  indexVectorDim := 1
  sliceSizes := ![1, 64]
  wf := gather_S286734x64_S40962x1_S40962x64_1_0_n_n_0_1_164_wf
def gather_S286734x64_S245760x1_S245760x64_1_0_n_n_0_1_164 : GatherDims S286734x64 S245760x1 S245760x64 where
  offsetDims := [1]
  collapsedSliceDims := [0]
  operandBatchingDims := []
  startIndicesBatchingDims := []
  startIndexMap := [0]
  indexVectorDim := 1
  sliceSizes := ![1, 64]
  wf := gather_S286734x64_S245760x1_S245760x64_1_0_n_n_0_1_164_wf
def gather_S1146894x64_S1146894x1_S1146894x64_1_0_n_n_0_1_164 : GatherDims S1146894x64 S1146894x1 S1146894x64 where
  offsetDims := [1]
  collapsedSliceDims := [0]
  operandBatchingDims := []
  startIndicesBatchingDims := []
  startIndexMap := [0]
  indexVectorDim := 1
  sliceSizes := ![1, 64]
  wf := gather_S1146894x64_S1146894x1_S1146894x64_1_0_n_n_0_1_164_wf
def gather_S163842x64_S1146894x1_S1146894x64_1_0_n_n_0_1_164 : GatherDims S163842x64 S1146894x1 S1146894x64 where
  offsetDims := [1]
  collapsedSliceDims := [0]
  operandBatchingDims := []
  startIndicesBatchingDims := []
  startIndexMap := [0]
  indexVectorDim := 1
  sliceSizes := ![1, 64]
  wf := gather_S163842x64_S1146894x1_S1146894x64_1_0_n_n_0_1_164_wf
def dot_S8192x448_S448x64_S8192x64_1_0_0_1_n_n : DotDims S8192x448 S448x64 S8192x64 where
  lhsContracting := [1]
  rhsContracting := [0]
  lhsNonContracting := [0]
  rhsNonContracting := [1]
  lhsBatch := []
  rhsBatch := []
  wf := dot_S8192x448_S448x64_S8192x64_1_0_0_1_n_n_wf

abbrev win0_0 : Pipeline.Window sig grid0 :=
  Pipeline.Window.ofSpec (Memref.whole main_v1) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x448.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x448.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x448.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x448.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S8192x448.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S8192x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S8192x448.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S448x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S8192x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v64) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v69) S8192x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S40962x128 : Shape := ⟨2, ![40962, 128]⟩
abbrev S163842x64 : Shape := ⟨2, ![163842, 64]⟩
abbrev S448x128 : Shape := ⟨2, ![448, 128]⟩
abbrev S448 : Shape := ⟨1, ![448]⟩
abbrev S64x896 : Shape := ⟨2, ![64, 896]⟩
abbrev S64 : Shape := ⟨1, ![64]⟩
abbrev S64x448 : Shape := ⟨2, ![64, 448]⟩
abbrev S1146894 : Shape := ⟨1, ![1146894]⟩
abbrev S40962 : Shape := ⟨1, ![40962]⟩
abbrev S245760 : Shape := ⟨1, ![245760]⟩
abbrev S128x448 : Shape := ⟨2, ![128, 448]⟩
abbrev S40962x448 : Shape := ⟨2, ![40962, 448]⟩
abbrev S1x448 : Shape := ⟨2, ![1, 448]⟩
abbrev S286734x64 : Shape := ⟨2, ![286734, 64]⟩
abbrev S_ : Shape := ⟨0, ![]⟩
abbrev S40962x1 : Shape := ⟨2, ![40962, 1]⟩
abbrev S40962x64 : Shape := ⟨2, ![40962, 64]⟩
abbrev S245760x1 : Shape := ⟨2, ![245760, 1]⟩
abbrev S245760x64 : Shape := ⟨2, ![245760, 64]⟩
abbrev S122880x64x2 : Shape := ⟨3, ![122880, 64, 2]⟩
abbrev S122880x64 : Shape := ⟨2, ![122880, 64]⟩
abbrev S163842x128 : Shape := ⟨2, ![163842, 128]⟩
abbrev S1146894x1 : Shape := ⟨2, ![1146894, 1]⟩
abbrev S1146894x128 : Shape := ⟨2, ![1146894, 128]⟩
abbrev S163842x896 : Shape := ⟨2, ![163842, 896]⟩
abbrev S896x64 : Shape := ⟨2, ![896, 64]⟩
abbrev S1x64 : Shape := ⟨2, ![1, 64]⟩
abbrev S1146894x64 : Shape := ⟨2, ![1146894, 64]⟩
abbrev S163842x448 : Shape := ⟨2, ![163842, 448]⟩
abbrev S448x64 : Shape := ⟨2, ![448, 64]⟩

abbrev nBuf : Space → Nat
  | .hbm => 179
  | .vmem => 0
  | .smem => 0
  | _ => 0

abbrev hbmTy0_0 (i : Nat) : BufTy := match i % 128 with
  | 0 => ⟨S40962x128, .f32⟩
  | 1 => ⟨S163842x64, .f32⟩
  | 2 => ⟨S448x128, .f32⟩
  | 3 => ⟨S448, .f32⟩
  | 4 => ⟨S64x896, .f32⟩
  | 5 => ⟨S64, .f32⟩
  | 6 => ⟨S64, .f32⟩
  | 7 => ⟨S64, .f32⟩
  | 8 => ⟨S64x448, .f32⟩
  | 9 => ⟨S64, .f32⟩
  | 10 => ⟨S64, .f32⟩
  | 11 => ⟨S64, .f32⟩
  | 12 => ⟨S1146894, .i32⟩
  | 13 => ⟨S40962, .i32⟩
  | 14 => ⟨S245760, .i32⟩
  | 15 => ⟨S128x448, .f32⟩
  | 16 => ⟨S40962x448, .f32⟩
  | 17 => ⟨S1x448, .f32⟩
  | 18 => ⟨S40962x448, .f32⟩
  | 19 => ⟨S40962x448, .f32⟩
  | 20 => ⟨S286734x64, .f32⟩
  | 21 => ⟨S_, .i32⟩
  | 22 => ⟨S40962, .i32⟩
  | 23 => ⟨S40962, .i1⟩
  | 24 => ⟨S_, .i32⟩
  | 25 => ⟨S40962, .i32⟩
  | 26 => ⟨S40962, .i32⟩
  | 27 => ⟨S40962, .i32⟩
  | 28 => ⟨S40962x1, .i32⟩
  | 29 => ⟨S40962x64, .f32⟩
  | 30 => ⟨S_, .i32⟩
  | 31 => ⟨S245760, .i32⟩
  | 32 => ⟨S245760, .i1⟩
  | 33 => ⟨S_, .i32⟩
  | 34 => ⟨S245760, .i32⟩
  | 35 => ⟨S245760, .i32⟩
  | 36 => ⟨S245760, .i32⟩
  | 37 => ⟨S245760x1, .i32⟩
  | 38 => ⟨S245760x64, .f32⟩
  | 39 => ⟨S122880x64x2, .f32⟩
  | 40 => ⟨S_, .f32⟩
  | 41 => ⟨S122880x64, .f32⟩
  | 42 => ⟨S_, .f32⟩
  | 43 => ⟨S122880x64, .f32⟩
  | 44 => ⟨S122880x64, .f32⟩
  | 45 => ⟨S163842x64, .f32⟩
  | 46 => ⟨S163842x128, .f32⟩
  | 47 => ⟨S_, .i32⟩
  | 48 => ⟨S1146894, .i32⟩
  | 49 => ⟨S1146894, .i1⟩
  | 50 => ⟨S_, .i32⟩
  | 51 => ⟨S1146894, .i32⟩
  | 52 => ⟨S1146894, .i32⟩
  | 53 => ⟨S1146894, .i32⟩
  | 54 => ⟨S1146894x1, .i32⟩
  | 55 => ⟨S1146894x128, .f32⟩
  | 56 => ⟨S163842x896, .f32⟩
  | 57 => ⟨S896x64, .f32⟩
  | 58 => ⟨S163842x64, .f32⟩
  | 59 => ⟨S1x64, .f32⟩
  | 60 => ⟨S163842x64, .f32⟩
  | 61 => ⟨S163842x64, .f32⟩
  | 62 => ⟨S_, .f32⟩
  | 63 => ⟨S64, .f32⟩
  | 64 => ⟨S_, .f32⟩
  | 65 => ⟨S64, .f32⟩
  | 66 => ⟨S64, .f32⟩
  | 67 => ⟨S_, .i32⟩
  | 68 => ⟨S_, .f32⟩
  | 69 => ⟨S64, .f32⟩
  | 70 => ⟨S1x64, .f32⟩
  | 71 => ⟨S_, .f32⟩
  | 72 => ⟨S1x64, .f32⟩
  | 73 => ⟨S1x64, .f32⟩
  | 74 => ⟨S163842x64, .f32⟩
  | 75 => ⟨S163842x64, .f32⟩
  | 76 => ⟨S163842x64, .f32⟩
  | 77 => ⟨S_, .f32⟩
  | 78 => ⟨S_, .f32⟩
  | 79 => ⟨S_, .f32⟩
  | 80 => ⟨S_, .f32⟩
  | 81 => ⟨S64, .f32⟩
  | 82 => ⟨S64, .f32⟩
  | 83 => ⟨S64, .f32⟩
  | 84 => ⟨S_, .f32⟩
  | 85 => ⟨S_, .i1⟩
  | 86 => ⟨S_, .f32⟩
  | 87 => ⟨S_, .f32⟩
  | 88 => ⟨S64, .f32⟩
  | 89 => ⟨S64, .f32⟩
  | 90 => ⟨S1x64, .f32⟩
  | 91 => ⟨S163842x64, .f32⟩
  | 92 => ⟨S163842x64, .f32⟩
  | 93 => ⟨S_, .f32⟩
  | 94 => ⟨S64, .f32⟩
  | 95 => ⟨S64, .f32⟩
  | 96 => ⟨S64, .f32⟩
  | 97 => ⟨S1x64, .f32⟩
  | 98 => ⟨S163842x64, .f32⟩
  | 99 => ⟨S163842x64, .f32⟩
  | 100 => ⟨S1x64, .f32⟩
  | 101 => ⟨S163842x64, .f32⟩
  | 102 => ⟨S163842x64, .f32⟩
  | 103 => ⟨S1x64, .f32⟩
  | 104 => ⟨S163842x64, .f32⟩
  | 105 => ⟨S163842x64, .f32⟩
  | 106 => ⟨S_, .f32⟩
  | 107 => ⟨S163842x64, .f32⟩
  | 108 => ⟨S163842x64, .i1⟩
  | 109 => ⟨S_, .f32⟩
  | 110 => ⟨S163842x64, .f32⟩
  | 111 => ⟨S163842x64, .f32⟩
  | 112 => ⟨S163842x64, .f32⟩
  | 113 => ⟨S_, .i32⟩
  | 114 => ⟨S1146894, .i32⟩
  | 115 => ⟨S1146894, .i1⟩
  | 116 => ⟨S_, .i32⟩
  | 117 => ⟨S1146894, .i32⟩
  | 118 => ⟨S1146894, .i32⟩
  | 119 => ⟨S1146894, .i32⟩
  | 120 => ⟨S1146894x1, .i32⟩
  | 121 => ⟨S1146894x64, .f32⟩
  | 122 => ⟨S163842x448, .f32⟩
  | 123 => ⟨S448x64, .f32⟩
  | 124 => ⟨S163842x64, .f32⟩
  | 125 => ⟨S1x64, .f32⟩
  | 126 => ⟨S163842x64, .f32⟩
  | 127 => ⟨S163842x64, .f32⟩
  | _ => ⟨S40962x128, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S_, .i32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S163842x64, .f32⟩
  | 13 => ⟨S163842x64, .f32⟩
  | 14 => ⟨S163842x64, .f32⟩
  | 15 => ⟨S_, .f32⟩
  | 16 => ⟨S_, .f32⟩
  | 17 => ⟨S_, .f32⟩
  | 18 => ⟨S_, .f32⟩
  | 19 => ⟨S64, .f32⟩
  | 20 => ⟨S64, .f32⟩
  | 21 => ⟨S64, .f32⟩
  | 22 => ⟨S_, .f32⟩
  | 23 => ⟨S_, .i1⟩
  | 24 => ⟨S_, .f32⟩
  | 25 => ⟨S_, .f32⟩
  | 26 => ⟨S64, .f32⟩
  | 27 => ⟨S64, .f32⟩
  | 28 => ⟨S1x64, .f32⟩
  | 29 => ⟨S163842x64, .f32⟩
  | 30 => ⟨S163842x64, .f32⟩
  | 31 => ⟨S_, .f32⟩
  | 32 => ⟨S64, .f32⟩
  | 33 => ⟨S64, .f32⟩
  | 34 => ⟨S64, .f32⟩
  | 35 => ⟨S1x64, .f32⟩
  | 36 => ⟨S163842x64, .f32⟩
  | 37 => ⟨S163842x64, .f32⟩
  | 38 => ⟨S1x64, .f32⟩
  | 39 => ⟨S163842x64, .f32⟩
  | 40 => ⟨S163842x64, .f32⟩
  | 41 => ⟨S1x64, .f32⟩
  | 42 => ⟨S163842x64, .f32⟩
  | 43 => ⟨S163842x64, .f32⟩
  | 44 => ⟨S_, .f32⟩
  | 45 => ⟨S163842x64, .f32⟩
  | 46 => ⟨S163842x64, .i1⟩
  | 47 => ⟨S_, .f32⟩
  | 48 => ⟨S163842x64, .f32⟩
  | 49 => ⟨S163842x64, .f32⟩
  | 50 => ⟨S163842x64, .f32⟩
  | _ => ⟨S40962x128, .f32⟩

abbrev hbmTy (i : Nat) : BufTy := match i / 128 with
  | 0 => hbmTy0_0 i
  | 1 => hbmTy0_1 i
  | _ => ⟨S40962x128, .f32⟩

abbrev bufTy : (tb : Table) → Fin (tcTables nBuf tb) → BufTy
  | .hbm, ⟨i, _⟩ => hbmTy i
  | _, _ => ⟨S40962x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_cst_1 : Ref sig .tc := ⟨.hbm, 78, rfl⟩
abbrev main_call0_v8 : Ref sig .tc := ⟨.hbm, 79, rfl⟩
abbrev main_call0_cst_2 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_cst_3 : Ref sig .tc := ⟨.hbm, 84, rfl⟩
abbrev main_call0_v12 : Ref sig .tc := ⟨.hbm, 85, rfl⟩
abbrev main_call0_cst_4 : Ref sig .tc := ⟨.hbm, 86, rfl⟩
abbrev main_call0_call0_v0 : Ref sig .tc := ⟨.hbm, 87, rfl⟩
abbrev main_call0_call0_v1 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_9 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_10 : Ref sig .tc := ⟨.hbm, 106, rfl⟩
abbrev main_v58 : Ref sig .tc := ⟨.hbm, 107, rfl⟩
abbrev main_v59 : Ref sig .tc := ⟨.hbm, 108, rfl⟩
abbrev main_cst_11 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_c_12 : Ref sig .tc := ⟨.hbm, 113, rfl⟩
abbrev main_v63 : Ref sig .tc := ⟨.hbm, 114, rfl⟩
abbrev main_v64 : Ref sig .tc := ⟨.hbm, 115, rfl⟩
abbrev main_c_13 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_14 : Ref sig .tc := ⟨.hbm, 128, rfl⟩
abbrev main_v76 : Ref sig .tc := ⟨.hbm, 129, rfl⟩
abbrev main_cst_15 : Ref sig .tc := ⟨.hbm, 130, rfl⟩
abbrev main_v77 : Ref sig .tc := ⟨.hbm, 131, rfl⟩
abbrev main_v78 : Ref sig .tc := ⟨.hbm, 132, rfl⟩
abbrev main_c_16 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_cst_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_v7 : Ref sig .tc := ⟨.hbm, 143, rfl⟩
abbrev main_call2_cst_1 : Ref sig .tc := ⟨.hbm, 144, rfl⟩
abbrev main_call2_v8 : Ref sig .tc := ⟨.hbm, 145, rfl⟩
abbrev main_call2_cst_2 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_cst_3 : Ref sig .tc := ⟨.hbm, 150, rfl⟩
abbrev main_call2_v12 : Ref sig .tc := ⟨.hbm, 151, rfl⟩
abbrev main_call2_cst_4 : Ref sig .tc := ⟨.hbm, 152, rfl⟩
abbrev main_call2_call0_v0 : Ref sig .tc := ⟨.hbm, 153, rfl⟩
abbrev main_call2_call0_v1 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_cst_17 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_cst_18 : Ref sig .tc := ⟨.hbm, 172, rfl⟩
abbrev main_v95 : Ref sig .tc := ⟨.hbm, 173, rfl⟩
abbrev main_v96 : Ref sig .tc := ⟨.hbm, 174, rfl⟩
abbrev main_cst_19 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩

abbrev nD : Nat := 1
abbrev τ : Topo := Topo.v7x

variable {F : FTy → Type} [FloatOps F]

class Facts₀ : Prop where
  transposes_S448x128_S128x448_1_0 : S448x128.Transposes [1, 0] S128x448
  bcast_S448_S1x448_1 : S448.BroadcastsInDim S1x448 (![1] : Fin 1 → Fin S1x448.rank)
  bcast_S1x448_S40962x448_0_1 : S1x448.BroadcastsInDim S40962x448 (![0, 1] : Fin 2 → Fin S40962x448.rank)
  shapeCasts_S40962x448_S286734x64 : S40962x448.ShapeCasts S286734x64
  bcast_S_S40962 : S_.BroadcastsInDim S40962 (![] : Fin 0 → Fin S40962.rank)
  bcast_S40962_S40962x1_0 : S40962.BroadcastsInDim S40962x1 (![0] : Fin 1 → Fin S40962x1.rank)
  bcast_S_S245760 : S_.BroadcastsInDim S245760 (![] : Fin 0 → Fin S245760.rank)
  bcast_S245760_S245760x1_0 : S245760.BroadcastsInDim S245760x1 (![0] : Fin 1 → Fin S245760x1.rank)
  shapeCasts_S245760x64_S122880x64x2 : S245760x64.ShapeCasts S122880x64x2
  reducesTo_S122880x64x2_S122880x64_d2 : S122880x64x2.ReducesTo [2] S122880x64
  h_S_ : 0 < S_.numel
  bcast_S_S122880x64 : S_.BroadcastsInDim S122880x64 (![] : Fin 0 → Fin S122880x64.rank)
  concatenates_S40962x64_S122880x64_S163842x64_d0 : Shape.Concatenates [S40962x64, S122880x64] S163842x64 0
  concatenates_S163842x64_S163842x64_S163842x128_d1 : Shape.Concatenates [S163842x64, S163842x64] S163842x128 1
  bcast_S_S1146894 : S_.BroadcastsInDim S1146894 (![] : Fin 0 → Fin S1146894.rank)
  bcast_S1146894_S1146894x1_0 : S1146894.BroadcastsInDim S1146894x1 (![0] : Fin 1 → Fin S1146894x1.rank)
  shapeCasts_S1146894x128_S163842x896 : S1146894x128.ShapeCasts S163842x896
  transposes_S64x896_S896x64_1_0 : S64x896.Transposes [1, 0] S896x64
  bcast_S64_S1x64_1 : S64.BroadcastsInDim S1x64 (![1] : Fin 1 → Fin S1x64.rank)
  bcast_S1x64_S163842x64_0_1 : S1x64.BroadcastsInDim S163842x64 (![0, 1] : Fin 2 → Fin S163842x64.rank)
  reducesTo_S163842x64_S64_d0 : S163842x64.ReducesTo [0] S64
  bcast_S_S64 : S_.BroadcastsInDim S64 (![] : Fin 0 → Fin S64.rank)
  bcast_S_S1x64 : S_.BroadcastsInDim S1x64 (![] : Fin 0 → Fin S1x64.rank)
  bcast_S_S163842x64 : S_.BroadcastsInDim S163842x64 (![] : Fin 0 → Fin S163842x64.rank)
  shapeCasts_S1146894x64_S163842x448 : S1146894x64.ShapeCasts S163842x448
  transposes_S64x448_S448x64_1_0 : S64x448.Transposes [1, 0] S448x64
  dot_S40962x128_S128x448_S40962x448_1_0_0_1_n_n_wf : DotDims.WF S40962x128 S128x448 S40962x448 [1] [0] [0] [1] [] []
  gather_S286734x64_S40962x1_S40962x64_1_0_n_n_0_1_164_wf : GatherDims.WF S286734x64 S40962x1 S40962x64 [1] [0] [] [0] [] 1 ![1, 64]
  gather_S286734x64_S245760x1_S245760x64_1_0_n_n_0_1_164_wf : GatherDims.WF S286734x64 S245760x1 S245760x64 [1] [0] [] [0] [] 1 ![1, 64]
  gather_S163842x128_S1146894x1_S1146894x128_1_0_n_n_0_1_1128_wf : GatherDims.WF S163842x128 S1146894x1 S1146894x128 [1] [0] [] [0] [] 1 ![1, 128]
  dot_S163842x896_S896x64_S163842x64_1_0_0_1_n_n_wf : DotDims.WF S163842x896 S896x64 S163842x64 [1] [0] [0] [1] [] []
  gather_S163842x64_S1146894x1_S1146894x64_1_0_n_n_0_1_164_wf : GatherDims.WF S163842x64 S1146894x1 S1146894x64 [1] [0] [] [0] [] 1 ![1, 64]
  dot_S163842x448_S448x64_S163842x64_1_0_0_1_n_n_wf : DotDims.WF S163842x448 S448x64 S163842x64 [1] [0] [0] [1] [] []

variable [Facts₀]

def dot_S40962x128_S128x448_S40962x448_1_0_0_1_n_n : DotDims S40962x128 S128x448 S40962x448 where
  lhsContracting := [1]
  rhsContracting := [0]
  lhsNonContracting := [0]
  rhsNonContracting := [1]
  lhsBatch := []
  rhsBatch := []
  wf := dot_S40962x128_S128x448_S40962x448_1_0_0_1_n_n_wf
def gather_S286734x64_S40962x1_S40962x64_1_0_n_n_0_1_164 : GatherDims S286734x64 S40962x1 S40962x64 where
  offsetDims := [1]
  collapsedSliceDims := [0]
  operandBatchingDims := []
  startIndicesBatchingDims := []
  startIndexMap := [0]
  indexVectorDim := 1
  sliceSizes := ![1, 64]
  wf := gather_S286734x64_S40962x1_S40962x64_1_0_n_n_0_1_164_wf
def gather_S286734x64_S245760x1_S245760x64_1_0_n_n_0_1_164 : GatherDims S286734x64 S245760x1 S245760x64 where
  offsetDims := [1]
  collapsedSliceDims := [0]
  operandBatchingDims := []
  startIndicesBatchingDims := []
  startIndexMap := [0]
  indexVectorDim := 1
  sliceSizes := ![1, 64]
  wf := gather_S286734x64_S245760x1_S245760x64_1_0_n_n_0_1_164_wf
def gather_S163842x128_S1146894x1_S1146894x128_1_0_n_n_0_1_1128 : GatherDims S163842x128 S1146894x1 S1146894x128 where
  offsetDims := [1]
  collapsedSliceDims := [0]
  operandBatchingDims := []
  startIndicesBatchingDims := []
  startIndexMap := [0]
  indexVectorDim := 1
  sliceSizes := ![1, 128]
  wf := gather_S163842x128_S1146894x1_S1146894x128_1_0_n_n_0_1_1128_wf
def dot_S163842x896_S896x64_S163842x64_1_0_0_1_n_n : DotDims S163842x896 S896x64 S163842x64 where
  lhsContracting := [1]
  rhsContracting := [0]
  lhsNonContracting := [0]
  rhsNonContracting := [1]
  lhsBatch := []
  rhsBatch := []
  wf := dot_S163842x896_S896x64_S163842x64_1_0_0_1_n_n_wf
def gather_S163842x64_S1146894x1_S1146894x64_1_0_n_n_0_1_164 : GatherDims S163842x64 S1146894x1 S1146894x64 where
  offsetDims := [1]
  collapsedSliceDims := [0]
  operandBatchingDims := []
  startIndicesBatchingDims := []
  startIndexMap := [0]
  indexVectorDim := 1
  sliceSizes := ![1, 64]
  wf := gather_S163842x64_S1146894x1_S1146894x64_1_0_n_n_0_1_164_wf
def dot_S163842x448_S448x64_S163842x64_1_0_0_1_n_n : DotDims S163842x448 S448x64 S163842x64 where
  lhsContracting := [1]
  rhsContracting := [0]
  lhsNonContracting := [0]
  rhsNonContracting := [1]
  lhsBatch := []
  rhsBatch := []
  wf := dot_S163842x448_S448x64_S163842x64_1_0_0_1_n_n_wf

class Facts : Prop extends Facts₀ where

variable [Facts]
-- ==== Proof.Carry.lean ====
/-
  A buffer that no operation of a host stretch writes holds after the stretch what it held before it; across a kernel
  region the same holds for every buffer that is not one of the region's window arrays. `untouched ops` proves the
  first for the stretch named `ops`: each operation's written buffer is compared with the buffer carried.
-/
import proofs.«417947_j4449586118756_2_alg».proof.Proof.Gen.KernelIdeal.Frame

namespace Cert.KernelIdeal.Chain

open Idealize.ShloMosaic

/-- `W' b = W b` where `W' = StableHlo.after ops W` and no operation of `ops` writes `b`. -/
macro "untouched " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

end Cert.KernelIdeal.Chain
-- ==== Proof.Spec.lean ====
/-
  What each of the five kernel regions leaves in its output array, written as one function of the arrays the region
  reads, index by index, on the extended reals:
  * a linear layer on rows: entry (r, j) is the sum over k of A(r, k) · B(k, j), plus the bias row C(0, j);
  * the same with the left operand split in two column halves U | X (the concatenation is never stored);
  * the batch-norm affine map followed by the leaky rectifier: with y = g · ((x − μ) · s) + β per column,
    the entry is y where y ≥ 0 and 0.2 · y elsewhere (0.2 is the f32 word 0x3E4CCCCD on both sides).
-/
import Idealize.ShloMosaic.PureOps.Ideal
import Idealize.ShloMosaic.Lib.ValueIdx

noncomputable section

namespace Cert.Spec

open Idealize.ShloMosaic Idealize.ShloMosaic.ValueIdx

/-- The shape of an a × b array. -/
abbrev Sh2 (a b : Nat) : Shape := ⟨2, ![a, b]⟩

/-- An a × b array of extended reals. -/
abbrev A2 (a b : Nat) : Type := (Sh2 a b).Idx → EReal

/-- Rows of `A` against columns of `B`, plus the bias row `C`. -/
def regLin {M K N : Nat} (A : A2 M K) (B : A2 K N) (C : A2 1 N) : A2 M N :=
  fun i => (∑ k : Fin K, A (ix2 (i 0) k) * B (ix2 k (i 1))) + C (ix2 (0 : Fin 1) (i 1))

/-- Column `k` of the row-wise concatenation `U | X` of two 64-column arrays. -/
def catAt {M : Nat} (U X : A2 M 64) (r : Fin M) (k : Fin 128) : EReal :=
  if h : k.val < 64 then U (ix2 r ⟨k.val, h⟩) else X (ix2 r ⟨k.val - 64, by omega⟩)

/-- Rows of `U | X` against columns of `B`. -/
def regCat {M N : Nat} (U X : A2 M 64) (B : A2 128 N) : A2 M N :=
  fun i => ∑ k : Fin 128, catAt U X (i 0) k * B (ix2 k (i 1))

/-- The affine normalisation of column `q` followed by the leaky rectifier. -/
def bnAct (x mu s g be : EReal) : EReal :=
  Scalar.select (FloatOps.cmpf (F := Ideal) (φ := .f32) .oge (g * ((x - mu) * s) + be) (Ideal.ofBits .f32 0x00000000#32))
    (g * ((x - mu) * s) + be) (Ideal.ofBits .f32 0x3E4CCCCD#32 * (g * ((x - mu) * s) + be))

/-- Every entry normalised with its column's statistics and parameters (rows `mu`, `s`, `g`, `be` of one line). -/
def regBn {M N : Nat} (X : A2 M N) (mu s g be : A2 1 N) : A2 M N :=
  fun i => bnAct (X i) (mu (ix2 (0 : Fin 1) (i 1))) (s (ix2 (0 : Fin 1) (i 1))) (g (ix2 (0 : Fin 1) (i 1))) (be (ix2 (0 : Fin 1) (i 1)))

end Cert.Spec

end
-- ==== Proof.KStage.lean ====
/-
  The kernel program, stage by stage: each stage is the composed term of its printed host operations around what a
  kernel region leaves in its output array (Spec's `regLin`, `regCat`, `regBn`). Rows are padded with zeros to a
  multiple of 8192 before a region and the padding rows are sliced off after it; a `take` fills rows whose (wrapped)
  index is out of range with the NaN word.
-/
import proofs.«417947_j4449586118756_2_alg».proof.Proof.Gen.KernelIdeal
import proofs.«417947_j4449586118756_2_alg».proof.Proof.Spec

noncomputable section

namespace Cert.KernelIdeal.Stage

open Cert.KernelIdeal Cert.KernelIdeal.Gen Idealize.ShloMosaic Cert.Spec

/-- The zero the padding rows hold: the integer 0 converted. -/
def zpad : FVec Ideal S_ .f32 := sitofp .f32 (constantI S_ 32 0#32)

/-- y: the sliced output of the first linear region on the zero-padded x1. -/
def yK (x1 : FVec Ideal S40962x128 .f32) (wup : FVec Ideal S448x128 .f32) (bup : FVec Ideal S448 .f32) : FVec Ideal S40962x448 .f32 :=
  extractStridedSlice S40962x448 ![0, 0]
    (regLin (M := 49152) (K := 128) (N := 448)
      (pad S49152x128 ![0, 0] ![8190, 0] ![0, 0] x1 zpad pads_S40962x128_S49152x128_081900_000 h_S_)
      (transpose S128x448 [1, 0] wup transposes_S448x128_S128x448_1_0)
      (shapeCast S1x448 bup shapeCasts_S448_S1x448))
    slices_S49152x448_S40962x448_0_0

/-- The wrapped top indices as a column. -/
def wrapTopK (i : IVec S40962 32) : IVec S40962x1 32 :=
  broadcastInDim S40962x1 ![0] bcast_S40962_S40962x1_0
    (select (cmpi .slt i (broadcastInDim S40962 ![] bcast_S_S40962 (constantI S_ 32 0#32)))
      (addi i (broadcastInDim S40962 ![] bcast_S_S40962 (constantI S_ 32 286734#32))) i)

/-- The wrapped down indices as a column. -/
def wrapDownK (i : IVec S245760 32) : IVec S245760x1 32 :=
  broadcastInDim S245760x1 ![0] bcast_S245760_S245760x1_0
    (select (cmpi .slt i (broadcastInDim S245760 ![] bcast_S_S245760 (constantI S_ 32 0#32)))
      (addi i (broadcastInDim S245760 ![] bcast_S_S245760 (constantI S_ 32 286734#32))) i)

/-- Which of the wrapped top indices lie in 0 … 286733. -/
def okTopK (i5 : IVec S40962x1 32) : IVec S40962 1 :=
  Host.reduce IntOp.andi
    (andi (cmpi .sge i5 (broadcastInDim S40962x1 ![] bcast_S_S40962x1 (constantI S_ 32 0#32)))
      (cmpi .sle i5 (broadcastInDim S40962x1 ![0, 1] bcast_S1x1_S40962x1_0_1 (broadcastInDim S1x1 ![1] bcast_S1_S1x1_1 (constantI S1 32 286733#32)))))
    (constantI S_ 1 1#1) reducesTo_S40962x1_S40962_d1 h_S_

/-- Which of the wrapped down indices lie in 0 … 286733. -/
def okDownK (i5 : IVec S245760x1 32) : IVec S245760 1 :=
  Host.reduce IntOp.andi
    (andi (cmpi .sge i5 (broadcastInDim S245760x1 ![] bcast_S_S245760x1 (constantI S_ 32 0#32)))
      (cmpi .sle i5 (broadcastInDim S245760x1 ![0, 1] bcast_S1x1_S245760x1_0_1 (broadcastInDim S1x1 ![1] bcast_S1_S1x1_1 (constantI S1 32 286733#32)))))
    (constantI S_ 1 1#1) reducesTo_S245760x1_S245760_d1 h_S_

/-- The taken top rows: gathered where the index is in range, the NaN word elsewhere. -/
def takeTopK (yf : FVec Ideal S286734x64 .f32) (top : IVec S40962 32) : FVec Ideal S40962x64 .f32 :=
  select (broadcastInDim S40962x64 ![0] bcast_S40962_S40962x64_0 (okTopK (wrapTopK top)))
    (Host.gather gather_S286734x64_S40962x1_S40962x64_1_0_n_n_0_1_164 yf (wrapTopK top))
    (broadcastInDim S40962x64 ![] bcast_S_S40962x64 (constant S_ .f32 0x7FC00000#32))

/-- The taken down rows. -/
def takeDownK (yf : FVec Ideal S286734x64 .f32) (down : IVec S245760 32) : FVec Ideal S245760x64 .f32 :=
  select (broadcastInDim S245760x64 ![0] bcast_S245760_S245760x64_0 (okDownK (wrapDownK down)))
    (Host.gather gather_S286734x64_S245760x1_S245760x64_1_0_n_n_0_1_164 yf (wrapDownK down))
    (broadcastInDim S245760x64 ![] bcast_S_S245760x64 (constant S_ .f32 0x7FC00000#32))

/-- up: the taken top rows over the averaged pairs of taken down rows. -/
def upK (y : FVec Ideal S40962x448 .f32) (top : IVec S40962 32) (down : IVec S245760 32) : FVec Ideal S163842x64 .f32 :=
  concatenate S163842x64 0
    [⟨S40962x64, takeTopK (shapeCast S286734x64 y shapeCasts_S40962x448_S286734x64) top⟩,
     ⟨S122880x64, Host.divf
        (Host.reduceAdd (shapeCast S122880x64x2 (takeDownK (shapeCast S286734x64 y shapeCasts_S40962x448_S286734x64) down) shapeCasts_S245760x64_S122880x64x2)
          (constant S_ .f32 0x00000000#32) reducesTo_S122880x64x2_S122880x64_d2 h_S_)
        (broadcastInDim S122880x64 ![] bcast_S_S122880x64 (constant S_ .f32 0x40000000#32))⟩]
    concatenates_S40962x64_S122880x64_S163842x64_d0

/-- W1 regrouped by neighbour slot and transposed: column 64 j + o holds W1's row o, columns 128 j … 128 j + 127. -/
def wcatK (w1 : FVec Ideal S64x896 .f32) : FVec Ideal S128x448 .f32 :=
  transpose S128x448 [1, 0]
    (shapeCast S448x128 (transpose S7x64x128 [1, 0, 2] (shapeCast S64x7x128 w1 shapeCasts_S64x896_S64x7x128) transposes_S64x7x128_S7x64x128_1_0_2) shapeCasts_S7x64x128_S448x128)
    transposes_S448x128_S128x448_1_0

/-- Z1: the sliced output of the concatenating linear region on the zero-padded up and x2. -/
def z1K (up x2 : FVec Ideal S163842x64 .f32) (w1 : FVec Ideal S64x896 .f32) : FVec Ideal S163842x448 .f32 :=
  extractStridedSlice S163842x448 ![0, 0]
    (regCat (M := 172032) (N := 448)
      (pad S172032x64 ![0, 0] ![8190, 0] ![0, 0] up zpad pads_S163842x64_S172032x64_081900_000 h_S_)
      (pad S172032x64 ![0, 0] ![8190, 0] ![0, 0] x2 zpad pads_S163842x64_S172032x64_081900_000 h_S_)
      (wcatK w1))
    slices_S172032x448_S163842x448_0_0

/-- The flat row numbers 7 · neigh + slot, slot = 0 … 6 along each vertex's seven neighbours. -/
def flatIdxK (neigh : IVec S1146894 32) : IVec S1146894 32 :=
  shapeCast S1146894
    (addi (muli (shapeCast S163842x7 neigh shapeCasts_S1146894_S163842x7) (broadcastInDim S163842x7 ![] bcast_S_S163842x7 (constantI S_ 32 7#32)))
      (broadcastInDim S163842x7 ![0, 1] bcast_S1x7_S163842x7_0_1 (broadcastInDim S1x7 ![1] bcast_S7_S1x7_1 (iotaInDim S7 32 0))))
    shapeCasts_S163842x7_S1146894

/-- A flat row number wrapped once by 1146894, as a column. -/
def wrapFlatK (i : IVec S1146894 32) : IVec S1146894x1 32 :=
  broadcastInDim S1146894x1 ![0] bcast_S1146894_S1146894x1_0
    (select (cmpi .slt i (broadcastInDim S1146894 ![] bcast_S_S1146894 (constantI S_ 32 0#32)))
      (addi i (broadcastInDim S1146894 ![] bcast_S_S1146894 (constantI S_ 32 1146894#32))) i)

/-- A vertex number wrapped once by 163842, as a column. -/
def wrapNeighK (i : IVec S1146894 32) : IVec S1146894x1 32 :=
  broadcastInDim S1146894x1 ![0] bcast_S1146894_S1146894x1_0
    (select (cmpi .slt i (broadcastInDim S1146894 ![] bcast_S_S1146894 (constantI S_ 32 0#32)))
      (addi i (broadcastInDim S1146894 ![] bcast_S_S1146894 (constantI S_ 32 163842#32))) i)

/-- Which wrapped row numbers lie in 0 … `hi`. -/
def okBigK (hi : BitVec 32) (i5 : IVec S1146894x1 32) : IVec S1146894 1 :=
  Host.reduce IntOp.andi
    (andi (cmpi .sge i5 (broadcastInDim S1146894x1 ![] bcast_S_S1146894x1 (constantI S_ 32 0#32)))
      (cmpi .sle i5 (broadcastInDim S1146894x1 ![0, 1] bcast_S1x1_S1146894x1_0_1 (broadcastInDim S1x1 ![1] bcast_S1_S1x1_1 (constantI S1 32 hi)))))
    (constantI S_ 1 1#1) reducesTo_S1146894x1_S1146894_d1 h_S_

/-- The taken rows of Z1's 64-column flattening at the flat row numbers. -/
def takeFlatK (zf : FVec Ideal S1146894x64 .f32) (idx : IVec S1146894 32) : FVec Ideal S1146894x64 .f32 :=
  select (broadcastInDim S1146894x64 ![0] bcast_S1146894_S1146894x64_0 (okBigK 1146893#32 (wrapFlatK idx)))
    (Host.gather gather_S1146894x64_S1146894x1_S1146894x64_1_0_n_n_0_1_164 zf (wrapFlatK idx))
    (broadcastInDim S1146894x64 ![] bcast_S_S1146894x64 (constant S_ .f32 0x7FC00000#32))

/-- h1: per vertex the sum over its seven slots of the taken rows, plus b1. -/
def h1K (z1 : FVec Ideal S163842x448 .f32) (neigh : IVec S1146894 32) (b1 : FVec Ideal S64 .f32) : FVec Ideal S163842x64 .f32 :=
  addf
    (Host.reduceAdd (shapeCast S163842x7x64 (takeFlatK (shapeCast S1146894x64 z1 shapeCasts_S163842x448_S1146894x64) (flatIdxK neigh)) shapeCasts_S1146894x64_S163842x7x64)
      (constant S_ .f32 0x00000000#32) reducesTo_S163842x7x64_S163842x64_d1 h_S_)
    (broadcastInDim S163842x64 ![0, 1] bcast_S1x64_S163842x64_0_1 (shapeCast S1x64 b1 shapeCasts_S64_S1x64))

/-- The column means. -/
def meanK (h : FVec Ideal S163842x64 .f32) : FVec Ideal S64 .f32 :=
  Host.divf (Host.reduceAdd h (constant S_ .f32 0x00000000#32) reducesTo_S163842x64_S64_d0 h_S_)
    (broadcastInDim S64 ![] bcast_S_S64 (constant S_ .f32 0x48200080#32))

/-- 163842 − 0, as printed. -/
def dofK : FVec Ideal S_ .f32 :=
  subf (constant S_ .f32 0x48200080#32) (sitofp .f32 (constantI S_ 32 0#32))

/-- The column variances (biased), as jnp prints them. -/
def varK (h : FVec Ideal S163842x64 .f32) : FVec Ideal S64 .f32 :=
  select (broadcastInDim S64 ![] bcast_S_S64 (cmpf .ogt dofK (constant S_ .f32 0x00000000#32)))
    (Host.divf
      (Host.reduceAdd
        (mulf
          (subf h (broadcastInDim S163842x64 ![0, 1] bcast_S1x64_S163842x64_0_1
            (Host.divf (broadcastInDim S1x64 ![1] bcast_S64_S1x64_1 (Host.reduceAdd h (constant S_ .f32 0x00000000#32) reducesTo_S163842x64_S64_d0 h_S_))
              (broadcastInDim S1x64 ![] bcast_S_S1x64 (constant S_ .f32 0x48200080#32)))))
          (subf h (broadcastInDim S163842x64 ![0, 1] bcast_S1x64_S163842x64_0_1
            (Host.divf (broadcastInDim S1x64 ![1] bcast_S64_S1x64_1 (Host.reduceAdd h (constant S_ .f32 0x00000000#32) reducesTo_S163842x64_S64_d0 h_S_))
              (broadcastInDim S1x64 ![] bcast_S_S1x64 (constant S_ .f32 0x48200080#32))))))
        (constant S_ .f32 0x00000000#32) reducesTo_S163842x64_S64_d0 h_S_)
      (broadcastInDim S64 ![] bcast_S_S64 dofK))
    (broadcastInDim S64 ![] bcast_S_S64 (id (constant S_ .f32 0x7FC00000#32)))

/-- 1 / √(variance + ε). -/
def invK (h : FVec Ideal S163842x64 .f32) : FVec Ideal S64 .f32 :=
  Host.rsqrt (addf (varK h) (broadcastInDim S64 ![] bcast_S_S64 (constant S_ .f32 0x3727C5AC#32)))

/-- The sliced output of a normalising region on the zero-padded h with h's own statistics. -/
def bnK (h : FVec Ideal S163842x64 .f32) (g be : FVec Ideal S64 .f32) : FVec Ideal S163842x64 .f32 :=
  extractStridedSlice S163842x64 ![0, 0]
    (regBn (M := 172032) (N := 64)
      (pad S172032x64 ![0, 0] ![8190, 0] ![0, 0] h zpad pads_S163842x64_S172032x64_081900_000 h_S_)
      (shapeCast S1x64 (meanK h) shapeCasts_S64_S1x64)
      (shapeCast S1x64 (invK h) shapeCasts_S64_S1x64)
      (shapeCast S1x64 g shapeCasts_S64_S1x64)
      (shapeCast S1x64 be shapeCasts_S64_S1x64))
    slices_S172032x64_S163842x64_0_0

/-- The taken neighbour rows of a 64-column array. -/
def takeNeighK (h : FVec Ideal S163842x64 .f32) (neigh : IVec S1146894 32) : FVec Ideal S1146894x64 .f32 :=
  select (broadcastInDim S1146894x64 ![0] bcast_S1146894_S1146894x64_0 (okBigK 163841#32 (wrapNeighK neigh)))
    (Host.gather gather_S163842x64_S1146894x1_S1146894x64_1_0_n_n_0_1_164 h (wrapNeighK neigh))
    (broadcastInDim S1146894x64 ![] bcast_S_S1146894x64 (constant S_ .f32 0x7FC00000#32))

/-- Seven taken neighbour rows side by side. -/
def gat2K (h : FVec Ideal S163842x64 .f32) (neigh : IVec S1146894 32) : FVec Ideal S163842x448 .f32 :=
  shapeCast S163842x448 (takeNeighK h neigh) shapeCasts_S1146894x64_S163842x448

/-- h2: the sliced output of the second linear region on the zero-padded gathered rows. -/
def h2K (gth : FVec Ideal S163842x448 .f32) (w2 : FVec Ideal S64x448 .f32) (b2 : FVec Ideal S64 .f32) : FVec Ideal S163842x64 .f32 :=
  extractStridedSlice S163842x64 ![0, 0]
    (regLin (M := 172032) (K := 448) (N := 64)
      (pad S172032x448 ![0, 0] ![8190, 0] ![0, 0] gth zpad pads_S163842x448_S172032x448_081900_000 h_S_)
      (transpose S448x64 [1, 0] w2 transposes_S64x448_S448x64_1_0)
      (shapeCast S1x64 b2 shapeCasts_S64_S1x64))
    slices_S172032x64_S163842x64_0_0

/-- The whole kernel program as one function of its fifteen arguments. -/
def outK (a0 : FVec Ideal S40962x128 .f32) (a1 : FVec Ideal S163842x64 .f32) (a2 : FVec Ideal S448x128 .f32) (a3 : FVec Ideal S448 .f32)
    (a4 : FVec Ideal S64x896 .f32) (a5 a6 a7 : FVec Ideal S64 .f32) (a8 : FVec Ideal S64x448 .f32) (a9 a10 a11 : FVec Ideal S64 .f32)
    (a12 : IVec S1146894 32) (a13 : IVec S40962 32) (a14 : IVec S245760 32) : FVec Ideal S163842x64 .f32 :=
  bnK (h2K (gat2K (bnK (h1K (z1K (upK (yK a0 a2 a3) a13 a14) a1 a4) a12 a5) a6 a7) a12) a8 a9) a10 a11

end Cert.KernelIdeal.Stage

end
-- ==== Proof.KReg0.lean ====
/-
  What the first linear region (grid of 6 row blocks of 8192 rows) leaves in its output array: every block is the body's matmul-plus-bias of the block's rows, and the six blocks tile the 49152 rows, so the array is one function of the three arrays read.
-/
import proofs.«417947_j4449586118756_2_alg».proof.Proof.Gen.KernelIdeal.Frame
import proofs.«417947_j4449586118756_2_alg».proof.Proof.KStage
import Idealize.ShloMosaic.Lib.Pipeline.Value
import Idealize.ShloMosaic.Lib.ValueIdx
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem Cert.Spec
open Idealize.ShloMosaic.ValueIdx

/-! ## The body's matrix product at an index -/

/-- The block offsets of the body's whole-block accesses are all zero. -/
theorem off0_zero : (![0, 0] : Fin 2 → Nat) = fun _ => 0 := funext fun a => by fin_cases a <;> rfl

/-- The body's contraction: rows of an 8192 × 128 block against columns of a 128 × 448 block. -/
abbrev D0 : DotDims S8192x128 S128x448 S8192x448 := dot_S8192x128_S128x448_S8192x448_1_0_0_1_n_n

/-- The left operand's row is the result's row. -/
theorem lhs_D0_0 (j : S8192x448.Idx) (k : D0.contr.Idx) :
    (dot_S8192x128_S128x448_S8192x448_1_0_0_1_n_n.lhsIdx j k 0).val = (j 0).val := by
  unfold DotDims.lhsIdx
  rw [dif_neg (show ¬ (0 : Fin S8192x128.rank) ∈ dot_S8192x128_S128x448_S8192x448_1_0_0_1_n_n.lhsBatch by decide),
    dif_pos (show (0 : Fin S8192x128.rank) ∈ dot_S8192x128_S128x448_S8192x448_1_0_0_1_n_n.lhsNonContracting by decide)]
  simp only [Fin.val_cast]
  have key : ∀ (a b : Nat) (ha : a < S8192x448.rank) (hb : b < S8192x448.rank), a = b → (j ⟨a, ha⟩).val = (j ⟨b, hb⟩).val :=
    fun a b ha hb h => by subst h; rfl
  exact key _ _ _ _ (by decide)

/-- The left operand's column is the contracted coordinate. -/
theorem lhs_D0_1 (j : S8192x448.Idx) (k : D0.contr.Idx) :
    (dot_S8192x128_S128x448_S8192x448_1_0_0_1_n_n.lhsIdx j k 1).val = (k ⟨0, by decide⟩).val :=
  dot_S8192x128_S128x448_S8192x448_1_0_0_1_n_n.lhsIdx_val_of_single (cl := 1) rfl j k

/-- The right operand's row is the contracted coordinate. -/
theorem rhs_D0_0 (j : S8192x448.Idx) (k : D0.contr.Idx) :
    (dot_S8192x128_S128x448_S8192x448_1_0_0_1_n_n.rhsIdx j k 0).val = (k ⟨0, by decide⟩).val :=
  dot_S8192x128_S128x448_S8192x448_1_0_0_1_n_n.rhsIdx_val_of_single (cr := 0) rfl j k

/-- The right operand's column is the result's column. -/
theorem rhs_D0_1 (j : S8192x448.Idx) (k : D0.contr.Idx) :
    (dot_S8192x128_S128x448_S8192x448_1_0_0_1_n_n.rhsIdx j k 1).val = (j 1).val := by
  unfold DotDims.rhsIdx
  rw [dif_neg (show ¬ (1 : Fin S128x448.rank) ∈ dot_S8192x128_S128x448_S8192x448_1_0_0_1_n_n.rhsBatch by decide),
    dif_pos (show (1 : Fin S128x448.rank) ∈ dot_S8192x128_S128x448_S8192x448_1_0_0_1_n_n.rhsNonContracting by decide)]
  simp only [Fin.val_cast]
  have key : ∀ (a b : Nat) (ha : a < S8192x448.rank) (hb : b < S8192x448.rank), a = b → (j ⟨a, ha⟩).val = (j ⟨b, hb⟩).val :=
    fun a b ha hb h => by subst h; rfl
  exact key _ _ _ _ (by decide)

/-- The product into the zero accumulator, entry (p, q): the sum over the contracted coordinate. -/
theorem matmul0_at (A : FVec Ideal S8192x128 .f32) (B : FVec Ideal S128x448 .f32) (p : Fin 8192) (q : Fin 448) :
    matmul D0 none A B (constant (F := Ideal) S8192x448 .f32 0x00000000#32) (ix2 p q)
      = ∑ k : Fin 128, A (ix2 p k) * B (ix2 k q) := by
  show FloatOps.matmul D0 none A B (constant (F := Ideal) S8192x448 .f32 0x00000000#32) (ix2 p q) = _
  rw [Ideal.matmul_constant_zero_apply, ← Equiv.sum_comp (contrEquiv1 D0 128 rfl rfl).symm]
  refine Finset.sum_congr rfl fun k _ => ?_
  have ck := contrEquiv1_symm_val D0 128 rfl rfl k
  have hl : D0.lhsIdx (ix2 p q) ((contrEquiv1 D0 128 rfl rfl).symm k) = ix2 p k := by
    funext a; apply Fin.ext
    match a with
    | ⟨0, _⟩ => exact lhs_D0_0 _ _
    | ⟨1, _⟩ => exact (lhs_D0_1 _ _).trans ck
  have hr : D0.rhsIdx (ix2 p q) ((contrEquiv1 D0 128 rfl rfl).symm k) = ix2 k q := by
    funext a; apply Fin.ext
    match a with
    | ⟨0, _⟩ => exact (rhs_D0_0 _ _).trans ck
    | ⟨1, _⟩ => exact rhs_D0_1 _ _
  rw [hl, hr]

/-! ## The body's payload at an index -/

/-- The bias row broadcast over the 8192 rows reads the bias at the column. -/
theorem bias0_at (x : Vec Ideal S1x448 .f32) (p : Fin 8192) (q : Fin 448) :
    broadcastTo S8192x448 x broadcasts_S1x448_S8192x448 (ix2 p q) = x (ix2 (0 : Fin 1) q) := by
  refine broadcastTo_apply x broadcasts_S1x448_S8192x448 (ix2 p q) (ix2 (0 : Fin 1) q) fun a => ?_
  match a with
  | ⟨0, _⟩ => rfl
  | ⟨1, _⟩ => rfl

/-- What the body stores, entry (p, q): row p of the first block against column q of the second, plus the bias. -/
theorem pay0_at (x0 : Vec Ideal S8192x128 .f32) (x1 : Vec Ideal S128x448 .f32) (x2 : Vec Ideal S1x448 .f32)
    (p : Fin 8192) (q : Fin 448) :
    k0_pay1 (F := Ideal) x0 x1 x2 (ix2 p q) = (∑ k : Fin 128, x0 (ix2 p k) * x1 (ix2 k q)) + x2 (ix2 (0 : Fin 1) q) := by
  unfold k0_pay1
  simp only [shapeCast_self]
  rw [addf_apply, matmul0_at, bias0_at]

/-! ## From the blocks to the array -/

/-- The specification at an index whose coordinates are known. -/
theorem regLin_at {M K N : Nat} (A : A2 M K) (B : A2 K N) (C : A2 1 N) (i : (Sh2 M N).Idx) (r : Fin M) (s : Fin N)
    (hr : (i 0).val = r.val) (hs : (i 1).val = s.val) :
    regLin A B C i = (∑ k : Fin K, A (ix2 r k) * B (ix2 k s)) + C (ix2 (0 : Fin 1) s) := by
  have hi : i = ix2 r s := by
    funext a; apply Fin.ext
    match a with
    | ⟨0, _⟩ => exact hr
    | ⟨1, _⟩ => exact hs
  subst hi; rfl

/-- The printed index maps over the grid: the row blocks of the first operand and of the result move with the point,
    the second operand and the bias stay at their one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The first operand's block at point t, entry (p, k): row t · 8192 + p of its array. -/
theorem blk0_0_at (c : Dev nD) (t : Fin cfg0.N) (p : Fin 8192) (k : Fin 128) (r : Fin 49152) (hr : r.val = t.val * 8192 + p.val) :
    iblk0 (F := Ideal) V c 0 t (ix2 p k) = V c main_v1 (ix2 r k) := by
  obtain ⟨e0, e1, -⟩ := idx_facts0 t
  show V c main_v1 (((cfg0.win 0).blk t).view.emb (ix2 p k)) = V c main_v1 (ix2 r k)
  refine congrArg _ (funext fun a => Fin.ext ?_)
  match a with
  | ⟨0, _⟩ => show win0_0.index t (0 : Fin 2) * 8192 + 1 * p.val = r.val; omega
  | ⟨1, _⟩ => show win0_0.index t (1 : Fin 2) * 128 + 1 * k.val = k.val; omega

/-- The second operand's one block is its array. -/
theorem blk0_1_at (c : Dev nD) (t : Fin cfg0.N) (k : Fin 128) (q : Fin 448) :
    iblk0 (F := Ideal) V c 1 t (ix2 k q) = V c main_v0 (ix2 k q) := by
  obtain ⟨-, -, e0, e1, -⟩ := idx_facts0 t
  show V c main_v0 (((cfg0.win 1).blk t).view.emb (ix2 k q)) = V c main_v0 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 448 + 1 * q.val = q.val; omega

/-- The bias's one block is its array. -/
theorem blk0_2_at (c : Dev nD) (t : Fin cfg0.N) (z : Fin 1) (q : Fin 448) :
    iblk0 (F := Ideal) V c 2 t (ix2 z q) = V c main_v2 (ix2 z q) := by
  obtain ⟨-, -, -, -, e0, e1, -⟩ := idx_facts0 t
  show V c main_v2 (((cfg0.win 2).blk t).view.emb (ix2 z q)) = V c main_v2 (ix2 z q)
  refine congrArg _ (funext fun a => Fin.ext ?_)
  match a with
  | ⟨0, _⟩ => show win0_2.index t (0 : Fin 2) * 1 + 1 * z.val = z.val; omega
  | ⟨1, _⟩ => show win0_2.index t (1 : Fin 2) * 448 + 1 * q.val = q.val; omega

/-- What point t writes back is block t of the linear layer of the arrays as the region finds them. -/
theorem flushed0_eq (c : Dev nD) (t : Fin cfg0.N) :
    (dat0 (F := Ideal) V c).flushed 3 t = ((cfg0.win 3).blk t).view.read (Elt Ideal)
      (regLin (M := 49152) (K := 128) (N := 448) (V c main_v1) (V c main_v0) (V c main_v2)) := by
  show (cfg0.win 3).cut (grid0.coords t) ((dat0 (F := Ideal) V c).after 3 t) = _
  rw [after0_3]
  unfold out0_3
  rw [View.canon_unit_zero off0_zero]
  simp only [View.ld_unit_zero (S := S8192x128) off0_zero, View.ld_unit_zero (S := S128x448) off0_zero,
    View.ld_unit_zero (S := S1x448) off0_zero]
  obtain ⟨-, -, -, -, -, -, e0, e1⟩ := idx_facts0 t
  have ht : t.val < 6 := lt_of_lt_of_eq t.isLt N_0
  funext j
  obtain ⟨p, q, rfl⟩ : ∃ (p : Fin 8192) (q : Fin 448), j = ix2 p q := ⟨j 0, j 1, eq_ix2 j⟩
  show k0_pay1 (F := Ideal) (iblk0 V c 0 t) (iblk0 V c 1 t) (iblk0 V c 2 t) (ix2 p q)
    = regLin (M := 49152) (K := 128) (N := 448) (V c main_v1) (V c main_v0) (V c main_v2) (((cfg0.win 3).blk t).view.emb (ix2 p q))
  have hp : p.val < 8192 := p.isLt
  rw [pay0_at, regLin_at (V c main_v1) (V c main_v0) (V c main_v2) _ ⟨t.val * 8192 + p.val, by omega⟩ q
    (show win0_3.index t (0 : Fin 2) * 8192 + 1 * p.val = t.val * 8192 + p.val by omega)
    (show win0_3.index t (1 : Fin 2) * 448 + 1 * q.val = q.val by omega)]
  rw [blk0_2_at]
  refine congrArg (· + _) (Finset.sum_congr rfl fun k _ => ?_)
  rw [blk0_0_at V c t p k ⟨t.val * 8192 + p.val, by omega⟩ rfl, blk0_1_at]

/-- An index of the array is in point t's block iff each coordinate is in the block's range on its axis. -/
theorem mem_blk0 (t : Fin cfg0.N) (i : S49152x448.Idx) :
    i ∈ ((cfg0.win 3).blk t).view.set ↔ ∀ a : Fin 2, win0_3.index t a * S8192x448.size a ≤ (i a).val ∧ (i a).val < win0_3.index t a * S8192x448.size a + S8192x448.size a := by
  show i ∈ ((View.whole main_v3).slice (win0_3.rect t)).set ↔ _
  rw [View.set_slice_whole, Rect.mem_set_unit]
  exact Iff.rfl

/-- Every row lies in the block of the point numbered by its quotient by 8192, and every point writes back. -/
theorem cover0 (i : S49152x448.Idx) :
    ∃ t : Fin cfg0.N, (cfg0.win 3).flush t = true ∧ i ∈ ((cfg0.win 3).blk t).view.set := by
  have hi0 : (i 0).val < 49152 := (i 0).isLt
  have hi1 : (i 1).val < 448 := (i 1).isLt
  have hN : cfg0.N = 6 := N_0
  refine ⟨⟨(i 0).val / 8192, by rw [hN]; omega⟩, flush0_3 _, ?_⟩
  rw [mem_blk0]
  obtain ⟨-, -, -, -, -, -, e0, e1⟩ := idx_facts0 ⟨(i 0).val / 8192, by rw [hN]; omega⟩
  intro a
  match a with
  | ⟨0, _⟩ =>
    show win0_3.index _ (0 : Fin 2) * 8192 ≤ (i 0).val ∧ (i 0).val < win0_3.index _ (0 : Fin 2) * 8192 + 8192
    rw [e0]; show (i 0).val / 8192 * 8192 ≤ (i 0).val ∧ (i 0).val < (i 0).val / 8192 * 8192 + 8192; omega
  | ⟨1, _⟩ =>
    show win0_3.index _ (1 : Fin 2) * 448 ≤ (i 1).val ∧ (i 1).val < win0_3.index _ (1 : Fin 2) * 448 + 448
    rw [e1]; omega

/-- After region 0 its output array holds, row block by row block, the linear layer of the arrays the region read. -/
theorem reg0 (c : Dev nD) : (dat0 (F := Ideal) V c).arrAt 3 cfg0.N
    = regLin (M := 49152) (K := 128) (N := 448) (V c main_v1) (V c main_v0) (V c main_v2) :=
  (dat0 (F := Ideal) V c).arrAt_eq_of_cover 3 _ (fun t _ => flushed0_eq V c t) cover0

end Cert.KernelIdeal.RegVal

end
-- ==== Proof.KReg1.lean ====
/-
  What the concatenating linear region (grid of 21 row blocks of 8192 rows) leaves in its output array: the body concatenates its two 64-column blocks and multiplies by the weights; the blocks tile the 172032 rows.
-/
import proofs.«417947_j4449586118756_2_alg».proof.Proof.Gen.KernelIdeal.Frame
import proofs.«417947_j4449586118756_2_alg».proof.Proof.KStage
import Idealize.ShloMosaic.Lib.Pipeline.Value
import Idealize.ShloMosaic.Lib.ValueIdx
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem Cert.Spec
open Idealize.ShloMosaic.ValueIdx

namespace Reg1

/-! ## The body's payload at an index -/

/-- On its row axis the left operand of the product reads the result's row. -/
theorem lhs_cat_0 (i : S8192x448.Idx) (q : dot_S8192x128_S128x448_S8192x448_1_0_0_1_n_n.contr.Idx) :
    (dot_S8192x128_S128x448_S8192x448_1_0_0_1_n_n.lhsIdx i q 0).val = (i 0).val := by
  unfold DotDims.lhsIdx
  rw [dif_neg (show ¬(0 : Fin S8192x128.rank) ∈ dot_S8192x128_S128x448_S8192x448_1_0_0_1_n_n.lhsBatch by decide),
    dif_pos (show (0 : Fin S8192x128.rank) ∈ dot_S8192x128_S128x448_S8192x448_1_0_0_1_n_n.lhsNonContracting by decide)]
  rfl

/-- On its column axis the left operand reads the contracted coordinate. -/
theorem lhs_cat_1 (i : S8192x448.Idx) (q : dot_S8192x128_S128x448_S8192x448_1_0_0_1_n_n.contr.Idx) :
    (dot_S8192x128_S128x448_S8192x448_1_0_0_1_n_n.lhsIdx i q 1).val = (q ⟨0, by decide⟩).val :=
  dot_S8192x128_S128x448_S8192x448_1_0_0_1_n_n.lhsIdx_val_of_single rfl i q

/-- On its row axis the right operand reads the contracted coordinate. -/
theorem rhs_cat_0 (i : S8192x448.Idx) (q : dot_S8192x128_S128x448_S8192x448_1_0_0_1_n_n.contr.Idx) :
    (dot_S8192x128_S128x448_S8192x448_1_0_0_1_n_n.rhsIdx i q 0).val = (q ⟨0, by decide⟩).val :=
  dot_S8192x128_S128x448_S8192x448_1_0_0_1_n_n.rhsIdx_val_of_single rfl i q

/-- On its column axis the right operand reads the result's column. -/
theorem rhs_cat_1 (i : S8192x448.Idx) (q : dot_S8192x128_S128x448_S8192x448_1_0_0_1_n_n.contr.Idx) :
    (dot_S8192x128_S128x448_S8192x448_1_0_0_1_n_n.rhsIdx i q 1).val = (i 1).val := by
  unfold DotDims.rhsIdx
  rw [dif_neg (show ¬(1 : Fin S128x448.rank) ∈ dot_S8192x128_S128x448_S8192x448_1_0_0_1_n_n.rhsBatch by decide),
    dif_pos (show (1 : Fin S128x448.rank) ∈ dot_S8192x128_S128x448_S8192x448_1_0_0_1_n_n.rhsNonContracting by decide)]
  rfl

/-- The concatenation of two 64-column blocks, read at row `p` and column `k`, is the entry `catAt` names. -/
theorem cat_apply (x0 x1 : FVec Ideal S8192x64 .f32) (p : Fin 8192) (k : Fin 128) :
    concatenate S8192x128 1 [⟨S8192x64, x0⟩, ⟨S8192x64, x1⟩] concatenates_S8192x64_S8192x64_S8192x128_d1 (ix2 p k)
      = catAt (M := 8192) x0 x1 p k := by
  unfold catAt
  split
  · rename_i h
    refine concatenate_pair_apply_left (1 : Fin S8192x128.rank) x0 x1 _ (ix2 p k) rfl (ix2 p ⟨k.val, h⟩) fun b => ?_
    match b with
    | ⟨0, _⟩ => rfl
    | ⟨1, _⟩ => rfl
  · rename_i h
    refine concatenate_pair_apply_right (1 : Fin S8192x128.rank) x0 x1 _ (ix2 p k) rfl rfl (ix2 p ⟨k.val - 64, by omega⟩) (fun b hb => ?_) ?_
    · match b with
      | ⟨0, _⟩ => rfl
      | ⟨1, _⟩ => exact absurd rfl hb
    · show k.val - 64 + 64 = k.val
      omega

/-- The body's payload: the rows of the concatenated blocks against the columns of the weights. -/
theorem pay_eq (x0 x1 : Vec Ideal S8192x64 .f32) (x2 : Vec Ideal S128x448 .f32) :
    k1_pay1 (F := Ideal) x0 x1 x2 = regCat (M := 8192) (N := 448) x0 x1 x2 := by
  funext j
  obtain ⟨p, q, rfl⟩ : ∃ (p : Fin 8192) (q : Fin 448), j = ix2 p q := ⟨j 0, j 1, eq_ix2 j⟩
  unfold k1_pay1 regCat
  simp only [shapeCast_self, matmul]
  rw [Ideal.matmul_constant_zero_apply,
    ← Equiv.sum_comp (contrEquiv1 dot_S8192x128_S128x448_S8192x448_1_0_0_1_n_n 128 rfl rfl).symm]
  refine Finset.sum_congr rfl fun k _ => ?_
  have hk := contrEquiv1_symm_val dot_S8192x128_S128x448_S8192x448_1_0_0_1_n_n 128 rfl rfl k
  have el : dot_S8192x128_S128x448_S8192x448_1_0_0_1_n_n.lhsIdx (ix2 p q)
      ((contrEquiv1 dot_S8192x128_S128x448_S8192x448_1_0_0_1_n_n 128 rfl rfl).symm k) = ix2 p k := funext fun a => Fin.ext (by
    match a with
    | ⟨0, _⟩ => exact lhs_cat_0 _ _
    | ⟨1, _⟩ => exact (lhs_cat_1 _ _).trans hk)
  have er : dot_S8192x128_S128x448_S8192x448_1_0_0_1_n_n.rhsIdx (ix2 p q)
      ((contrEquiv1 dot_S8192x128_S128x448_S8192x448_1_0_0_1_n_n 128 rfl rfl).symm k) = ix2 k q := funext fun a => Fin.ext (by
    match a with
    | ⟨0, _⟩ => exact (rhs_cat_0 _ _).trans hk
    | ⟨1, _⟩ => exact rhs_cat_1 _ _)
  rw [el, er, cat_apply, shapeCast_self, shapeCast_self]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the 21 points: the two operands' row blocks and the result's move with the
    point along the rows and sit at column block 0; the weights' one block does not move. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point `t`'s block of the first operand holds rows `8192 t + p` of its array. -/
theorem blockU_apply (c : Dev nD) (t : Fin cfg1.N) (p : Fin 8192) (k : Fin 64) (r : Fin 172032)
    (hr : r.val = t.val * 8192 + p.val) :
    (iblk1 V c 0 t : Vec Ideal S8192x64 .f32) (ix2 p k) = (V c main_v17 : S172032x64.Idx → EReal) (ix2 r k) := by
  obtain ⟨e0, e1, -⟩ := index_maps t
  show V c main_v17 (((cfg1.win 0).blk t).view.emb (ix2 p k)) = _
  congr 1
  funext a; apply Fin.ext
  match a with
  | ⟨0, _⟩ => show win1_0.index t (0 : Fin 2) * 8192 + 1 * p.val = r.val; omega
  | ⟨1, _⟩ => show win1_0.index t (1 : Fin 2) * 64 + 1 * k.val = k.val; omega

/-- Point `t`'s block of the second operand holds rows `8192 t + p` of its array. -/
theorem blockX_apply (c : Dev nD) (t : Fin cfg1.N) (p : Fin 8192) (k : Fin 64) (r : Fin 172032)
    (hr : r.val = t.val * 8192 + p.val) :
    (iblk1 V c 1 t : Vec Ideal S8192x64 .f32) (ix2 p k) = (V c main_v18 : S172032x64.Idx → EReal) (ix2 r k) := by
  obtain ⟨-, -, e0, e1, -⟩ := index_maps t
  show V c main_v18 (((cfg1.win 1).blk t).view.emb (ix2 p k)) = _
  congr 1
  funext a; apply Fin.ext
  match a with
  | ⟨0, _⟩ => show win1_1.index t (0 : Fin 2) * 8192 + 1 * p.val = r.val; omega
  | ⟨1, _⟩ => show win1_1.index t (1 : Fin 2) * 64 + 1 * k.val = k.val; omega

/-- The weights' one block is their whole array at every point. -/
theorem blockB_apply (c : Dev nD) (t : Fin cfg1.N) (k : Fin 128) (s : Fin 448) :
    (iblk1 V c 2 t : Vec Ideal S128x448 .f32) (ix2 k s) = (V c main_v16 : S128x448.Idx → EReal) (ix2 k s) := by
  obtain ⟨-, -, -, -, e0, e1, -⟩ := index_maps t
  show V c main_v16 (((cfg1.win 2).blk t).view.emb (ix2 k s)) = _
  congr 1
  funext a; apply Fin.ext
  match a with
  | ⟨0, _⟩ => show win1_2.index t (0 : Fin 2) * 128 + 1 * k.val = k.val; omega
  | ⟨1, _⟩ => show win1_2.index t (1 : Fin 2) * 448 + 1 * s.val = s.val; omega

/-- The rows-against-columns sums of point `t`'s blocks are those of the whole arrays at the row `8192 t + ` the
    row inside the block. -/
theorem regCat_blocks (c : Dev nD) (t : Fin cfg1.N) (j : S8192x448.Idx) (i : S172032x448.Idx)
    (h0 : (i 0).val = t.val * 8192 + (j 0).val) (h1 : (i 1).val = (j 1).val) :
    regCat (M := 8192) (N := 448) (iblk1 V c 0 t) (iblk1 V c 1 t) (iblk1 V c 2 t) j
      = regCat (M := 172032) (N := 448) (V c main_v17) (V c main_v18) (V c main_v16) i := by
  obtain ⟨p, q, rfl⟩ : ∃ (p : Fin 8192) (q : Fin 448), j = ix2 p q := ⟨j 0, j 1, eq_ix2 j⟩
  obtain ⟨r, s, rfl⟩ : ∃ (r : Fin 172032) (s : Fin 448), i = ix2 r s := ⟨i 0, i 1, eq_ix2 i⟩
  obtain rfl : s = q := Fin.ext h1
  have hr : r.val = t.val * 8192 + p.val := h0
  unfold regCat
  refine Finset.sum_congr rfl fun k _ => ?_
  show catAt (M := 8192) (iblk1 V c 0 t) (iblk1 V c 1 t) p k * (iblk1 V c 2 t : Vec Ideal S128x448 .f32) (ix2 k s)
    = catAt (M := 172032) (V c main_v17) (V c main_v18) r k * (V c main_v16 : S128x448.Idx → EReal) (ix2 k s)
  rw [blockB_apply V c t k s]
  congr 1
  unfold catAt
  by_cases h : k.val < 64
  · rw [dif_pos h, dif_pos h]
    exact blockU_apply V c t p ⟨k.val, h⟩ r hr
  · rw [dif_neg h, dif_neg h]
    exact blockX_apply V c t p ⟨k.val - 64, by omega⟩ r hr

/-- What point `t` writes back is block `t` of the rows-against-columns sums of the whole arrays. -/
theorem flushed_eq (c : Dev nD) (t : Fin cfg1.N) :
    (dat1 (F := Ideal) V c).flushed 3 t
      = ((cfg1.win 3).blk t).view.read (Elt Ideal) (regCat (M := 172032) (N := 448) (V c main_v17) (V c main_v18) (V c main_v16)) := by
  show (cfg1.win 3).cut (grid1.coords t) ((dat1 V c).after 3 t) = _
  rw [after1_3]
  unfold out1_3
  rw [View.canon_unit_zero zero_offsets]
  simp only [View.ld_unit_zero (S := S8192x64) zero_offsets, View.ld_unit_zero (S := S128x448) zero_offsets]
  rw [pay_eq]
  obtain ⟨-, -, -, -, -, -, e0, e1⟩ := index_maps t
  funext j
  show regCat (M := 8192) (N := 448) (iblk1 V c 0 t) (iblk1 V c 1 t) (iblk1 V c 2 t) j
    = regCat (M := 172032) (N := 448) (V c main_v17) (V c main_v18) (V c main_v16) (((cfg1.win 3).blk t).view.emb j)
  refine regCat_blocks V c t j _ ?_ ?_
  · show win1_3.index t (0 : Fin 2) * 8192 + 1 * (j 0).val = t.val * 8192 + (j 0).val; omega
  · show win1_3.index t (1 : Fin 2) * 448 + 1 * (j 1).val = (j 1).val; omega

/-- An index of the result array is in point `t`'s block iff each coordinate is in the block's range on its axis. -/
theorem mem_block (t : Fin cfg1.N) (i : S172032x448.Idx) :
    i ∈ ((cfg1.win 3).blk t).view.set ↔ ∀ a : Fin 2, win1_3.index t a * S8192x448.size a ≤ (i a).val
      ∧ (i a).val < win1_3.index t a * S8192x448.size a + S8192x448.size a := by
  show i ∈ ((View.whole main_v19).slice (win1_3.rect t)).set ↔ _
  rw [View.set_slice_whole, Rect.mem_set_unit]
  exact Iff.rfl

/-- The 21 blocks of 8192 rows tile the 172032 rows: row `r` is in the block of point `r / 8192`, and every point
    writes its block back. -/
theorem rows_covered (i : S172032x448.Idx) :
    ∃ t : Fin cfg1.N, (cfg1.win 3).flush t = true ∧ i ∈ ((cfg1.win 3).blk t).view.set := by
  have hN : cfg1.N = 21 := N_1
  have hi0 : (i 0).val < 172032 := (i 0).isLt
  have hi1 : (i 1).val < 448 := (i 1).isLt
  have ht : (i 0).val / 8192 < cfg1.N := by rw [hN]; omega
  obtain ⟨-, -, -, -, -, -, e0, e1⟩ := index_maps ⟨(i 0).val / 8192, ht⟩
  have e0' : win1_3.index ⟨(i 0).val / 8192, ht⟩ (0 : Fin 2) = (i 0).val / 8192 := e0
  refine ⟨⟨(i 0).val / 8192, ht⟩, flush1_3 _, ?_⟩
  rw [mem_block]
  intro a
  match a with
  | ⟨0, _⟩ =>
    show win1_3.index ⟨(i 0).val / 8192, ht⟩ (0 : Fin 2) * 8192 ≤ (i 0).val
      ∧ (i 0).val < win1_3.index ⟨(i 0).val / 8192, ht⟩ (0 : Fin 2) * 8192 + 8192
    omega
  | ⟨1, _⟩ =>
    show win1_3.index ⟨(i 0).val / 8192, ht⟩ (1 : Fin 2) * 448 ≤ (i 1).val
      ∧ (i 1).val < win1_3.index ⟨(i 0).val / 8192, ht⟩ (1 : Fin 2) * 448 + 448
    omega

end Reg1

variable (V : (c : Dev nD) → (b : Ref sig .tc) → Buf (Elt Ideal) ((c : Thread nD τ).loc b))

/-- After region 1 its output array holds the rows of `up | x2` against the regrouped weights. -/
theorem reg1 (c : Dev nD) : (dat1 (F := Ideal) V c).arrAt 3 cfg1.N
    = regCat (M := 172032) (N := 448) (V c main_v17) (V c main_v18) (V c main_v16) :=
  (dat1 V c).arrAt_eq_of_cover 3 (regCat (M := 172032) (N := 448) (V c main_v17) (V c main_v18) (V c main_v16))
    (fun t _ => Reg1.flushed_eq V c t) Reg1.rows_covered

end Cert.KernelIdeal.RegVal

end
-- ==== Proof.KReg2.lean ====
/-
  What the first normalising region (grid of 21 row blocks of 8192 rows) leaves in its output array: a pointwise map of the input block with the four parameter rows.
-/
import proofs.«417947_j4449586118756_2_alg».proof.Proof.Gen.KernelIdeal.Frame
import proofs.«417947_j4449586118756_2_alg».proof.Proof.KStage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem Cert.Spec
open Idealize.ShloMosaic.ValueIdx

variable (V : (c : Dev nD) → (b : Ref sig .tc) → Buf (Elt Ideal) ((c : Thread nD τ).loc b))

namespace R2

/-- The offset pair (0, 0) is the constant zero offset. -/
theorem zero_offsets : (![0, 0] : Fin 2 → Nat) = fun _ => 0 := funext fun a => by fin_cases a <;> rfl

/-- The region's payload at row p, column q. -/
theorem bnPay_apply (x : Vec Ideal S8192x64 .f32) (g mu s be : Vec Ideal S1x64 .f32) (p : Fin 8192) (q : Fin 64) :
    k2_pay1 (F := Ideal) x g mu s be (ix2 p q)
      = bnAct (x (ix2 p q)) (mu (ix2 (0 : Fin 1) q)) (s (ix2 (0 : Fin 1) q)) (g (ix2 (0 : Fin 1) q)) (be (ix2 (0 : Fin 1) q)) := by
  unfold k2_pay1 bnAct
  simp only [shapeCast_self, select_apply, cmpf_apply, mulf_apply, addf_apply, subf_apply, broadcast_apply]
  simp only [broadcastTo_1b_ab_apply]
  rfl

/-- The printed block-index maps over the grid: the input block and the output block of point t are row block t,
    column block 0; the four parameter rows are always block (0, 0). -/
theorem blockIdx : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- What point t writes back is block t of the normalised array. -/
theorem flushed_bn (c : Dev nD) (t : Fin cfg2.N) :
    (dat2 (F := Ideal) V c).flushed 5 t = ((cfg2.win 5).blk t).view.read (Elt Ideal)
      (regBn (M := 172032) (N := 64) (V c main_v43) (V c main_v44) (V c main_v45) (V c main_v46) (V c main_v47)) := by
  show (cfg2.win 5).cut (grid2.coords t) ((dat2 V c).after 5 t) = _
  rw [after2_5]
  unfold out2_5
  rw [View.canon_unit_zero zero_offsets]
  simp only [View.ld_unit_zero (S := S8192x64) zero_offsets, View.ld_unit_zero (S := S1x64) zero_offsets]
  funext j
  obtain ⟨p, q, rfl⟩ : ∃ (p : Fin 8192) (q : Fin 64), j = ix2 p q := ⟨j 0, j 1, eq_ix2 j⟩
  show k2_pay1 (F := Ideal) (iblk2 V c 0 t) (iblk2 V c 3 t) (iblk2 V c 1 t) (iblk2 V c 2 t) (iblk2 V c 4 t) (ix2 p q)
      = regBn (M := 172032) (N := 64) (V c main_v43) (V c main_v44) (V c main_v45) (V c main_v46) (V c main_v47)
          (((cfg2.win 5).blk t).view.emb (ix2 p q))
  rw [bnPay_apply]
  unfold regBn
  obtain ⟨e00, e01, e50, e51, e10, e11, e20, e21, e30, e31, e40, e41⟩ := blockIdx t
  have h0 : iblk2 V c 0 t (ix2 p q) = V c main_v43 (((cfg2.win 5).blk t).view.emb (ix2 p q)) := by
    show V c main_v43 (((cfg2.win 0).blk t).view.emb (ix2 p q)) = _
    refine congrArg (V c main_v43) (funext fun a => Fin.ext ?_)
    match a with
    | ⟨0, _⟩ => show win2_0.index t (0 : Fin 2) * 8192 + 1 * p.val = win2_5.index t (0 : Fin 2) * 8192 + 1 * p.val; omega
    | ⟨1, _⟩ => show win2_0.index t (1 : Fin 2) * 64 + 1 * q.val = win2_5.index t (1 : Fin 2) * 64 + 1 * q.val; omega
  have h1 : iblk2 V c 1 t (ix2 (0 : Fin 1) q) = V c main_v44 (ix2 (0 : Fin 1) (((cfg2.win 5).blk t).view.emb (ix2 p q) 1)) := by
    show V c main_v44 (((cfg2.win 1).blk t).view.emb (ix2 (0 : Fin 1) q)) = _
    refine congrArg (V c main_v44) (funext fun a => Fin.ext ?_)
    match a with
    | ⟨0, _⟩ => show win2_1.index t (0 : Fin 2) * 1 + 1 * 0 = 0; omega
    | ⟨1, _⟩ => show win2_1.index t (1 : Fin 2) * 64 + 1 * q.val = win2_5.index t (1 : Fin 2) * 64 + 1 * q.val; omega
  have h2 : iblk2 V c 2 t (ix2 (0 : Fin 1) q) = V c main_v45 (ix2 (0 : Fin 1) (((cfg2.win 5).blk t).view.emb (ix2 p q) 1)) := by
    show V c main_v45 (((cfg2.win 2).blk t).view.emb (ix2 (0 : Fin 1) q)) = _
    refine congrArg (V c main_v45) (funext fun a => Fin.ext ?_)
    match a with
    | ⟨0, _⟩ => show win2_2.index t (0 : Fin 2) * 1 + 1 * 0 = 0; omega
    | ⟨1, _⟩ => show win2_2.index t (1 : Fin 2) * 64 + 1 * q.val = win2_5.index t (1 : Fin 2) * 64 + 1 * q.val; omega
  have h3 : iblk2 V c 3 t (ix2 (0 : Fin 1) q) = V c main_v46 (ix2 (0 : Fin 1) (((cfg2.win 5).blk t).view.emb (ix2 p q) 1)) := by
    show V c main_v46 (((cfg2.win 3).blk t).view.emb (ix2 (0 : Fin 1) q)) = _
    refine congrArg (V c main_v46) (funext fun a => Fin.ext ?_)
    match a with
    | ⟨0, _⟩ => show win2_3.index t (0 : Fin 2) * 1 + 1 * 0 = 0; omega
    | ⟨1, _⟩ => show win2_3.index t (1 : Fin 2) * 64 + 1 * q.val = win2_5.index t (1 : Fin 2) * 64 + 1 * q.val; omega
  have h4 : iblk2 V c 4 t (ix2 (0 : Fin 1) q) = V c main_v47 (ix2 (0 : Fin 1) (((cfg2.win 5).blk t).view.emb (ix2 p q) 1)) := by
    show V c main_v47 (((cfg2.win 4).blk t).view.emb (ix2 (0 : Fin 1) q)) = _
    refine congrArg (V c main_v47) (funext fun a => Fin.ext ?_)
    match a with
    | ⟨0, _⟩ => show win2_4.index t (0 : Fin 2) * 1 + 1 * 0 = 0; omega
    | ⟨1, _⟩ => show win2_4.index t (1 : Fin 2) * 64 + 1 * q.val = win2_5.index t (1 : Fin 2) * 64 + 1 * q.val; omega
  rw [h0, h1, h2, h3, h4]

/-- An index of the output array lies in point t's block iff each coordinate lies in the block's range on its axis. -/
theorem mem_outBlk (t : Fin cfg2.N) (i : S172032x64.Idx) :
    i ∈ ((cfg2.win 5).blk t).view.set ↔ ∀ a : Fin 2, win2_5.index t a * S8192x64.size a ≤ (i a).val ∧ (i a).val < win2_5.index t a * S8192x64.size a + S8192x64.size a := by
  show i ∈ ((View.whole main_v48).slice (win2_5.rect t)).set ↔ _
  rw [View.set_slice_whole, Rect.mem_set_unit]
  exact Iff.rfl

/-- Row r of the output array lies in the block of point r / 8192. -/
theorem outBlk_cover (i : S172032x64.Idx) : ∃ t : Fin cfg2.N, (cfg2.win 5).flush t = true ∧ i ∈ ((cfg2.win 5).blk t).view.set := by
  have hi0 : (i 0).val < 172032 := (i 0).isLt
  have hi1 : (i 1).val < 64 := (i 1).isLt
  have hN : cfg2.N = 21 := N_2
  let t : Fin cfg2.N := ⟨(i 0).val / 8192, by rw [hN]; omega⟩
  obtain ⟨-, -, e50, e51, -⟩ := blockIdx t
  have ht : t.val = (i 0).val / 8192 := rfl
  refine ⟨t, flush2_5 t, ?_⟩
  rw [mem_outBlk]
  intro a
  match a with
  | ⟨0, _⟩ => show win2_5.index t (0 : Fin 2) * 8192 ≤ (i 0).val ∧ (i 0).val < win2_5.index t (0 : Fin 2) * 8192 + 8192; omega
  | ⟨1, _⟩ => show win2_5.index t (1 : Fin 2) * 64 ≤ (i 1).val ∧ (i 1).val < win2_5.index t (1 : Fin 2) * 64 + 64; omega

end R2

/-- After region 2 its output array holds the normalised, leaky-rectified input array. -/
theorem reg2 (c : Dev nD) : (dat2 (F := Ideal) V c).arrAt 5 cfg2.N
    = regBn (M := 172032) (N := 64) (V c main_v43) (V c main_v44) (V c main_v45) (V c main_v46) (V c main_v47) :=
  (dat2 (F := Ideal) V c).arrAt_eq_of_cover 5 _ (fun t _ => R2.flushed_bn V c t) R2.outBlk_cover

end Cert.KernelIdeal.RegVal

end
-- ==== Proof.KReg3.lean ====
/-
  What the second linear region (grid of 21 row blocks of 8192 rows) leaves in its output array: every block is the body's matmul-plus-bias of the block's rows, and the 21 blocks tile the 172032 rows, so the array is one function of the three arrays read.
-/
import proofs.«417947_j4449586118756_2_alg».proof.Proof.Gen.KernelIdeal.Frame
import proofs.«417947_j4449586118756_2_alg».proof.Proof.KStage
import Idealize.ShloMosaic.Lib.Pipeline.Value
import Idealize.ShloMosaic.Lib.ValueIdx
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem Cert.Spec
open Idealize.ShloMosaic.ValueIdx

/-! ## The body's matrix product at an index -/

/-- The block offsets of the body's whole-block accesses are all zero. -/
theorem off3_zero : (![0, 0] : Fin 2 → Nat) = fun _ => 0 := funext fun a => by fin_cases a <;> rfl

/-- The body's contraction: rows of an 8192 × 448 block against columns of a 448 × 64 block. -/
abbrev D3 : DotDims S8192x448 S448x64 S8192x64 := dot_S8192x448_S448x64_S8192x64_1_0_0_1_n_n

/-- The left operand's row is the result's row. -/
theorem lhs_D3_0 (j : S8192x64.Idx) (k : D3.contr.Idx) :
    (dot_S8192x448_S448x64_S8192x64_1_0_0_1_n_n.lhsIdx j k 0).val = (j 0).val := by
  unfold DotDims.lhsIdx
  rw [dif_neg (show ¬ (0 : Fin S8192x448.rank) ∈ dot_S8192x448_S448x64_S8192x64_1_0_0_1_n_n.lhsBatch by decide),
    dif_pos (show (0 : Fin S8192x448.rank) ∈ dot_S8192x448_S448x64_S8192x64_1_0_0_1_n_n.lhsNonContracting by decide)]
  simp only [Fin.val_cast]
  have key : ∀ (a b : Nat) (ha : a < S8192x64.rank) (hb : b < S8192x64.rank), a = b → (j ⟨a, ha⟩).val = (j ⟨b, hb⟩).val :=
    fun a b ha hb h => by subst h; rfl
  exact key _ _ _ _ (by decide)

/-- The left operand's column is the contracted coordinate. -/
theorem lhs_D3_1 (j : S8192x64.Idx) (k : D3.contr.Idx) :
    (dot_S8192x448_S448x64_S8192x64_1_0_0_1_n_n.lhsIdx j k 1).val = (k ⟨0, by decide⟩).val :=
  dot_S8192x448_S448x64_S8192x64_1_0_0_1_n_n.lhsIdx_val_of_single (cl := 1) rfl j k

/-- The right operand's row is the contracted coordinate. -/
theorem rhs_D3_0 (j : S8192x64.Idx) (k : D3.contr.Idx) :
    (dot_S8192x448_S448x64_S8192x64_1_0_0_1_n_n.rhsIdx j k 0).val = (k ⟨0, by decide⟩).val :=
  dot_S8192x448_S448x64_S8192x64_1_0_0_1_n_n.rhsIdx_val_of_single (cr := 0) rfl j k

/-- The right operand's column is the result's column. -/
theorem rhs_D3_1 (j : S8192x64.Idx) (k : D3.contr.Idx) :
    (dot_S8192x448_S448x64_S8192x64_1_0_0_1_n_n.rhsIdx j k 1).val = (j 1).val := by
  unfold DotDims.rhsIdx
  rw [dif_neg (show ¬ (1 : Fin S448x64.rank) ∈ dot_S8192x448_S448x64_S8192x64_1_0_0_1_n_n.rhsBatch by decide),
    dif_pos (show (1 : Fin S448x64.rank) ∈ dot_S8192x448_S448x64_S8192x64_1_0_0_1_n_n.rhsNonContracting by decide)]
  simp only [Fin.val_cast]
  have key : ∀ (a b : Nat) (ha : a < S8192x64.rank) (hb : b < S8192x64.rank), a = b → (j ⟨a, ha⟩).val = (j ⟨b, hb⟩).val :=
    fun a b ha hb h => by subst h; rfl
  exact key _ _ _ _ (by decide)

/-- The product into the zero accumulator, entry (p, q): the sum over the contracted coordinate. -/
theorem matmul3_at (A : FVec Ideal S8192x448 .f32) (B : FVec Ideal S448x64 .f32) (p : Fin 8192) (q : Fin 64) :
    matmul D3 none A B (constant (F := Ideal) S8192x64 .f32 0x00000000#32) (ix2 p q)
      = ∑ k : Fin 448, A (ix2 p k) * B (ix2 k q) := by
  show FloatOps.matmul D3 none A B (constant (F := Ideal) S8192x64 .f32 0x00000000#32) (ix2 p q) = _
  rw [Ideal.matmul_constant_zero_apply, ← Equiv.sum_comp (contrEquiv1 D3 448 rfl rfl).symm]
  refine Finset.sum_congr rfl fun k _ => ?_
  have ck := contrEquiv1_symm_val D3 448 rfl rfl k
  have hl : D3.lhsIdx (ix2 p q) ((contrEquiv1 D3 448 rfl rfl).symm k) = ix2 p k := by
    funext a; apply Fin.ext
    match a with
    | ⟨0, _⟩ => exact lhs_D3_0 _ _
    | ⟨1, _⟩ => exact (lhs_D3_1 _ _).trans ck
  have hr : D3.rhsIdx (ix2 p q) ((contrEquiv1 D3 448 rfl rfl).symm k) = ix2 k q := by
    funext a; apply Fin.ext
    match a with
    | ⟨0, _⟩ => exact (rhs_D3_0 _ _).trans ck
    | ⟨1, _⟩ => exact rhs_D3_1 _ _
  rw [hl, hr]

/-! ## The body's payload at an index -/

/-- The bias row broadcast over the 8192 rows reads the bias at the column. -/
theorem bias3_at (x : Vec Ideal S1x64 .f32) (p : Fin 8192) (q : Fin 64) :
    broadcastTo S8192x64 x broadcasts_S1x64_S8192x64 (ix2 p q) = x (ix2 (0 : Fin 1) q) := by
  refine broadcastTo_apply x broadcasts_S1x64_S8192x64 (ix2 p q) (ix2 (0 : Fin 1) q) fun a => ?_
  match a with
  | ⟨0, _⟩ => rfl
  | ⟨1, _⟩ => rfl

/-- What the body stores, entry (p, q): row p of the first block against column q of the second, plus the bias. -/
theorem pay3_at (x0 : Vec Ideal S8192x448 .f32) (x1 : Vec Ideal S448x64 .f32) (x2 : Vec Ideal S1x64 .f32)
    (p : Fin 8192) (q : Fin 64) :
    k3_pay1 (F := Ideal) x0 x1 x2 (ix2 p q) = (∑ k : Fin 448, x0 (ix2 p k) * x1 (ix2 k q)) + x2 (ix2 (0 : Fin 1) q) := by
  unfold k3_pay1
  simp only [shapeCast_self]
  rw [addf_apply, matmul3_at, bias3_at]

/-! ## From the blocks to the array -/

/-- The specification at an index whose coordinates are known. -/
theorem regLin_at3 {M K N : Nat} (A : A2 M K) (B : A2 K N) (C : A2 1 N) (i : (Sh2 M N).Idx) (r : Fin M) (s : Fin N)
    (hr : (i 0).val = r.val) (hs : (i 1).val = s.val) :
    regLin A B C i = (∑ k : Fin K, A (ix2 r k) * B (ix2 k s)) + C (ix2 (0 : Fin 1) s) := by
  have hi : i = ix2 r s := by
    funext a; apply Fin.ext
    match a with
    | ⟨0, _⟩ => exact hr
    | ⟨1, _⟩ => exact hs
  subst hi; rfl

/-- The printed index maps over the grid: the row blocks of the first operand and of the result move with the point,
    the second operand and the bias stay at their one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The first operand's block at point t, entry (p, k): row t · 8192 + p of its array. -/
theorem blk3_0_at (c : Dev nD) (t : Fin cfg3.N) (p : Fin 8192) (k : Fin 448) (r : Fin 172032) (hr : r.val = t.val * 8192 + p.val) :
    iblk3 (F := Ideal) V c 0 t (ix2 p k) = V c main_v53 (ix2 r k) := by
  obtain ⟨e0, e1, -⟩ := idx_facts3 t
  show V c main_v53 (((cfg3.win 0).blk t).view.emb (ix2 p k)) = V c main_v53 (ix2 r k)
  refine congrArg _ (funext fun a => Fin.ext ?_)
  match a with
  | ⟨0, _⟩ => show win3_0.index t (0 : Fin 2) * 8192 + 1 * p.val = r.val; omega
  | ⟨1, _⟩ => show win3_0.index t (1 : Fin 2) * 448 + 1 * k.val = k.val; omega

/-- The second operand's one block is its array. -/
theorem blk3_1_at (c : Dev nD) (t : Fin cfg3.N) (k : Fin 448) (q : Fin 64) :
    iblk3 (F := Ideal) V c 1 t (ix2 k q) = V c main_v52 (ix2 k q) := by
  obtain ⟨-, -, e0, e1, -⟩ := idx_facts3 t
  show V c main_v52 (((cfg3.win 1).blk t).view.emb (ix2 k q)) = V c main_v52 (ix2 k q)
  refine congrArg _ (funext fun a => Fin.ext ?_)
  match a with
  | ⟨0, _⟩ => show win3_1.index t (0 : Fin 2) * 448 + 1 * k.val = k.val; omega
  | ⟨1, _⟩ => show win3_1.index t (1 : Fin 2) * 64 + 1 * q.val = q.val; omega

/-- The bias's one block is its array. -/
theorem blk3_2_at (c : Dev nD) (t : Fin cfg3.N) (z : Fin 1) (q : Fin 64) :
    iblk3 (F := Ideal) V c 2 t (ix2 z q) = V c main_v54 (ix2 z q) := by
  obtain ⟨-, -, -, -, e0, e1, -⟩ := idx_facts3 t
  show V c main_v54 (((cfg3.win 2).blk t).view.emb (ix2 z q)) = V c main_v54 (ix2 z q)
  refine congrArg _ (funext fun a => Fin.ext ?_)
  match a with
  | ⟨0, _⟩ => show win3_2.index t (0 : Fin 2) * 1 + 1 * z.val = z.val; omega
  | ⟨1, _⟩ => show win3_2.index t (1 : Fin 2) * 64 + 1 * q.val = q.val; omega

/-- What point t writes back is block t of the linear layer of the arrays as the region finds them. -/
theorem flushed3_eq (c : Dev nD) (t : Fin cfg3.N) :
    (dat3 (F := Ideal) V c).flushed 3 t = ((cfg3.win 3).blk t).view.read (Elt Ideal)
      (regLin (M := 172032) (K := 448) (N := 64) (V c main_v53) (V c main_v52) (V c main_v54)) := by
  show (cfg3.win 3).cut (grid3.coords t) ((dat3 (F := Ideal) V c).after 3 t) = _
  rw [after3_3]
  unfold out3_3
  rw [View.canon_unit_zero off3_zero]
  simp only [View.ld_unit_zero (S := S8192x448) off3_zero, View.ld_unit_zero (S := S448x64) off3_zero,
    View.ld_unit_zero (S := S1x64) off3_zero]
  obtain ⟨-, -, -, -, -, -, e0, e1⟩ := idx_facts3 t
  have ht : t.val < 21 := lt_of_lt_of_eq t.isLt N_3
  funext j
  obtain ⟨p, q, rfl⟩ : ∃ (p : Fin 8192) (q : Fin 64), j = ix2 p q := ⟨j 0, j 1, eq_ix2 j⟩
  show k3_pay1 (F := Ideal) (iblk3 V c 0 t) (iblk3 V c 1 t) (iblk3 V c 2 t) (ix2 p q)
    = regLin (M := 172032) (K := 448) (N := 64) (V c main_v53) (V c main_v52) (V c main_v54) (((cfg3.win 3).blk t).view.emb (ix2 p q))
  have hp : p.val < 8192 := p.isLt
  rw [pay3_at, regLin_at3 (V c main_v53) (V c main_v52) (V c main_v54) _ ⟨t.val * 8192 + p.val, by omega⟩ q
    (show win3_3.index t (0 : Fin 2) * 8192 + 1 * p.val = t.val * 8192 + p.val by omega)
    (show win3_3.index t (1 : Fin 2) * 64 + 1 * q.val = q.val by omega)]
  rw [blk3_2_at]
  refine congrArg (· + _) (Finset.sum_congr rfl fun k _ => ?_)
  rw [blk3_0_at V c t p k ⟨t.val * 8192 + p.val, by omega⟩ rfl, blk3_1_at]

/-- An index of the array is in point t's block iff each coordinate is in the block's range on its axis. -/
theorem mem_blk3 (t : Fin cfg3.N) (i : S172032x64.Idx) :
    i ∈ ((cfg3.win 3).blk t).view.set ↔ ∀ a : Fin 2, win3_3.index t a * S8192x64.size a ≤ (i a).val ∧ (i a).val < win3_3.index t a * S8192x64.size a + S8192x64.size a := by
  show i ∈ ((View.whole main_v55).slice (win3_3.rect t)).set ↔ _
  rw [View.set_slice_whole, Rect.mem_set_unit]
  exact Iff.rfl

/-- Every row lies in the block of the point numbered by its quotient by 8192, and every point writes back. -/
theorem cover3 (i : S172032x64.Idx) :
    ∃ t : Fin cfg3.N, (cfg3.win 3).flush t = true ∧ i ∈ ((cfg3.win 3).blk t).view.set := by
  have hi0 : (i 0).val < 172032 := (i 0).isLt
  have hi1 : (i 1).val < 64 := (i 1).isLt
  have hN : cfg3.N = 21 := N_3
  refine ⟨⟨(i 0).val / 8192, by rw [hN]; omega⟩, flush3_3 _, ?_⟩
  rw [mem_blk3]
  obtain ⟨-, -, -, -, -, -, e0, e1⟩ := idx_facts3 ⟨(i 0).val / 8192, by rw [hN]; omega⟩
  intro a
  match a with
  | ⟨0, _⟩ =>
    show win3_3.index _ (0 : Fin 2) * 8192 ≤ (i 0).val ∧ (i 0).val < win3_3.index _ (0 : Fin 2) * 8192 + 8192
    rw [e0]; show (i 0).val / 8192 * 8192 ≤ (i 0).val ∧ (i 0).val < (i 0).val / 8192 * 8192 + 8192; omega
  | ⟨1, _⟩ =>
    show win3_3.index _ (1 : Fin 2) * 64 ≤ (i 1).val ∧ (i 1).val < win3_3.index _ (1 : Fin 2) * 64 + 64
    rw [e1]; omega

/-- After region 3 its output array holds the linear layer of the arrays the region read. -/
theorem reg3 (c : Dev nD) : (dat3 (F := Ideal) V c).arrAt 3 cfg3.N
    = regLin (M := 172032) (K := 448) (N := 64) (V c main_v53) (V c main_v52) (V c main_v54) :=
  (dat3 (F := Ideal) V c).arrAt_eq_of_cover 3 _ (fun t _ => flushed3_eq V c t) cover3

end Cert.KernelIdeal.RegVal

end
-- ==== Proof.KReg4.lean ====
/-
  What the second normalising region (grid of 21 row blocks of 8192 rows) leaves in its output array: a pointwise map of the input block with the four parameter rows.
-/
import proofs.«417947_j4449586118756_2_alg».proof.Proof.Gen.KernelIdeal.Frame
import proofs.«417947_j4449586118756_2_alg».proof.Proof.KStage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.SL.Sem Cert.Spec
open Idealize.ShloMosaic.ValueIdx

variable (V : (c : Dev nD) → (b : Ref sig .tc) → Buf (Elt Ideal) ((c : Thread nD τ).loc b))

namespace R4

/-- The offset pair (0, 0) is the constant zero offset. -/
theorem zero_offsets : (![0, 0] : Fin 2 → Nat) = fun _ => 0 := funext fun a => by fin_cases a <;> rfl

/-- The region's payload at row p, column q. -/
theorem bnPay_apply (x : Vec Ideal S8192x64 .f32) (g mu s be : Vec Ideal S1x64 .f32) (p : Fin 8192) (q : Fin 64) :
    k4_pay1 (F := Ideal) x g mu s be (ix2 p q)
      = bnAct (x (ix2 p q)) (mu (ix2 (0 : Fin 1) q)) (s (ix2 (0 : Fin 1) q)) (g (ix2 (0 : Fin 1) q)) (be (ix2 (0 : Fin 1) q)) := by
  unfold k4_pay1 bnAct
  simp only [shapeCast_self, select_apply, cmpf_apply, mulf_apply, addf_apply, subf_apply, broadcast_apply]
  simp only [broadcastTo_1b_ab_apply]
  rfl

/-- The printed block-index maps over the grid: the input block and the output block of point t are row block t,
    column block 0; the four parameter rows are always block (0, 0). -/
theorem blockIdx : ∀ t : Fin cfg4.N,
    win4_0.index t (0 : Fin 2) = t.val ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- What point t writes back is block t of the normalised array. -/
theorem flushed_bn (c : Dev nD) (t : Fin cfg4.N) :
    (dat4 (F := Ideal) V c).flushed 5 t = ((cfg4.win 5).blk t).view.read (Elt Ideal)
      (regBn (M := 172032) (N := 64) (V c main_v64) (V c main_v65) (V c main_v66) (V c main_v67) (V c main_v68)) := by
  show (cfg4.win 5).cut (grid4.coords t) ((dat4 V c).after 5 t) = _
  rw [after4_5]
  unfold out4_5
  rw [View.canon_unit_zero zero_offsets]
  simp only [View.ld_unit_zero (S := S8192x64) zero_offsets, View.ld_unit_zero (S := S1x64) zero_offsets]
  funext j
  obtain ⟨p, q, rfl⟩ : ∃ (p : Fin 8192) (q : Fin 64), j = ix2 p q := ⟨j 0, j 1, eq_ix2 j⟩
  show k4_pay1 (F := Ideal) (iblk4 V c 0 t) (iblk4 V c 3 t) (iblk4 V c 1 t) (iblk4 V c 2 t) (iblk4 V c 4 t) (ix2 p q)
      = regBn (M := 172032) (N := 64) (V c main_v64) (V c main_v65) (V c main_v66) (V c main_v67) (V c main_v68)
          (((cfg4.win 5).blk t).view.emb (ix2 p q))
  rw [bnPay_apply]
  unfold regBn
  obtain ⟨e00, e01, e50, e51, e10, e11, e20, e21, e30, e31, e40, e41⟩ := blockIdx t
  have h0 : iblk4 V c 0 t (ix2 p q) = V c main_v64 (((cfg4.win 5).blk t).view.emb (ix2 p q)) := by
    show V c main_v64 (((cfg4.win 0).blk t).view.emb (ix2 p q)) = _
    refine congrArg (V c main_v64) (funext fun a => Fin.ext ?_)
    match a with
    | ⟨0, _⟩ => show win4_0.index t (0 : Fin 2) * 8192 + 1 * p.val = win4_5.index t (0 : Fin 2) * 8192 + 1 * p.val; omega
    | ⟨1, _⟩ => show win4_0.index t (1 : Fin 2) * 64 + 1 * q.val = win4_5.index t (1 : Fin 2) * 64 + 1 * q.val; omega
  have h1 : iblk4 V c 1 t (ix2 (0 : Fin 1) q) = V c main_v65 (ix2 (0 : Fin 1) (((cfg4.win 5).blk t).view.emb (ix2 p q) 1)) := by
    show V c main_v65 (((cfg4.win 1).blk t).view.emb (ix2 (0 : Fin 1) q)) = _
    refine congrArg (V c main_v65) (funext fun a => Fin.ext ?_)
    match a with
    | ⟨0, _⟩ => show win4_1.index t (0 : Fin 2) * 1 + 1 * 0 = 0; omega
    | ⟨1, _⟩ => show win4_1.index t (1 : Fin 2) * 64 + 1 * q.val = win4_5.index t (1 : Fin 2) * 64 + 1 * q.val; omega
  have h2 : iblk4 V c 2 t (ix2 (0 : Fin 1) q) = V c main_v66 (ix2 (0 : Fin 1) (((cfg4.win 5).blk t).view.emb (ix2 p q) 1)) := by
    show V c main_v66 (((cfg4.win 2).blk t).view.emb (ix2 (0 : Fin 1) q)) = _
    refine congrArg (V c main_v66) (funext fun a => Fin.ext ?_)
    match a with
    | ⟨0, _⟩ => show win4_2.index t (0 : Fin 2) * 1 + 1 * 0 = 0; omega
    | ⟨1, _⟩ => show win4_2.index t (1 : Fin 2) * 64 + 1 * q.val = win4_5.index t (1 : Fin 2) * 64 + 1 * q.val; omega
  have h3 : iblk4 V c 3 t (ix2 (0 : Fin 1) q) = V c main_v67 (ix2 (0 : Fin 1) (((cfg4.win 5).blk t).view.emb (ix2 p q) 1)) := by
    show V c main_v67 (((cfg4.win 3).blk t).view.emb (ix2 (0 : Fin 1) q)) = _
    refine congrArg (V c main_v67) (funext fun a => Fin.ext ?_)
    match a with
    | ⟨0, _⟩ => show win4_3.index t (0 : Fin 2) * 1 + 1 * 0 = 0; omega
    | ⟨1, _⟩ => show win4_3.index t (1 : Fin 2) * 64 + 1 * q.val = win4_5.index t (1 : Fin 2) * 64 + 1 * q.val; omega
  have h4 : iblk4 V c 4 t (ix2 (0 : Fin 1) q) = V c main_v68 (ix2 (0 : Fin 1) (((cfg4.win 5).blk t).view.emb (ix2 p q) 1)) := by
    show V c main_v68 (((cfg4.win 4).blk t).view.emb (ix2 (0 : Fin 1) q)) = _
    refine congrArg (V c main_v68) (funext fun a => Fin.ext ?_)
    match a with
    | ⟨0, _⟩ => show win4_4.index t (0 : Fin 2) * 1 + 1 * 0 = 0; omega
    | ⟨1, _⟩ => show win4_4.index t (1 : Fin 2) * 64 + 1 * q.val = win4_5.index t (1 : Fin 2) * 64 + 1 * q.val; omega
  rw [h0, h1, h2, h3, h4]

/-- An index of the output array lies in point t's block iff each coordinate lies in the block's range on its axis. -/
theorem mem_outBlk (t : Fin cfg4.N) (i : S172032x64.Idx) :
    i ∈ ((cfg4.win 5).blk t).view.set ↔ ∀ a : Fin 2, win4_5.index t a * S8192x64.size a ≤ (i a).val ∧ (i a).val < win4_5.index t a * S8192x64.size a + S8192x64.size a := by
  show i ∈ ((View.whole main_v69).slice (win4_5.rect t)).set ↔ _
  rw [View.set_slice_whole, Rect.mem_set_unit]
  exact Iff.rfl

/-- Row r of the output array lies in the block of point r / 8192. -/
theorem outBlk_cover (i : S172032x64.Idx) : ∃ t : Fin cfg4.N, (cfg4.win 5).flush t = true ∧ i ∈ ((cfg4.win 5).blk t).view.set := by
  have hi0 : (i 0).val < 172032 := (i 0).isLt
  have hi1 : (i 1).val < 64 := (i 1).isLt
  have hN : cfg4.N = 21 := N_4
  let t : Fin cfg4.N := ⟨(i 0).val / 8192, by rw [hN]; omega⟩
  obtain ⟨-, -, e50, e51, -⟩ := blockIdx t
  have ht : t.val = (i 0).val / 8192 := rfl
  refine ⟨t, flush4_5 t, ?_⟩
  rw [mem_outBlk]
  intro a
  match a with
  | ⟨0, _⟩ => show win4_5.index t (0 : Fin 2) * 8192 ≤ (i 0).val ∧ (i 0).val < win4_5.index t (0 : Fin 2) * 8192 + 8192; omega
  | ⟨1, _⟩ => show win4_5.index t (1 : Fin 2) * 64 ≤ (i 1).val ∧ (i 1).val < win4_5.index t (1 : Fin 2) * 64 + 64; omega

end R4

/-- After region 4 its output array holds the normalised, leaky-rectified input array. -/
theorem reg4 (c : Dev nD) : (dat4 (F := Ideal) V c).arrAt 5 cfg4.N
    = regBn (M := 172032) (N := 64) (V c main_v64) (V c main_v65) (V c main_v66) (V c main_v67) (V c main_v68) :=
  (dat4 (F := Ideal) V c).arrAt_eq_of_cover 5 _ (fun t _ => R4.flushed_bn V c t) R4.outBlk_cover

end Cert.KernelIdeal.RegVal

end
-- ==== Proof.KChainA.lean ====
/-
  The run's contents from the launch to the first concatenating region's entry: y after region 0 and the slice; `up` and the regrouped weights after the two takes and the stretch that follows them.
-/
import proofs.«417947_j4449586118756_2_alg».proof.Proof.Carry
import proofs.«417947_j4449586118756_2_alg».proof.Proof.KStage
import proofs.«417947_j4449586118756_2_alg».proof.Proof.KReg0
import proofs.«417947_j4449586118756_2_alg».proof.Proof.KReg1
import proofs.«417947_j4449586118756_2_alg».proof.Proof.KReg2
import proofs.«417947_j4449586118756_2_alg».proof.Proof.KReg3
import proofs.«417947_j4449586118756_2_alg».proof.Proof.KReg4
import Idealize.ShloMosaic.PureOps.Ideal
import Idealize.ShloMosaic.Lib.StableHlo.Run

set_option maxRecDepth 16384

noncomputable section

namespace Cert.KernelIdeal.Chain

open Cert.KernelIdeal Cert.KernelIdeal.Gen Cert.KernelIdeal.Stage Idealize.ShloMosaic Idealize.ShloMosaic.TcCoe Idealize.SL.Sem

variable (m : (ℓ : Loc nD τ sig) → Buf (Elt Ideal) ℓ) (ρ : Dev nD → PrngReg) (c : Dev nD)

/-! Auxiliary facts, one per buffer and boundary: what that buffer holds there. -/
namespace SegA

/-- Contents moved to a typed reference's buffer type and back are unchanged. -/
theorem ofBuf_toBuf {sg : RefSig} {T : BufTy} (x : StableHlo.TRef sg T) (v : T.Contents (Elt Ideal)) :
    x.ofBuf (x.toBuf v) = v := by
  obtain ⟨r, h, _, _⟩ := x; subst h; rfl

/-! ## From the launch to region 0's entry

Each lemma reads one buffer at one boundary in terms of the previous boundary: either the operation that wrote it,
applied to its operands there, or (no operation of the stretch writes it) the same contents. -/

/-- At the launch an argument buffer holds the launch contents. -/
theorem W0_arg (b : Ref sig .tc) : W0 m ρ c (Proc.devRef .tc b) = m ((c : Thread nD τ).loc b) := rfl

/-- The first stretch transposes W_up. -/
theorem W1_v0 : W1 m ρ c (Proc.devRef .tc main_v0)
    = transpose S128x448 [1, 0] (W0 m ρ c (Proc.devRef .tc main_arg2)) transposes_S448x128_S128x448_1_0 := by
  dsimp only [W1, hostOps0]; after_results
  all_goals rfl

/-- … and writes the integer zero that the padding value is converted from. -/
theorem W1_c : W1 m ρ c (Proc.devRef .tc main_c) = constantI S_ 32 0#32 := by
  dsimp only [W1, hostOps0]; after_results
  all_goals rfl

theorem W1_arg0 : W1 m ρ c (Proc.devRef .tc main_arg0) = W0 m ρ c (Proc.devRef .tc main_arg0) := by
  untouched hostOps0

theorem W1_arg3 : W1 m ρ c (Proc.devRef .tc main_arg3) = W0 m ρ c (Proc.devRef .tc main_arg3) := by
  untouched hostOps0

/-- The second stretch pads x1's rows with the converted zero. -/
theorem W2_v1 : W2 m ρ c (Proc.devRef .tc main_v1)
    = pad S49152x128 ![0, 0] ![8190, 0] ![0, 0] (W1 m ρ c (Proc.devRef .tc main_arg0))
        (sitofp .f32 (W1 m ρ c (Proc.devRef .tc main_c)) : FVec Ideal S_ .f32) pads_S40962x128_S49152x128_081900_000 h_S_ := by
  dsimp only [W2, hostOps0_1]; after_results
  all_goals rfl

theorem W2_v0 : W2 m ρ c (Proc.devRef .tc main_v0) = W1 m ρ c (Proc.devRef .tc main_v0) := by
  untouched hostOps0_1

theorem W2_arg3 : W2 m ρ c (Proc.devRef .tc main_arg3) = W1 m ρ c (Proc.devRef .tc main_arg3) := by
  untouched hostOps0_1

/-- The third stretch reads b_up as one row. -/
theorem W3_v2 : W3 m ρ c (Proc.devRef .tc main_v2)
    = shapeCast S1x448 (W2 m ρ c (Proc.devRef .tc main_arg3)) shapeCasts_S448_S1x448 := by
  dsimp only [W3, hostOps0_2]; after_results
  all_goals rfl

theorem W3_v1 : W3 m ρ c (Proc.devRef .tc main_v1) = W2 m ρ c (Proc.devRef .tc main_v1) := by
  untouched hostOps0_2

theorem W3_v0 : W3 m ρ c (Proc.devRef .tc main_v0) = W2 m ρ c (Proc.devRef .tc main_v0) := by
  untouched hostOps0_2

/-- Region 0's output array: the linear layer of the three arrays at the region's entry. -/
theorem W4_v3 : W4 m ρ c (Proc.devRef .tc main_v3)
    = Cert.Spec.regLin (M := 49152) (K := 128) (N := 448) (W3 m ρ c (Proc.devRef .tc main_v1))
        (W3 m ρ c (Proc.devRef .tc main_v0)) (W3 m ρ c (Proc.devRef .tc main_v2)) :=
  (W4_arr m ρ c 3).trans (RegVal.reg0 (V3 m ρ) c)

/-- The stretch after region 0 slices the padding rows off. -/
theorem W5_v4 : W5 m ρ c (Proc.devRef .tc main_v4)
    = extractStridedSlice S40962x448 ![0, 0] (W4 m ρ c (Proc.devRef .tc main_v3)) slices_S49152x448_S40962x448_0_0 := by
  dsimp only [W5, hostOps1]; after_results
  all_goals rfl

/-- The padded x1 at region 0's entry, from the launch contents. -/
theorem W3_v1_launch : W3 m ρ c (Proc.devRef .tc main_v1)
    = pad S49152x128 ![0, 0] ![8190, 0] ![0, 0] (m ((c : Thread nD τ).loc main_arg0)) zpad
        pads_S40962x128_S49152x128_081900_000 h_S_ := by
  refine (W3_v1 m ρ c).trans ((W2_v1 m ρ c).trans ?_)
  rw [W1_c m ρ c, W1_arg0 m ρ c, W0_arg m ρ c]
  all_goals rfl

/-- The transposed W_up at region 0's entry. -/
theorem W3_v0_launch : W3 m ρ c (Proc.devRef .tc main_v0)
    = transpose S128x448 [1, 0] (m ((c : Thread nD τ).loc main_arg2)) transposes_S448x128_S128x448_1_0 :=
  (W3_v0 m ρ c).trans ((W2_v0 m ρ c).trans (W1_v0 m ρ c))

/-- The bias row at region 0's entry. -/
theorem W3_v2_launch : W3 m ρ c (Proc.devRef .tc main_v2)
    = shapeCast S1x448 (m ((c : Thread nD τ).loc main_arg3)) shapeCasts_S448_S1x448 := by
  refine (W3_v2 m ρ c).trans ?_
  rw [W2_arg3 m ρ c, W1_arg3 m ρ c, W0_arg m ρ c]

/-! ## Arguments carried from the launch to the stretch that reads them

No operation before its reader writes an argument buffer, and no region has it as a window array, so at the reader's
boundary it still holds the launch contents. -/

/-- W1's regrouping reads W1 (the fifth argument) at the boundary before the last stretch. -/
theorem arg4_W7 : W7 m ρ c (Proc.devRef .tc main_arg4) = m ((c : Thread nD τ).loc main_arg4) :=
  (by untouched hostOps1_2 : W7 m ρ c (Proc.devRef .tc main_arg4) = W6 m ρ c (Proc.devRef .tc main_arg4)).trans <|
  (by untouched hostOps1_1 : W6 m ρ c (Proc.devRef .tc main_arg4) = W5 m ρ c (Proc.devRef .tc main_arg4)).trans <|
  (by untouched hostOps1 : W5 m ρ c (Proc.devRef .tc main_arg4) = W4 m ρ c (Proc.devRef .tc main_arg4)).trans <|
  (W4_of_ne m ρ c main_arg4 (by decide)).trans <|
  (by untouched hostOps0_2 : W3 m ρ c (Proc.devRef .tc main_arg4) = W2 m ρ c (Proc.devRef .tc main_arg4)).trans <|
  (by untouched hostOps0_1 : W2 m ρ c (Proc.devRef .tc main_arg4) = W1 m ρ c (Proc.devRef .tc main_arg4)).trans <|
  (by untouched hostOps0 : W1 m ρ c (Proc.devRef .tc main_arg4) = W0 m ρ c (Proc.devRef .tc main_arg4)).trans <|
  W0_arg m ρ c main_arg4

/-- The top take reads its index array after the slice. -/
theorem arg13_W5 : W5 m ρ c (Proc.devRef .tc main_arg13) = m ((c : Thread nD τ).loc main_arg13) :=
  (by untouched hostOps1 : W5 m ρ c (Proc.devRef .tc main_arg13) = W4 m ρ c (Proc.devRef .tc main_arg13)).trans <|
  (W4_of_ne m ρ c main_arg13 (by decide)).trans <|
  (by untouched hostOps0_2 : W3 m ρ c (Proc.devRef .tc main_arg13) = W2 m ρ c (Proc.devRef .tc main_arg13)).trans <|
  (by untouched hostOps0_1 : W2 m ρ c (Proc.devRef .tc main_arg13) = W1 m ρ c (Proc.devRef .tc main_arg13)).trans <|
  (by untouched hostOps0 : W1 m ρ c (Proc.devRef .tc main_arg13) = W0 m ρ c (Proc.devRef .tc main_arg13)).trans <|
  W0_arg m ρ c main_arg13

/-- The down take reads its index array one stretch later. -/
theorem arg14_W6 : W6 m ρ c (Proc.devRef .tc main_arg14) = m ((c : Thread nD τ).loc main_arg14) :=
  (by untouched hostOps1_1 : W6 m ρ c (Proc.devRef .tc main_arg14) = W5 m ρ c (Proc.devRef .tc main_arg14)).trans <|
  (by untouched hostOps1 : W5 m ρ c (Proc.devRef .tc main_arg14) = W4 m ρ c (Proc.devRef .tc main_arg14)).trans <|
  (W4_of_ne m ρ c main_arg14 (by decide)).trans <|
  (by untouched hostOps0_2 : W3 m ρ c (Proc.devRef .tc main_arg14) = W2 m ρ c (Proc.devRef .tc main_arg14)).trans <|
  (by untouched hostOps0_1 : W2 m ρ c (Proc.devRef .tc main_arg14) = W1 m ρ c (Proc.devRef .tc main_arg14)).trans <|
  (by untouched hostOps0 : W1 m ρ c (Proc.devRef .tc main_arg14) = W0 m ρ c (Proc.devRef .tc main_arg14)).trans <|
  W0_arg m ρ c main_arg14

/-! ## The two takes and the stretch after them

A long stretch is folded in one pass from an arbitrary valuation `V` at its entry (so that nothing before the stretch
is opened); what is left is the stage function's own term up to identity transports of typed references. The gather and
the reductions stay folded throughout. -/

/-- The 64-column view of y is written in the same stretch as y. -/
theorem W5_v5 : W5 m ρ c (Proc.devRef .tc main_v5)
    = shapeCast S286734x64 (W5 m ρ c (Proc.devRef .tc main_v4)) shapeCasts_S40962x448_S286734x64 := by
  dsimp only [W5, hostOps1]; after_results
  all_goals rfl

attribute [local irreducible] Host.gather Host.reduce Host.reduceAdd pad in
/-- The top take: wrap a negative index once, gather, and keep the gathered row where the wrapped index is in range. -/
theorem W6_v6 : W6 m ρ c (Proc.devRef .tc main_v6)
    = takeTopK (W5 m ρ c (Proc.devRef .tc main_v5)) (W5 m ρ c (Proc.devRef .tc main_arg13)) := by
  unfold takeTopK okTopK wrapTopK
  dsimp only [W6, hostOps1_1]
  generalize W5 m ρ c = V
  after_results_simp
  simp only [ofBuf_toBuf]
  all_goals rfl

theorem W6_v5 : W6 m ρ c (Proc.devRef .tc main_v5) = W5 m ρ c (Proc.devRef .tc main_v5) := by
  untouched hostOps1_1

attribute [local irreducible] Host.gather Host.reduce Host.reduceAdd pad in
/-- The down take, the same on the second index array. -/
theorem W7_v7 : W7 m ρ c (Proc.devRef .tc main_v7)
    = takeDownK (W6 m ρ c (Proc.devRef .tc main_v5)) (W6 m ρ c (Proc.devRef .tc main_arg14)) := by
  unfold takeDownK okDownK wrapDownK
  dsimp only [W7, hostOps1_2]
  generalize W6 m ρ c = V
  after_results_simp
  simp only [ofBuf_toBuf]
  all_goals rfl

theorem W7_v6 : W7 m ρ c (Proc.devRef .tc main_v6) = W6 m ρ c (Proc.devRef .tc main_v6) := by
  untouched hostOps1_2

/-- The tail of `up`: the taken top rows over the halved sums of consecutive pairs of taken down rows. -/
def upJoin (t : FVec Ideal S40962x64 .f32) (d : FVec Ideal S245760x64 .f32) : FVec Ideal S163842x64 .f32 :=
  concatenate S163842x64 0
    [⟨S40962x64, t⟩,
     ⟨S122880x64, Host.divf
        (Host.reduceAdd (shapeCast S122880x64x2 d shapeCasts_S245760x64_S122880x64x2)
          (constant S_ .f32 0x00000000#32) reducesTo_S122880x64x2_S122880x64_d2 h_S_)
        (broadcastInDim S122880x64 ![] bcast_S_S122880x64 (constant S_ .f32 0x40000000#32))⟩]
    concatenates_S40962x64_S122880x64_S163842x64_d0

attribute [local irreducible] Host.gather Host.reduce Host.reduceAdd pad in
/-- The last stretch joins the two takes. -/
theorem W8_v12 : W8 m ρ c (Proc.devRef .tc main_v12)
    = upJoin (W7 m ρ c (Proc.devRef .tc main_v6)) (W7 m ρ c (Proc.devRef .tc main_v7)) := by
  unfold upJoin
  dsimp only [W8, hostOps1_3]
  generalize W7 m ρ c = V
  after_results_simp
  all_goals rfl

/-! ## The regrouped weights -/

/-- The same stretch regroups W1: split its 896 columns in 7 × 128, bring the slot axis to the front, merge slot
    and row, transpose. -/
theorem W8_v16 : W8 m ρ c (Proc.devRef .tc main_v16)
    = transpose S128x448 [1, 0]
        (shapeCast S448x128
          (transpose S7x64x128 [1, 0, 2]
            (shapeCast S64x7x128 (W7 m ρ c (Proc.devRef .tc main_arg4)) shapeCasts_S64x896_S64x7x128)
            transposes_S64x7x128_S7x64x128_1_0_2)
          shapeCasts_S7x64x128_S448x128)
        transposes_S448x128_S128x448_1_0 := by
  dsimp only [W8, hostOps1_3]
  generalize W7 m ρ c = V
  after_results_simp
  all_goals rfl

end SegA

/-- After region 0 and the slice: y, as a function of the launch contents of x1, W_up, b_up. -/
theorem cp_y : W5 m ρ c (Proc.devRef .tc main_v4)
    = yK (m ((c : Thread nD τ).loc main_arg0)) (m ((c : Thread nD τ).loc main_arg2)) (m ((c : Thread nD τ).loc main_arg3)) := by
  refine (SegA.W5_v4 m ρ c).trans ?_
  rw [SegA.W4_v3 m ρ c, SegA.W3_v1_launch m ρ c, SegA.W3_v0_launch m ρ c, SegA.W3_v2_launch m ρ c]
  all_goals rfl

attribute [local irreducible] Host.gather Host.reduce Host.reduceAdd pad in
/-- After the two takes and the averaging: `up`, from y and the launch contents of the two index arrays. -/
theorem cp_up : W8 m ρ c (Proc.devRef .tc main_v12)
    = upK (W5 m ρ c (Proc.devRef .tc main_v4)) (m ((c : Thread nD τ).loc main_arg13)) (m ((c : Thread nD τ).loc main_arg14)) := by
  refine (SegA.W8_v12 m ρ c).trans ?_
  rw [SegA.W7_v6 m ρ c, SegA.W6_v6 m ρ c, SegA.W7_v7 m ρ c, SegA.W6_v5 m ρ c, SegA.W5_v5 m ρ c,
    SegA.arg13_W5 m ρ c, SegA.arg14_W6 m ρ c]
  unfold upK SegA.upJoin
  all_goals rfl

/-- The regrouped, transposed W1. -/
theorem cp_wcat : W8 m ρ c (Proc.devRef .tc main_v16) = wcatK (m ((c : Thread nD τ).loc main_arg4)) := by
  refine (SegA.W8_v16 m ρ c).trans ?_
  rw [SegA.arg4_W7 m ρ c]
  all_goals rfl

end Cert.KernelIdeal.Chain

end
-- ==== Proof.KChainB.lean ====
/-
  The run's contents from `up` to h1: Z1 after the concatenating region and the slice; h1 after the take at the flat row numbers, the sum over the seven slots and the bias.
-/
import proofs.«417947_j4449586118756_2_alg».proof.Proof.Carry
import proofs.«417947_j4449586118756_2_alg».proof.Proof.KStage
import proofs.«417947_j4449586118756_2_alg».proof.Proof.KReg0
import proofs.«417947_j4449586118756_2_alg».proof.Proof.KReg1
import proofs.«417947_j4449586118756_2_alg».proof.Proof.KReg2
import proofs.«417947_j4449586118756_2_alg».proof.Proof.KReg3
import proofs.«417947_j4449586118756_2_alg».proof.Proof.KReg4
import proofs.«417947_j4449586118756_2_alg».proof.Proof.KChainA
import Idealize.ShloMosaic.PureOps.Ideal
import Idealize.ShloMosaic.Lib.StableHlo.Run

set_option maxRecDepth 16384

noncomputable section

/-! ## What each host stretch writes, as a function of the contents it starts from

Every lemma of this part is stated over an arbitrary valuation `V` at the stretch's start, so that no earlier stretch is
ever opened: the value of a buffer after the stretch is the printed operation's function of the values its operands had
in `V` (or of values written earlier in the same stretch). -/

namespace Cert.KernelIdeal.Chain.SegB

open Cert.KernelIdeal Cert.KernelIdeal.Gen Cert.KernelIdeal.Stage Idealize.ShloMosaic Idealize.ShloMosaic.TcCoe Idealize.SL.Sem Cert.Spec

section Stretch

variable (V : Valuation τ sig (Elt Ideal))

/-- The integer zero that the padding converts: the last operation of the stretch before the first pad. -/
theorem c1_of : StableHlo.after hostOps1_3 V (Proc.devRef .tc main_c_1) = constantI S_ 32 0#32 := by
  dsimp only [hostOps1_3]; after_results <;> rfl

/-- `up` padded with the converted zero to 172032 rows. -/
theorem v17_of : StableHlo.after hostOps1_4 V (Proc.devRef .tc main_v17)
    = pad S172032x64 ![0, 0] ![8190, 0] ![0, 0] (V (Proc.devRef .tc main_v12) : FVec Ideal S163842x64 .f32)
        (sitofp (F := Ideal) .f32 (V (Proc.devRef .tc main_c_1) : IVec S_ 32)) pads_S163842x64_S172032x64_081900_000 h_S_ := by
  dsimp only [hostOps1_4]; after_results <;> rfl

/-- The second integer zero. -/
theorem c2_of : StableHlo.after hostOps1_5 V (Proc.devRef .tc main_c_2) = constantI S_ 32 0#32 := by
  dsimp only [hostOps1_5]; after_results <;> rfl

/-- x2 padded with the converted zero to 172032 rows. -/
theorem v18_of : StableHlo.after hostOps1_6 V (Proc.devRef .tc main_v18)
    = pad S172032x64 ![0, 0] ![8190, 0] ![0, 0] (V (Proc.devRef .tc main_arg1) : FVec Ideal S163842x64 .f32)
        (sitofp (F := Ideal) .f32 (V (Proc.devRef .tc main_c_2) : IVec S_ 32)) pads_S163842x64_S172032x64_081900_000 h_S_ := by
  dsimp only [hostOps1_6]; after_results <;> rfl

/-- The first 163842 rows of the region's output. -/
theorem v20_of : StableHlo.after hostOps2 V (Proc.devRef .tc main_v20)
    = extractStridedSlice S163842x448 ![0, 0] (V (Proc.devRef .tc main_v19) : FVec Ideal S172032x448 .f32) slices_S172032x448_S163842x448_0_0 := by
  dsimp only [hostOps2]; after_results <;> rfl

/-- Z1 regrouped in rows of 64 columns: the reshape of the slice written earlier in the same stretch. -/
theorem v28_of : StableHlo.after hostOps2 V (Proc.devRef .tc main_v28)
    = shapeCast S1146894x64 (StableHlo.after hostOps2 V (Proc.devRef .tc main_v20) : FVec Ideal S163842x448 .f32) shapeCasts_S163842x448_S1146894x64 := by
  dsimp only [hostOps2]; after_results <;> rfl

/-- The flat row numbers 7 · neigh + slot. -/
theorem v29_of : StableHlo.after hostOps2 V (Proc.devRef .tc main_v29) = flatIdxK (V (Proc.devRef .tc main_arg12)) := by
  unfold flatIdxK; dsimp only [hostOps2]; after_results <;> rfl

/-! The take's 23 operations are read in three consecutive pieces: the wrapped row numbers as a column (8 operations),
    the in-range mask (10), the gather and the select (5). -/

/-- The take's operations up to the wrapped column. -/
abbrev takeA : List (HloOp τ sig (Elt Ideal)) := (hostOps2_1 (F := Ideal)).take 8
/-- The take's operations of the in-range mask. -/
abbrev takeB : List (HloOp τ sig (Elt Ideal)) := ((hostOps2_1 (F := Ideal)).drop 8).take 10
/-- The take's gather and select. -/
abbrev takeC : List (HloOp τ sig (Elt Ideal)) := (hostOps2_1 (F := Ideal)).drop 18

theorem take_split : (hostOps2_1 (F := Ideal)) = takeA ++ (takeB ++ takeC) := rfl

theorem after_take_split :
    StableHlo.after hostOps2_1 V = StableHlo.after takeC (StableHlo.after takeB (StableHlo.after takeA V)) := by
  rw [take_split, StableHlo.after_append, StableHlo.after_append]

attribute [local irreducible] Host.gather Host.reduce Host.reduceAdd pad in
/-- The wrapped row numbers as a column. -/
theorem v5_A : StableHlo.after takeA V (Proc.devRef .tc main_call5_v5) = wrapFlatK (V (Proc.devRef .tc main_v29)) := by
  unfold wrapFlatK; simp only [takeA, hostOps2_1, List.take_succ_cons, List.take_zero]; after_results <;> rfl

/-- The first piece leaves the rows to gather from as they were. -/
theorem v28_A : StableHlo.after takeA V (Proc.devRef .tc main_v28) = V (Proc.devRef .tc main_v28) := by
  simp only [takeA, hostOps2_1, List.take_succ_cons, List.take_zero]; after_results

attribute [local irreducible] Host.gather Host.reduce Host.reduceAdd pad in
/-- The in-range mask of the wrapped row numbers. -/
theorem v12_B : StableHlo.after takeB V (Proc.devRef .tc main_call5_v12)
    = okBigK 1146893#32 (V (Proc.devRef .tc main_call5_v5)) := by
  unfold okBigK
  simp only [takeB, hostOps2_1, List.take_succ_cons, List.take_zero, List.drop_succ_cons, List.drop_zero]
  after_results <;> rfl

/-- The second piece leaves the wrapped column as it was. -/
theorem v5_B : StableHlo.after takeB V (Proc.devRef .tc main_call5_v5) = V (Proc.devRef .tc main_call5_v5) := by
  simp only [takeB, hostOps2_1, List.take_succ_cons, List.take_zero, List.drop_succ_cons, List.drop_zero]; after_results

/-- The second piece leaves the rows to gather from as they were. -/
theorem v28_B : StableHlo.after takeB V (Proc.devRef .tc main_v28) = V (Proc.devRef .tc main_v28) := by
  simp only [takeB, hostOps2_1, List.take_succ_cons, List.take_zero, List.drop_succ_cons, List.drop_zero]; after_results

attribute [local irreducible] Host.gather Host.reduce Host.reduceAdd pad in
/-- The select between the gathered rows and the NaN word. -/
theorem v30_C : StableHlo.after takeC V (Proc.devRef .tc main_v30)
    = select (broadcastInDim S1146894x64 ![0] bcast_S1146894_S1146894x64_0 (V (Proc.devRef .tc main_call5_v12) : IVec S1146894 1))
        (Host.gather gather_S1146894x64_S1146894x1_S1146894x64_1_0_n_n_0_1_164 (V (Proc.devRef .tc main_v28) : FVec Ideal S1146894x64 .f32)
          (V (Proc.devRef .tc main_call5_v5) : IVec S1146894x1 32))
        (broadcastInDim S1146894x64 ![] bcast_S_S1146894x64 (constant (F := Ideal) S_ .f32 0x7FC00000#32)) := by
  simp only [takeC, hostOps2_1, List.drop_succ_cons, List.drop_zero]; after_results <;> rfl

attribute [local irreducible] Host.gather Host.reduce Host.reduceAdd pad in
/-- The take as one function of the rows and the row numbers it starts from. -/
theorem take_of : StableHlo.after hostOps2_1 V (Proc.devRef .tc main_v30)
    = takeFlatK (V (Proc.devRef .tc main_v28)) (V (Proc.devRef .tc main_v29)) := by
  rw [after_take_split, v30_C, v12_B, v5_B, v28_B, v28_A, v5_A]; rfl

attribute [local irreducible] Host.gather Host.reduce Host.reduceAdd pad in
/-- The sum over the seven slots plus the bias row. -/
theorem v35_of : StableHlo.after hostOps2_2 V (Proc.devRef .tc main_v35)
    = addf (Host.reduceAdd (F := Ideal) (shapeCast S163842x7x64 (V (Proc.devRef .tc main_v30) : FVec Ideal S1146894x64 .f32) shapeCasts_S1146894x64_S163842x7x64)
        (constant (F := Ideal) S_ .f32 0x00000000#32) reducesTo_S163842x7x64_S163842x64_d1 h_S_)
      (broadcastInDim S163842x64 ![0, 1] bcast_S1x64_S163842x64_0_1 (shapeCast S1x64 (V (Proc.devRef .tc main_arg5) : FVec Ideal S64 .f32) shapeCasts_S64_S1x64)) := by
  dsimp only [hostOps2_2]; after_results <;> rfl

end Stretch

/-! ## The same facts at the run's boundaries, and the buffers carried across them -/

variable (m : (ℓ : Loc nD τ sig) → Buf (Elt Ideal) ℓ) (ρ : Dev nD → PrngReg) (c : Dev nD)

theorem c1_W8 : W8 m ρ c (Proc.devRef .tc main_c_1) = constantI S_ 32 0#32 := c1_of (W7 m ρ c)

theorem v17_W9 : W9 m ρ c (Proc.devRef .tc main_v17)
    = pad S172032x64 ![0, 0] ![8190, 0] ![0, 0] (W8 m ρ c (Proc.devRef .tc main_v12) : FVec Ideal S163842x64 .f32)
        (sitofp (F := Ideal) .f32 (W8 m ρ c (Proc.devRef .tc main_c_1) : IVec S_ 32)) pads_S163842x64_S172032x64_081900_000 h_S_ :=
  v17_of (W8 m ρ c)

theorem c2_W10 : W10 m ρ c (Proc.devRef .tc main_c_2) = constantI S_ 32 0#32 := c2_of (W9 m ρ c)

theorem v18_W11 : W11 m ρ c (Proc.devRef .tc main_v18)
    = pad S172032x64 ![0, 0] ![8190, 0] ![0, 0] (W10 m ρ c (Proc.devRef .tc main_arg1) : FVec Ideal S163842x64 .f32)
        (sitofp (F := Ideal) .f32 (W10 m ρ c (Proc.devRef .tc main_c_2) : IVec S_ 32)) pads_S163842x64_S172032x64_081900_000 h_S_ :=
  v18_of (W10 m ρ c)

/-- Region 1's output array: the rows of `up | x2` (as padded) against the regrouped weights. -/
theorem v19_W12 : W12 m ρ c (Proc.devRef .tc main_v19)
    = regCat (M := 172032) (N := 448) (W11 m ρ c (Proc.devRef .tc main_v17)) (W11 m ρ c (Proc.devRef .tc main_v18)) (W11 m ρ c (Proc.devRef .tc main_v16)) :=
  (W12_arr m ρ c 3).trans (RegVal.reg1 (V11 m ρ) c)

theorem v20_W13 : W13 m ρ c (Proc.devRef .tc main_v20)
    = extractStridedSlice S163842x448 ![0, 0] (W12 m ρ c (Proc.devRef .tc main_v19) : FVec Ideal S172032x448 .f32) slices_S172032x448_S163842x448_0_0 :=
  v20_of (W12 m ρ c)

theorem v28_W13 : W13 m ρ c (Proc.devRef .tc main_v28)
    = shapeCast S1146894x64 (W13 m ρ c (Proc.devRef .tc main_v20) : FVec Ideal S163842x448 .f32) shapeCasts_S163842x448_S1146894x64 :=
  v28_of (W12 m ρ c)

theorem v29_W13 : W13 m ρ c (Proc.devRef .tc main_v29) = flatIdxK (W12 m ρ c (Proc.devRef .tc main_arg12)) :=
  v29_of (W12 m ρ c)

theorem v30_W14 : W14 m ρ c (Proc.devRef .tc main_v30)
    = takeFlatK (W13 m ρ c (Proc.devRef .tc main_v28)) (W13 m ρ c (Proc.devRef .tc main_v29)) :=
  take_of (W13 m ρ c)

theorem v35_W15 : W15 m ρ c (Proc.devRef .tc main_v35)
    = addf (Host.reduceAdd (F := Ideal) (shapeCast S163842x7x64 (W14 m ρ c (Proc.devRef .tc main_v30) : FVec Ideal S1146894x64 .f32) shapeCasts_S1146894x64_S163842x7x64)
        (constant (F := Ideal) S_ .f32 0x00000000#32) reducesTo_S163842x7x64_S163842x64_d1 h_S_)
      (broadcastInDim S163842x64 ![0, 1] bcast_S1x64_S163842x64_0_1 (shapeCast S1x64 (W14 m ρ c (Proc.devRef .tc main_arg5) : FVec Ideal S64 .f32) shapeCasts_S64_S1x64)) :=
  v35_of (W14 m ρ c)

/-- The padded `up` is not written between its pad and region 1's entry. -/
theorem v17_W11 : W11 m ρ c (Proc.devRef .tc main_v17) = W9 m ρ c (Proc.devRef .tc main_v17) :=
  (by untouched hostOps1_6 : W11 m ρ c (Proc.devRef .tc main_v17) = W10 m ρ c (Proc.devRef .tc main_v17)).trans
    (by untouched hostOps1_5 : W10 m ρ c (Proc.devRef .tc main_v17) = W9 m ρ c (Proc.devRef .tc main_v17))

/-- The regrouped weights are not written between the stretch that makes them and region 1's entry. -/
theorem v16_W11 : W11 m ρ c (Proc.devRef .tc main_v16) = W8 m ρ c (Proc.devRef .tc main_v16) :=
  ((by untouched hostOps1_6 : W11 m ρ c (Proc.devRef .tc main_v16) = W10 m ρ c (Proc.devRef .tc main_v16)).trans
    (by untouched hostOps1_5 : W10 m ρ c (Proc.devRef .tc main_v16) = W9 m ρ c (Proc.devRef .tc main_v16))).trans
    (by untouched hostOps1_4 : W9 m ρ c (Proc.devRef .tc main_v16) = W8 m ρ c (Proc.devRef .tc main_v16))

/-- One step down a host stretch that does not write the buffer. -/
local macro "down " ops:ident : tactic => `(tactic| refine Eq.trans (by untouched $ops) ?_)

/-- x2 at the second pad is the launch contents: no stretch and no region before it writes an argument. -/
theorem arg1_W10 : W10 m ρ c (Proc.devRef .tc main_arg1) = m ((c : Thread nD τ).loc main_arg1) := by
  down hostOps1_5; down hostOps1_4; down hostOps1_3; down hostOps1_2; down hostOps1_1; down hostOps1
  refine (W4_of_ne _ _ _ _ (by decide)).trans ?_
  down hostOps0_2; down hostOps0_1; down hostOps0
  rfl

/-- neigh_orders after region 1 is the launch contents. -/
theorem arg12_W12 : W12 m ρ c (Proc.devRef .tc main_arg12) = m ((c : Thread nD τ).loc main_arg12) := by
  refine (W12_of_ne _ _ _ _ (by decide)).trans ?_
  down hostOps1_6; down hostOps1_5; down hostOps1_4; down hostOps1_3; down hostOps1_2; down hostOps1_1; down hostOps1
  refine (W4_of_ne _ _ _ _ (by decide)).trans ?_
  down hostOps0_2; down hostOps0_1; down hostOps0
  rfl

/-- b1 after the take is the launch contents. -/
theorem arg5_W14 : W14 m ρ c (Proc.devRef .tc main_arg5) = m ((c : Thread nD τ).loc main_arg5) := by
  down hostOps2_1; down hostOps2
  refine (W12_of_ne _ _ _ _ (by decide)).trans ?_
  down hostOps1_6; down hostOps1_5; down hostOps1_4; down hostOps1_3; down hostOps1_2; down hostOps1_1; down hostOps1
  refine (W4_of_ne _ _ _ _ (by decide)).trans ?_
  down hostOps0_2; down hostOps0_1; down hostOps0
  rfl

end Cert.KernelIdeal.Chain.SegB

namespace Cert.KernelIdeal.Chain

open Cert.KernelIdeal Cert.KernelIdeal.Gen Cert.KernelIdeal.Stage Idealize.ShloMosaic Idealize.ShloMosaic.TcCoe Idealize.SL.Sem

variable (m : (ℓ : Loc nD τ sig) → Buf (Elt Ideal) ℓ) (ρ : Dev nD → PrngReg) (c : Dev nD)

attribute [local irreducible] Host.gather Host.reduce Host.reduceAdd pad in
/-- After region 1 and the slice: Z1, from `up`, the regrouped weights and the launch contents of x2. -/
theorem cp_z1 : W13 m ρ c (Proc.devRef .tc main_v20)
    = z1K (W8 m ρ c (Proc.devRef .tc main_v12)) (m ((c : Thread nD τ).loc main_arg1)) (m ((c : Thread nD τ).loc main_arg4)) := by
  unfold z1K zpad
  rw [SegB.v20_W13, SegB.v19_W12, SegB.v17_W11, SegB.v17_W9, SegB.c1_W8, SegB.v18_W11, SegB.c2_W10, SegB.arg1_W10,
    SegB.v16_W11, cp_wcat]

attribute [local irreducible] Host.gather Host.reduce Host.reduceAdd pad in
/-- h1, from Z1 and the launch contents of neigh_orders and b1. -/
theorem cp_h1 : W15 m ρ c (Proc.devRef .tc main_v35)
    = h1K (W13 m ρ c (Proc.devRef .tc main_v20)) (m ((c : Thread nD τ).loc main_arg12)) (m ((c : Thread nD τ).loc main_arg5)) := by
  unfold h1K
  rw [SegB.v35_W15, SegB.v30_W14, SegB.v28_W13, SegB.v29_W13, SegB.arg12_W12, SegB.arg5_W14]

end Cert.KernelIdeal.Chain

end
-- ==== Proof.KChainC.lean ====
/-
  The run's contents from h1 to the second linear region's operand: the normalised h1 after its statistics, region 2 and the slice; the seven taken neighbour rows side by side.
-/
import proofs.«417947_j4449586118756_2_alg».proof.Proof.Carry
import proofs.«417947_j4449586118756_2_alg».proof.Proof.KStage
import proofs.«417947_j4449586118756_2_alg».proof.Proof.KReg0
import proofs.«417947_j4449586118756_2_alg».proof.Proof.KReg1
import proofs.«417947_j4449586118756_2_alg».proof.Proof.KReg2
import proofs.«417947_j4449586118756_2_alg».proof.Proof.KReg3
import proofs.«417947_j4449586118756_2_alg».proof.Proof.KReg4
import Idealize.ShloMosaic.PureOps.Ideal
import Idealize.ShloMosaic.Lib.StableHlo.Run

set_option maxRecDepth 16384

noncomputable section

namespace Cert.KernelIdeal.Chain

open Cert.KernelIdeal Cert.KernelIdeal.Gen Cert.KernelIdeal.Stage Idealize.ShloMosaic Idealize.ShloMosaic.TcCoe Idealize.SL.Sem

variable (m : (ℓ : Loc nD τ sig) → Buf (Elt Ideal) ℓ) (ρ : Dev nD → PrngReg) (c : Dev nD)

namespace SegC

/-- The gamma row is never written: at the boundary before the reshapes it is the launch contents. -/
theorem arg6_at18 : W18 m ρ c (Proc.devRef .tc main_arg6) = m ((c : Thread nD τ).loc main_arg6) :=
  calc W18 m ρ c (Proc.devRef .tc main_arg6)
    _ = W17 m ρ c (Proc.devRef .tc main_arg6) := by untouched hostOps2_5
    _ = W16 m ρ c (Proc.devRef .tc main_arg6) := by untouched hostOps2_4
    _ = W15 m ρ c (Proc.devRef .tc main_arg6) := by untouched hostOps2_3
    _ = W14 m ρ c (Proc.devRef .tc main_arg6) := by untouched hostOps2_2
    _ = W13 m ρ c (Proc.devRef .tc main_arg6) := by untouched hostOps2_1
    _ = W12 m ρ c (Proc.devRef .tc main_arg6) := by untouched hostOps2
    _ = W11 m ρ c (Proc.devRef .tc main_arg6) := W12_of_ne m ρ c main_arg6 (by decide)
    _ = W10 m ρ c (Proc.devRef .tc main_arg6) := by untouched hostOps1_6
    _ = W9 m ρ c (Proc.devRef .tc main_arg6) := by untouched hostOps1_5
    _ = W8 m ρ c (Proc.devRef .tc main_arg6) := by untouched hostOps1_4
    _ = W7 m ρ c (Proc.devRef .tc main_arg6) := by untouched hostOps1_3
    _ = W6 m ρ c (Proc.devRef .tc main_arg6) := by untouched hostOps1_2
    _ = W5 m ρ c (Proc.devRef .tc main_arg6) := by untouched hostOps1_1
    _ = W4 m ρ c (Proc.devRef .tc main_arg6) := by untouched hostOps1
    _ = W3 m ρ c (Proc.devRef .tc main_arg6) := W4_of_ne m ρ c main_arg6 (by decide)
    _ = W2 m ρ c (Proc.devRef .tc main_arg6) := by untouched hostOps0_2
    _ = W1 m ρ c (Proc.devRef .tc main_arg6) := by untouched hostOps0_1
    _ = W0 m ρ c (Proc.devRef .tc main_arg6) := by untouched hostOps0
    _ = m ((c : Thread nD τ).loc main_arg6) := rfl

/-- The beta row likewise. -/
theorem arg7_at18 : W18 m ρ c (Proc.devRef .tc main_arg7) = m ((c : Thread nD τ).loc main_arg7) :=
  calc W18 m ρ c (Proc.devRef .tc main_arg7)
    _ = W17 m ρ c (Proc.devRef .tc main_arg7) := by untouched hostOps2_5
    _ = W16 m ρ c (Proc.devRef .tc main_arg7) := by untouched hostOps2_4
    _ = W15 m ρ c (Proc.devRef .tc main_arg7) := by untouched hostOps2_3
    _ = W14 m ρ c (Proc.devRef .tc main_arg7) := by untouched hostOps2_2
    _ = W13 m ρ c (Proc.devRef .tc main_arg7) := by untouched hostOps2_1
    _ = W12 m ρ c (Proc.devRef .tc main_arg7) := by untouched hostOps2
    _ = W11 m ρ c (Proc.devRef .tc main_arg7) := W12_of_ne m ρ c main_arg7 (by decide)
    _ = W10 m ρ c (Proc.devRef .tc main_arg7) := by untouched hostOps1_6
    _ = W9 m ρ c (Proc.devRef .tc main_arg7) := by untouched hostOps1_5
    _ = W8 m ρ c (Proc.devRef .tc main_arg7) := by untouched hostOps1_4
    _ = W7 m ρ c (Proc.devRef .tc main_arg7) := by untouched hostOps1_3
    _ = W6 m ρ c (Proc.devRef .tc main_arg7) := by untouched hostOps1_2
    _ = W5 m ρ c (Proc.devRef .tc main_arg7) := by untouched hostOps1_1
    _ = W4 m ρ c (Proc.devRef .tc main_arg7) := by untouched hostOps1
    _ = W3 m ρ c (Proc.devRef .tc main_arg7) := W4_of_ne m ρ c main_arg7 (by decide)
    _ = W2 m ρ c (Proc.devRef .tc main_arg7) := by untouched hostOps0_2
    _ = W1 m ρ c (Proc.devRef .tc main_arg7) := by untouched hostOps0_1
    _ = W0 m ρ c (Proc.devRef .tc main_arg7) := by untouched hostOps0
    _ = m ((c : Thread nD τ).loc main_arg7) := rfl

/-- The neighbour table is never written: after the slice it is the launch contents. -/
theorem arg12_at21 : W21 m ρ c (Proc.devRef .tc main_arg12) = m ((c : Thread nD τ).loc main_arg12) :=
  calc W21 m ρ c (Proc.devRef .tc main_arg12)
    _ = W20 m ρ c (Proc.devRef .tc main_arg12) := by untouched hostOps3
    _ = W19 m ρ c (Proc.devRef .tc main_arg12) := W20_of_ne m ρ c main_arg12 (by decide)
    _ = W18 m ρ c (Proc.devRef .tc main_arg12) := by untouched hostOps2_6
    _ = W17 m ρ c (Proc.devRef .tc main_arg12) := by untouched hostOps2_5
    _ = W16 m ρ c (Proc.devRef .tc main_arg12) := by untouched hostOps2_4
    _ = W15 m ρ c (Proc.devRef .tc main_arg12) := by untouched hostOps2_3
    _ = W14 m ρ c (Proc.devRef .tc main_arg12) := by untouched hostOps2_2
    _ = W13 m ρ c (Proc.devRef .tc main_arg12) := by untouched hostOps2_1
    _ = W12 m ρ c (Proc.devRef .tc main_arg12) := by untouched hostOps2
    _ = W11 m ρ c (Proc.devRef .tc main_arg12) := W12_of_ne m ρ c main_arg12 (by decide)
    _ = W10 m ρ c (Proc.devRef .tc main_arg12) := by untouched hostOps1_6
    _ = W9 m ρ c (Proc.devRef .tc main_arg12) := by untouched hostOps1_5
    _ = W8 m ρ c (Proc.devRef .tc main_arg12) := by untouched hostOps1_4
    _ = W7 m ρ c (Proc.devRef .tc main_arg12) := by untouched hostOps1_3
    _ = W6 m ρ c (Proc.devRef .tc main_arg12) := by untouched hostOps1_2
    _ = W5 m ρ c (Proc.devRef .tc main_arg12) := by untouched hostOps1_1
    _ = W4 m ρ c (Proc.devRef .tc main_arg12) := by untouched hostOps1
    _ = W3 m ρ c (Proc.devRef .tc main_arg12) := W4_of_ne m ρ c main_arg12 (by decide)
    _ = W2 m ρ c (Proc.devRef .tc main_arg12) := by untouched hostOps0_2
    _ = W1 m ρ c (Proc.devRef .tc main_arg12) := by untouched hostOps0_1
    _ = W0 m ρ c (Proc.devRef .tc main_arg12) := by untouched hostOps0
    _ = m ((c : Thread nD τ).loc main_arg12) := rfl

/-! ### What one host stretch leaves in a buffer, from any contents `V` before it -/

section Stretch

variable (V : Valuation τ sig (Elt Ideal))

/-- The slice after region 2. -/
theorem ops3_v49 : StableHlo.after hostOps3 V (Proc.devRef .tc main_v49)
    = extractStridedSlice S163842x64 ![0, 0] (V (Proc.devRef .tc main_v48) : FVec Ideal S172032x64 .f32) slices_S172032x64_S163842x64_0_0 := by
  dsimp only [hostOps3]; after_results <;> rfl

/-- The four parameter rows as one-line arrays. -/
theorem ops2_6_v44 : StableHlo.after hostOps2_6 V (Proc.devRef .tc main_v44)
    = shapeCast S1x64 (V (Proc.devRef .tc main_v38) : FVec Ideal S64 .f32) shapeCasts_S64_S1x64 := by
  dsimp only [hostOps2_6]; after_results <;> rfl

theorem ops2_6_v45 : StableHlo.after hostOps2_6 V (Proc.devRef .tc main_v45)
    = shapeCast S1x64 (V (Proc.devRef .tc main_v42) : FVec Ideal S64 .f32) shapeCasts_S64_S1x64 := by
  dsimp only [hostOps2_6]; after_results <;> rfl

theorem ops2_6_v46 : StableHlo.after hostOps2_6 V (Proc.devRef .tc main_v46)
    = shapeCast S1x64 (V (Proc.devRef .tc main_arg6) : FVec Ideal S64 .f32) shapeCasts_S64_S1x64 := by
  dsimp only [hostOps2_6]; after_results <;> rfl

theorem ops2_6_v47 : StableHlo.after hostOps2_6 V (Proc.devRef .tc main_v47)
    = shapeCast S1x64 (V (Proc.devRef .tc main_arg7) : FVec Ideal S64 .f32) shapeCasts_S64_S1x64 := by
  dsimp only [hostOps2_6]; after_results <;> rfl

/-- The rows padded to 172032 with the converted integer. -/
theorem ops2_5_v43 : StableHlo.after hostOps2_5 V (Proc.devRef .tc main_v43)
    = pad S172032x64 ![0, 0] ![8190, 0] ![0, 0] (V (Proc.devRef .tc main_v35) : FVec Ideal S163842x64 .f32)
        (sitofp (F := Ideal) .f32 (V (Proc.devRef .tc main_c_9) : IVec S_ 32)) pads_S163842x64_S172032x64_081900_000 h_S_ := by
  dsimp only [hostOps2_5]; after_results <;> rfl

theorem ops2_4_c9 : StableHlo.after hostOps2_4 V (Proc.devRef .tc main_c_9) = constantI S_ 32 0#32 := by
  dsimp only [hostOps2_4]; after_results <;> rfl

/-- The reciprocal root of the shifted variance. -/
theorem ops2_4_v42 : StableHlo.after hostOps2_4 V (Proc.devRef .tc main_v42)
    = Host.rsqrt (F := Ideal) (addf (V (Proc.devRef .tc main_v39) : FVec Ideal S64 .f32)
        (broadcastInDim S64 ![] bcast_S_S64 (constant (F := Ideal) S_ .f32 0x3727C5AC#32))) := by
  dsimp only [hostOps2_4]; after_results <;> rfl

theorem ops2_2_c7 : StableHlo.after hostOps2_2 V (Proc.devRef .tc main_c_7) = constantI S_ 32 0#32 := by
  dsimp only [hostOps2_2]; after_results <;> rfl

end Stretch

section Stats

variable (V : Valuation τ sig (Elt Ideal))

attribute [local irreducible] Host.reduceAdd in
/-- The stretch that finishes h1 also leaves its column means. -/
theorem ops2_2_v38 : StableHlo.after hostOps2_2 V (Proc.devRef .tc main_v38)
    = meanK (StableHlo.after hostOps2_2 V (Proc.devRef .tc main_v35) : FVec Ideal S163842x64 .f32) := by
  unfold meanK
  dsimp only [hostOps2_2]; after_results <;> rfl

attribute [local irreducible] Host.reduceAdd in
/-- The variance function's stretch, its integer zero read from the buffer the stretch before wrote. -/
theorem ops2_3_v39 (hz : V (Proc.devRef .tc main_c_7) = constantI S_ 32 0#32) :
    StableHlo.after hostOps2_3 V (Proc.devRef .tc main_v39)
      = varK (V (Proc.devRef .tc main_v35) : FVec Ideal S163842x64 .f32) := by
  unfold varK dofK
  dsimp only [hostOps2_3]; after_results
  (rw [hz]) <;> rfl

end Stats

section Take

variable (V : Valuation τ sig (Elt Ideal))

/-- The take function's 23 operations in three runs: the wrapped index column (8), the in-range mask (10), the gather and the select (5). -/
abbrev takeA : List (HloOp τ sig (Elt Ideal)) := hostOps3_1.take 8
abbrev takeB : List (HloOp τ sig (Elt Ideal)) := (hostOps3_1.drop 8).take 10
abbrev takeC : List (HloOp τ sig (Elt Ideal)) := hostOps3_1.drop 18

theorem take_cut : (hostOps3_1 : List (HloOp τ sig (Elt Ideal))) = takeA ++ (takeB ++ takeC) := rfl

theorem after_take_cut : StableHlo.after hostOps3_1 V = StableHlo.after takeC (StableHlo.after takeB (StableHlo.after takeA V)) := by
  rw [take_cut, StableHlo.after_append, StableHlo.after_append]

/-- The first run leaves the wrapped indices as a column and does not write the rows taken from. -/
theorem takeA_v5 : StableHlo.after takeA V (Proc.devRef .tc main_call8_v5)
    = wrapNeighK (V (Proc.devRef .tc main_arg12) : IVec S1146894 32) := by
  unfold wrapNeighK
  simp only [takeA, hostOps3_1, List.take_succ_cons, List.take_zero, List.drop_succ_cons, List.drop_zero]
  after_results
  all_goals (try simp only [StableHlo.TRef.ofBuf, StableHlo.TRef.toBuf, cast_eq])
  all_goals rfl

theorem takeA_v49 : StableHlo.after takeA V (Proc.devRef .tc main_v49) = V (Proc.devRef .tc main_v49) := by
  simp only [takeA, hostOps3_1, List.take_succ_cons, List.take_zero, List.drop_succ_cons, List.drop_zero]
  after_results
  all_goals rfl

attribute [local irreducible] Host.reduce in
/-- The second run leaves the in-range mask of the column and writes neither the column nor the rows. -/
theorem takeB_v12 : StableHlo.after takeB V (Proc.devRef .tc main_call8_v12)
    = okBigK 163841#32 (V (Proc.devRef .tc main_call8_v5) : IVec S1146894x1 32) := by
  unfold okBigK
  simp only [takeB, hostOps3_1, List.take_succ_cons, List.take_zero, List.drop_succ_cons, List.drop_zero]
  after_results
  all_goals (try simp only [StableHlo.TRef.ofBuf, StableHlo.TRef.toBuf, cast_eq])
  all_goals rfl

theorem takeB_v5 : StableHlo.after takeB V (Proc.devRef .tc main_call8_v5) = V (Proc.devRef .tc main_call8_v5) := by
  simp only [takeB, hostOps3_1, List.take_succ_cons, List.take_zero, List.drop_succ_cons, List.drop_zero]
  after_results
  all_goals rfl

theorem takeB_v49 : StableHlo.after takeB V (Proc.devRef .tc main_v49) = V (Proc.devRef .tc main_v49) := by
  simp only [takeB, hostOps3_1, List.take_succ_cons, List.take_zero, List.drop_succ_cons, List.drop_zero]
  after_results
  all_goals rfl

attribute [local irreducible] Host.gather in
/-- The third run gathers the rows at the column and keeps them where the mask is set. -/
theorem takeC_v50 : StableHlo.after takeC V (Proc.devRef .tc main_v50)
    = select (broadcastInDim S1146894x64 ![0] bcast_S1146894_S1146894x64_0 (V (Proc.devRef .tc main_call8_v12) : IVec S1146894 1))
        (Host.gather gather_S163842x64_S1146894x1_S1146894x64_1_0_n_n_0_1_164 (V (Proc.devRef .tc main_v49) : FVec Ideal S163842x64 .f32)
          (V (Proc.devRef .tc main_call8_v5) : IVec S1146894x1 32))
        (broadcastInDim S1146894x64 ![] bcast_S_S1146894x64 (constant (F := Ideal) S_ .f32 0x7FC00000#32)) := by
  simp only [takeC, hostOps3_1, List.take_succ_cons, List.take_zero, List.drop_succ_cons, List.drop_zero]
  after_results
  all_goals (try simp only [StableHlo.TRef.ofBuf, StableHlo.TRef.toBuf, cast_eq])
  all_goals rfl

/-- The take function's stretch: the neighbour rows of the normalised h1. -/
theorem ops3_1_v50 : StableHlo.after hostOps3_1 V (Proc.devRef .tc main_v50)
    = takeNeighK (V (Proc.devRef .tc main_v49) : FVec Ideal S163842x64 .f32) (V (Proc.devRef .tc main_arg12) : IVec S1146894 32) := by
  unfold takeNeighK
  rw [after_take_cut, takeC_v50, takeB_v12, takeB_v5, takeB_v49, takeA_v5, takeA_v49]

/-- Seven taken rows side by side. -/
theorem ops3_2_v51 : StableHlo.after hostOps3_2 V (Proc.devRef .tc main_v51)
    = shapeCast S163842x448 (V (Proc.devRef .tc main_v50) : FVec Ideal S1146894x64 .f32) shapeCasts_S1146894x64_S163842x448 := by
  dsimp only [hostOps3_2]; after_results <;> rfl

end Take

/-! ### The contents at the boundaries -/

/-- h1 is not written again before the padding reads it. -/
theorem v35_at17 : W17 m ρ c (Proc.devRef .tc main_v35) = W15 m ρ c (Proc.devRef .tc main_v35) :=
  (by untouched hostOps2_4 : W17 m ρ c (Proc.devRef .tc main_v35) = W16 m ρ c (Proc.devRef .tc main_v35)).trans
    (by untouched hostOps2_3)

/-- The column means stay where the stretch that finished h1 left them. -/
theorem v38_at18 : W18 m ρ c (Proc.devRef .tc main_v38)
    = meanK (W15 m ρ c (Proc.devRef .tc main_v35) : FVec Ideal S163842x64 .f32) :=
  calc W18 m ρ c (Proc.devRef .tc main_v38)
    _ = W17 m ρ c (Proc.devRef .tc main_v38) := by untouched hostOps2_5
    _ = W16 m ρ c (Proc.devRef .tc main_v38) := by untouched hostOps2_4
    _ = W15 m ρ c (Proc.devRef .tc main_v38) := by untouched hostOps2_3
    _ = meanK (W15 m ρ c (Proc.devRef .tc main_v35) : FVec Ideal S163842x64 .f32) := ops2_2_v38 (W14 m ρ c)

/-- The column variances of h1. -/
theorem v39_at16 : W16 m ρ c (Proc.devRef .tc main_v39)
    = varK (W15 m ρ c (Proc.devRef .tc main_v35) : FVec Ideal S163842x64 .f32) :=
  ops2_3_v39 (W15 m ρ c) (ops2_2_c7 (W14 m ρ c))

/-- The reciprocal roots of the shifted variances. -/
theorem v42_at18 : W18 m ρ c (Proc.devRef .tc main_v42)
    = invK (W15 m ρ c (Proc.devRef .tc main_v35) : FVec Ideal S163842x64 .f32) := by
  unfold invK
  rw [← v39_at16 m ρ c]
  exact (by untouched hostOps2_5 : W18 m ρ c (Proc.devRef .tc main_v42) = W17 m ρ c (Proc.devRef .tc main_v42)).trans
    (ops2_4_v42 (W16 m ρ c))

/-- The zero-padded h1 that region 2 reads. -/
theorem v43_at19 : W19 m ρ c (Proc.devRef .tc main_v43)
    = pad S172032x64 ![0, 0] ![8190, 0] ![0, 0] (W15 m ρ c (Proc.devRef .tc main_v35) : FVec Ideal S163842x64 .f32) zpad
        pads_S163842x64_S172032x64_081900_000 h_S_ := by
  unfold zpad
  rw [← v35_at17 m ρ c, ← ops2_4_c9 (W16 m ρ c)]
  exact (by untouched hostOps2_6 : W19 m ρ c (Proc.devRef .tc main_v43) = W18 m ρ c (Proc.devRef .tc main_v43)).trans
    (ops2_5_v43 (W17 m ρ c))

/-- The four one-line arrays that region 2 reads. -/
theorem v44_at19 : W19 m ρ c (Proc.devRef .tc main_v44)
    = shapeCast S1x64 (meanK (W15 m ρ c (Proc.devRef .tc main_v35) : FVec Ideal S163842x64 .f32)) shapeCasts_S64_S1x64 := by
  rw [← v38_at18 m ρ c]; exact ops2_6_v44 (W18 m ρ c)

theorem v45_at19 : W19 m ρ c (Proc.devRef .tc main_v45)
    = shapeCast S1x64 (invK (W15 m ρ c (Proc.devRef .tc main_v35) : FVec Ideal S163842x64 .f32)) shapeCasts_S64_S1x64 := by
  rw [← v42_at18 m ρ c]; exact ops2_6_v45 (W18 m ρ c)

theorem v46_at19 : W19 m ρ c (Proc.devRef .tc main_v46)
    = shapeCast S1x64 (m ((c : Thread nD τ).loc main_arg6) : FVec Ideal S64 .f32) shapeCasts_S64_S1x64 := by
  rw [← arg6_at18 m ρ c]; exact ops2_6_v46 (W18 m ρ c)

theorem v47_at19 : W19 m ρ c (Proc.devRef .tc main_v47)
    = shapeCast S1x64 (m ((c : Thread nD τ).loc main_arg7) : FVec Ideal S64 .f32) shapeCasts_S64_S1x64 := by
  rw [← arg7_at18 m ρ c]; exact ops2_6_v47 (W18 m ρ c)

/-- Region 2's output array, from the arrays it reads. -/
theorem v48_at20 : W20 m ρ c (Proc.devRef .tc main_v48)
    = Cert.Spec.regBn (M := 172032) (N := 64) (W19 m ρ c (Proc.devRef .tc main_v43)) (W19 m ρ c (Proc.devRef .tc main_v44))
        (W19 m ρ c (Proc.devRef .tc main_v45)) (W19 m ρ c (Proc.devRef .tc main_v46)) (W19 m ρ c (Proc.devRef .tc main_v47)) :=
  (W20_arr m ρ c 5).trans (RegVal.reg2 (V19 m ρ) c)

end SegC

/-- After the statistics, region 2 and the slice: the normalised, rectified h1. -/
theorem cp_bn1 : W21 m ρ c (Proc.devRef .tc main_v49)
    = bnK (W15 m ρ c (Proc.devRef .tc main_v35)) (m ((c : Thread nD τ).loc main_arg6)) (m ((c : Thread nD τ).loc main_arg7)) := by
  unfold bnK
  rw [← SegC.v43_at19 m ρ c, ← SegC.v44_at19 m ρ c, ← SegC.v45_at19 m ρ c, ← SegC.v46_at19 m ρ c, ← SegC.v47_at19 m ρ c,
    ← SegC.v48_at20 m ρ c]
  exact SegC.ops3_v49 (W20 m ρ c)

/-- The taken neighbour rows side by side. -/
theorem cp_g2 : W23 m ρ c (Proc.devRef .tc main_v51)
    = gat2K (W21 m ρ c (Proc.devRef .tc main_v49)) (m ((c : Thread nD τ).loc main_arg12)) := by
  unfold gat2K
  rw [← SegC.arg12_at21 m ρ c, ← SegC.ops3_1_v50 (W21 m ρ c)]
  exact SegC.ops3_2_v51 (W22 m ρ c)

end Cert.KernelIdeal.Chain

end
-- ==== Proof.KChainD.lean ====
/-
  The run's contents from the second linear region to the result: h2 after region 3 and the slice; the result after h2's statistics, region 4 and the last slice.
-/
import proofs.«417947_j4449586118756_2_alg».proof.Proof.Carry
import proofs.«417947_j4449586118756_2_alg».proof.Proof.KStage
import proofs.«417947_j4449586118756_2_alg».proof.Proof.KReg0
import proofs.«417947_j4449586118756_2_alg».proof.Proof.KReg1
import proofs.«417947_j4449586118756_2_alg».proof.Proof.KReg2
import proofs.«417947_j4449586118756_2_alg».proof.Proof.KReg3
import proofs.«417947_j4449586118756_2_alg».proof.Proof.KReg4
import Idealize.ShloMosaic.PureOps.Ideal
import Idealize.ShloMosaic.Lib.StableHlo.Run

set_option maxRecDepth 16384

noncomputable section

namespace Cert.KernelIdeal.Chain

open Cert.KernelIdeal Cert.KernelIdeal.Gen Cert.KernelIdeal.Stage Idealize.ShloMosaic Idealize.ShloMosaic.TcCoe Idealize.SL.Sem

variable (m : (ℓ : Loc nD τ sig) → Buf (Elt Ideal) ℓ) (ρ : Dev nD → PrngReg) (c : Dev nD)

/-! ## An argument's buffer from a boundary on to the last one: no stretch and no region writes it -/

/-- Nine one-step carries of one buffer, from the last boundary back to the one after the first padding stretch,
    compose: the buffer holds there what it holds at the end. -/
theorem d_fwd_22_33 (b : Ref sig .tc)
    (h32 : W33 m ρ c (Proc.devRef .tc b) = W32 m ρ c (Proc.devRef .tc b))
    (h31 : W32 m ρ c (Proc.devRef .tc b) = W31 m ρ c (Proc.devRef .tc b))
    (h30 : W31 m ρ c (Proc.devRef .tc b) = W30 m ρ c (Proc.devRef .tc b))
    (h29 : W30 m ρ c (Proc.devRef .tc b) = W29 m ρ c (Proc.devRef .tc b))
    (h28 : W29 m ρ c (Proc.devRef .tc b) = W28 m ρ c (Proc.devRef .tc b))
    (h27 : W28 m ρ c (Proc.devRef .tc b) = W27 m ρ c (Proc.devRef .tc b))
    (h26 : W27 m ρ c (Proc.devRef .tc b) = W26 m ρ c (Proc.devRef .tc b))
    (h25 : W26 m ρ c (Proc.devRef .tc b) = W25 m ρ c (Proc.devRef .tc b))
    (h24 : W25 m ρ c (Proc.devRef .tc b) = W24 m ρ c (Proc.devRef .tc b)) :
    W24 m ρ c (Proc.devRef .tc b) = W33 m ρ c (Proc.devRef .tc b) :=
  (h32.trans (h31.trans (h30.trans (h29.trans (h28.trans (h27.trans (h26.trans (h25.trans h24)))))))).symm

/-- The second linear layer's bias is at region 3's entry stretch what was launched. -/
theorem d_arg9_24 : W24 m ρ c (Proc.devRef .tc main_arg9) = m ((c : Thread nD τ).loc main_arg9) :=
  (d_fwd_22_33 m ρ c main_arg9 (by untouched hostOps5) (W32_of_ne m ρ c main_arg9 (by decide)) (by untouched hostOps4_4)
    (by untouched hostOps4_3) (by untouched hostOps4_2) (by untouched hostOps4_1) (by untouched hostOps4)
    (W26_of_ne m ρ c main_arg9 (by decide)) (by untouched hostOps3_4)).trans (W33_main_arg9 m ρ c)

/-- The second linear layer's weight is, two stretches earlier, what was launched. -/
theorem d_arg8_22 : W22 m ρ c (Proc.devRef .tc main_arg8) = m ((c : Thread nD τ).loc main_arg8) :=
  ((by untouched hostOps3_2 : W23 m ρ c (Proc.devRef .tc main_arg8) = W22 m ρ c (Proc.devRef .tc main_arg8)).symm.trans
    ((by untouched hostOps3_3 : W24 m ρ c (Proc.devRef .tc main_arg8) = W23 m ρ c (Proc.devRef .tc main_arg8)).symm.trans
      (d_fwd_22_33 m ρ c main_arg8 (by untouched hostOps5) (W32_of_ne m ρ c main_arg8 (by decide)) (by untouched hostOps4_4)
        (by untouched hostOps4_3) (by untouched hostOps4_2) (by untouched hostOps4_1) (by untouched hostOps4)
        (W26_of_ne m ρ c main_arg8 (by decide)) (by untouched hostOps3_4)))).trans (W33_main_arg8 m ρ c)

/-! ## Region 3's three operands at its entry -/

/-- The integer zero the padding value is converted from. -/
theorem d_c10_23 : W23 m ρ c (Proc.devRef .tc main_c_10) = constantI S_ 32 0#32 := by
  dsimp only [W23, hostOps3_2]; generalize W22 m ρ c = V; after_results
  all_goals rfl

/-- The transposed weight. -/
theorem d_v52_23 : W23 m ρ c (Proc.devRef .tc main_v52)
    = transpose S448x64 [1, 0] (W22 m ρ c (Proc.devRef .tc main_arg8)) transposes_S64x448_S448x64_1_0 := by
  dsimp only [W23, hostOps3_2]; generalize W22 m ρ c = V; after_results
  all_goals rfl

/-- The zero-padded gathered rows. -/
theorem d_v53_24 : W24 m ρ c (Proc.devRef .tc main_v53)
    = pad S172032x448 ![0, 0] ![8190, 0] ![0, 0] (W23 m ρ c (Proc.devRef .tc main_v51) : FVec Ideal S163842x448 .f32)
        (sitofp .f32 (W23 m ρ c (Proc.devRef .tc main_c_10)) : FVec Ideal S_ .f32) pads_S163842x448_S172032x448_081900_000 h_S_ := by
  dsimp only [W24, hostOps3_3]; generalize W23 m ρ c = V; after_results
  all_goals rfl

/-- The bias as a row. -/
theorem d_v54_25 : W25 m ρ c (Proc.devRef .tc main_v54)
    = shapeCast S1x64 (W24 m ρ c (Proc.devRef .tc main_arg9)) shapeCasts_S64_S1x64 := by
  dsimp only [W25, hostOps3_4]; generalize W24 m ρ c = V; after_results
  all_goals rfl

theorem d_v53_25 : W25 m ρ c (Proc.devRef .tc main_v53)
    = pad S172032x448 ![0, 0] ![8190, 0] ![0, 0] (W23 m ρ c (Proc.devRef .tc main_v51) : FVec Ideal S163842x448 .f32) zpad pads_S163842x448_S172032x448_081900_000 h_S_ :=
  ((by untouched hostOps3_4 : W25 m ρ c (Proc.devRef .tc main_v53) = W24 m ρ c (Proc.devRef .tc main_v53)).trans
    (d_v53_24 m ρ c)).trans (by rw [d_c10_23]; rfl)

theorem d_v52_25 : W25 m ρ c (Proc.devRef .tc main_v52)
    = transpose S448x64 [1, 0] (m ((c : Thread nD τ).loc main_arg8)) transposes_S64x448_S448x64_1_0 :=
  ((by untouched hostOps3_4 : W25 m ρ c (Proc.devRef .tc main_v52) = W24 m ρ c (Proc.devRef .tc main_v52)).trans
    ((by untouched hostOps3_3 : W24 m ρ c (Proc.devRef .tc main_v52) = W23 m ρ c (Proc.devRef .tc main_v52)).trans
      (d_v52_23 m ρ c))).trans (by rw [d_arg8_22])

theorem d_v54_25' : W25 m ρ c (Proc.devRef .tc main_v54)
    = shapeCast S1x64 (m ((c : Thread nD τ).loc main_arg9)) shapeCasts_S64_S1x64 :=
  (d_v54_25 m ρ c).trans (by rw [d_arg9_24])

/-! ## Region 3's output and its slice -/

/-- Region 3 leaves the linear layer of its three operands in its output array. -/
theorem d_v55_26 : W26 m ρ c (Proc.devRef .tc main_v55)
    = Cert.Spec.regLin (M := 172032) (K := 448) (N := 64) (W25 m ρ c (Proc.devRef .tc main_v53))
        (W25 m ρ c (Proc.devRef .tc main_v52)) (W25 m ρ c (Proc.devRef .tc main_v54)) :=
  (W26_arr m ρ c 3).trans (RegVal.reg3 (V25 m ρ) c)

/-- The rows kept of region 3's output. -/
theorem d_v56_27 : W27 m ρ c (Proc.devRef .tc main_v56)
    = extractStridedSlice S163842x64 ![0, 0] (W26 m ρ c (Proc.devRef .tc main_v55)) slices_S172032x64_S163842x64_0_0 := by
  dsimp only [W27, hostOps4]; generalize W26 m ρ c = V; after_results
  all_goals rfl

/-- After region 3 and the slice: h2. -/
theorem cp_h2 : W27 m ρ c (Proc.devRef .tc main_v56)
    = h2K (W23 m ρ c (Proc.devRef .tc main_v51)) (m ((c : Thread nD τ).loc main_arg8)) (m ((c : Thread nD τ).loc main_arg9)) := by
  refine (d_v56_27 m ρ c).trans ?_
  rw [d_v55_26, d_v53_25, d_v52_25, d_v54_25']
  rfl

/-! ## h2's statistics -/

/-- The rows kept of region 3's output, the column sums' divisor and the integer zero are written in one stretch:
    the column means are read at that stretch's own h2. -/
theorem d_v59_27 : W27 m ρ c (Proc.devRef .tc main_v59) = meanK (W27 m ρ c (Proc.devRef .tc main_v56)) := by
  rw [d_v56_27]; unfold meanK
  dsimp only [W27, hostOps4]; generalize W26 m ρ c = V; after_results
  all_goals rfl

/-- The integer zero the degrees of freedom subtract. -/
theorem d_c13_27 : W27 m ρ c (Proc.devRef .tc main_c_13) = constantI S_ 32 0#32 := by
  dsimp only [W27, hostOps4]; generalize W26 m ρ c = V; after_results
  all_goals rfl

attribute [local irreducible] Host.reduceAdd in
/-- The column variances. -/
theorem d_v60_28 : W28 m ρ c (Proc.devRef .tc main_v60) = varK (W27 m ρ c (Proc.devRef .tc main_v56)) := by
  unfold varK dofK; rw [← d_c13_27 m ρ c]
  dsimp only [W28, hostOps4_1]; generalize W27 m ρ c = V
  after_results_simp
  all_goals rfl

/-- The inverse standard deviations, over the variances of the stretch before. -/
theorem d_v63_29 : W29 m ρ c (Proc.devRef .tc main_v63) = invK (W27 m ρ c (Proc.devRef .tc main_v56)) := by
  unfold invK; rw [← d_v60_28 m ρ c]
  dsimp only [W29, hostOps4_2]; generalize W28 m ρ c = V; after_results
  all_goals rfl

/-- The integer zero the second padding value is converted from. -/
theorem d_c15_29 : W29 m ρ c (Proc.devRef .tc main_c_15) = constantI S_ 32 0#32 := by
  dsimp only [W29, hostOps4_2]; generalize W28 m ρ c = V; after_results
  all_goals rfl

/-- h2 is carried unchanged over the variance and the inverse-deviation stretches. -/
theorem d_v56_29 : W29 m ρ c (Proc.devRef .tc main_v56) = W27 m ρ c (Proc.devRef .tc main_v56) :=
  (by untouched hostOps4_2 : W29 m ρ c (Proc.devRef .tc main_v56) = W28 m ρ c (Proc.devRef .tc main_v56)).trans
    (by untouched hostOps4_1)

/-! ## Region 4's five operands at its entry -/

/-- The zero-padded h2. -/
theorem d_v64_30 : W30 m ρ c (Proc.devRef .tc main_v64)
    = pad S172032x64 ![0, 0] ![8190, 0] ![0, 0] (W29 m ρ c (Proc.devRef .tc main_v56) : FVec Ideal S163842x64 .f32)
        (sitofp .f32 (W29 m ρ c (Proc.devRef .tc main_c_15)) : FVec Ideal S_ .f32) pads_S163842x64_S172032x64_081900_000 h_S_ := by
  dsimp only [W30, hostOps4_3]; generalize W29 m ρ c = V; after_results
  all_goals rfl

theorem d_v64_31 : W31 m ρ c (Proc.devRef .tc main_v64)
    = pad S172032x64 ![0, 0] ![8190, 0] ![0, 0] (W27 m ρ c (Proc.devRef .tc main_v56) : FVec Ideal S163842x64 .f32) zpad pads_S163842x64_S172032x64_081900_000 h_S_ :=
  ((by untouched hostOps4_4 : W31 m ρ c (Proc.devRef .tc main_v64) = W30 m ρ c (Proc.devRef .tc main_v64)).trans
    (d_v64_30 m ρ c)).trans (by rw [d_c15_29, d_v56_29]; rfl)

/-- The means carried to region 4's entry stretch. -/
theorem d_v59_30 : W30 m ρ c (Proc.devRef .tc main_v59) = meanK (W27 m ρ c (Proc.devRef .tc main_v56)) :=
  (by untouched hostOps4_3 : W30 m ρ c (Proc.devRef .tc main_v59) = W29 m ρ c (Proc.devRef .tc main_v59)).trans
    ((by untouched hostOps4_2 : W29 m ρ c (Proc.devRef .tc main_v59) = W28 m ρ c (Proc.devRef .tc main_v59)).trans
      ((by untouched hostOps4_1 : W28 m ρ c (Proc.devRef .tc main_v59) = W27 m ρ c (Proc.devRef .tc main_v59)).trans
        (d_v59_27 m ρ c)))

/-- The inverse deviations carried to region 4's entry stretch. -/
theorem d_v63_30 : W30 m ρ c (Proc.devRef .tc main_v63) = invK (W27 m ρ c (Proc.devRef .tc main_v56)) :=
  (by untouched hostOps4_3 : W30 m ρ c (Proc.devRef .tc main_v63) = W29 m ρ c (Proc.devRef .tc main_v63)).trans
    (d_v63_29 m ρ c)

/-- The scale and the shift are at region 4's entry stretch what was launched. -/
theorem d_arg10_30 : W30 m ρ c (Proc.devRef .tc main_arg10) = m ((c : Thread nD τ).loc main_arg10) :=
  ((by untouched hostOps4_4 : W31 m ρ c (Proc.devRef .tc main_arg10) = W30 m ρ c (Proc.devRef .tc main_arg10)).symm.trans
    ((W32_of_ne m ρ c main_arg10 (by decide)).symm.trans
      (by untouched hostOps5 : W33 m ρ c (Proc.devRef .tc main_arg10) = W32 m ρ c (Proc.devRef .tc main_arg10)).symm)).trans
    (W33_main_arg10 m ρ c)

theorem d_arg11_30 : W30 m ρ c (Proc.devRef .tc main_arg11) = m ((c : Thread nD τ).loc main_arg11) :=
  ((by untouched hostOps4_4 : W31 m ρ c (Proc.devRef .tc main_arg11) = W30 m ρ c (Proc.devRef .tc main_arg11)).symm.trans
    ((W32_of_ne m ρ c main_arg11 (by decide)).symm.trans
      (by untouched hostOps5 : W33 m ρ c (Proc.devRef .tc main_arg11) = W32 m ρ c (Proc.devRef .tc main_arg11)).symm)).trans
    (W33_main_arg11 m ρ c)

/-- The four rows: means, inverse deviations, scale, shift. -/
theorem d_v65_31 : W31 m ρ c (Proc.devRef .tc main_v65)
    = shapeCast S1x64 (meanK (W27 m ρ c (Proc.devRef .tc main_v56))) shapeCasts_S64_S1x64 := by
  rw [← d_v59_30 m ρ c]; dsimp only [W31, hostOps4_4]; generalize W30 m ρ c = V; after_results
  all_goals rfl

theorem d_v66_31 : W31 m ρ c (Proc.devRef .tc main_v66)
    = shapeCast S1x64 (invK (W27 m ρ c (Proc.devRef .tc main_v56))) shapeCasts_S64_S1x64 := by
  rw [← d_v63_30 m ρ c]; dsimp only [W31, hostOps4_4]; generalize W30 m ρ c = V; after_results
  all_goals rfl

theorem d_v67_31 : W31 m ρ c (Proc.devRef .tc main_v67)
    = shapeCast S1x64 (m ((c : Thread nD τ).loc main_arg10)) shapeCasts_S64_S1x64 := by
  rw [← d_arg10_30 m ρ c]; dsimp only [W31, hostOps4_4]; generalize W30 m ρ c = V; after_results
  all_goals rfl

theorem d_v68_31 : W31 m ρ c (Proc.devRef .tc main_v68)
    = shapeCast S1x64 (m ((c : Thread nD τ).loc main_arg11)) shapeCasts_S64_S1x64 := by
  rw [← d_arg11_30 m ρ c]; dsimp only [W31, hostOps4_4]; generalize W30 m ρ c = V; after_results
  all_goals rfl

/-! ## Region 4's output and its slice -/

/-- Region 4 leaves the normalised, leaky-rectified array of its five operands in its output array. -/
theorem d_v69_32 : W32 m ρ c (Proc.devRef .tc main_v69)
    = Cert.Spec.regBn (M := 172032) (N := 64) (W31 m ρ c (Proc.devRef .tc main_v64)) (W31 m ρ c (Proc.devRef .tc main_v65))
        (W31 m ρ c (Proc.devRef .tc main_v66)) (W31 m ρ c (Proc.devRef .tc main_v67)) (W31 m ρ c (Proc.devRef .tc main_v68)) :=
  (W32_arr m ρ c 5).trans (RegVal.reg4 (V31 m ρ) c)

/-- The rows kept of region 4's output. -/
theorem d_v70_33 : W33 m ρ c (Proc.devRef .tc main_v70)
    = extractStridedSlice S163842x64 ![0, 0] (W32 m ρ c (Proc.devRef .tc main_v69)) slices_S172032x64_S163842x64_0_0 := by
  dsimp only [W33, hostOps5]; generalize W32 m ρ c = V; after_results
  all_goals rfl

/-- After the statistics, region 4 and the last slice: the result. -/
theorem cp_out : W33 m ρ c (Proc.devRef .tc main_v70)
    = bnK (W27 m ρ c (Proc.devRef .tc main_v56)) (m ((c : Thread nD τ).loc main_arg10)) (m ((c : Thread nD τ).loc main_arg11)) := by
  refine (d_v70_33 m ρ c).trans ?_
  rw [d_v69_32, d_v64_31, d_v65_31, d_v66_31, d_v67_31, d_v68_31]
  rfl

end Cert.KernelIdeal.Chain

end
-- ==== Proof.KChain.lean ====
/-
  The kernel program's result buffer at the end of the run is `outK` of the launch contents of the fifteen arguments:
  the eight checkpoints, each stated over the previous one's buffer, composed.
-/
import proofs.«417947_j4449586118756_2_alg».proof.Proof.KChainA
import proofs.«417947_j4449586118756_2_alg».proof.Proof.KChainB
import proofs.«417947_j4449586118756_2_alg».proof.Proof.KChainC
import proofs.«417947_j4449586118756_2_alg».proof.Proof.KChainD

noncomputable section

namespace Cert.KernelIdeal.Chain

open Cert.KernelIdeal Cert.KernelIdeal.Gen Cert.KernelIdeal.Stage Idealize.ShloMosaic Idealize.ShloMosaic.TcCoe Idealize.SL.Sem

variable (m : (ℓ : Loc nD τ sig) → Buf (Elt Ideal) ℓ) (ρ : Dev nD → PrngReg) (c : Dev nD)

/-- The result buffer after the run, as a function of the launch contents of the arguments. -/
theorem out_eq : W33 m ρ c (Proc.devRef .tc main_v70)
    = outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) := by
  rw [cp_out, cp_h2, cp_g2, cp_bn1, cp_h1, cp_z1, cp_up, cp_y]
  rfl

end Cert.KernelIdeal.Chain

end
-- ==== Proof.RStage.lean ====
/-
  The reference, stage by stage, each stage the composed term of its printed host operations:
  the up-convolution's linear layer `y`; the gathered top rows over the pair-averaged gathered rows (`up`);
  the row-wise concatenation with `x2`; the first one-ring convolution (seven gathered neighbours per vertex, laid side
  by side, against W1ᵀ, plus b1); the batch statistics (mean, biased variance, reciprocal root of variance + ε) and the
  normalised, leaky-rectified array; the second one-ring convolution; and the same normalisation again.
-/
import proofs.«417947_j4449586118756_2_alg».proof.Proof.Gen.ReferenceIdeal

noncomputable section

namespace Cert.ReferenceIdeal.Stage

open Cert.ReferenceIdeal Cert.ReferenceIdeal.Gen Idealize.ShloMosaic

variable {F : FTy → Type} [FloatOps F]

/-- A negative row number wraps once by the number of rows, 286734 (top indices). -/
def wrapTop (i : IVec S40962 32) : IVec S40962x1 32 :=
  broadcastInDim S40962x1 ![0] bcast_S40962_S40962x1_0
    (select (cmpi .slt i (broadcastInDim S40962 ![] bcast_S_S40962 (constantI S_ 32 0#32)))
      (addi i (broadcastInDim S40962 ![] bcast_S_S40962 (constantI S_ 32 286734#32))) i)

/-- The same for the down indices. -/
def wrapDown (i : IVec S245760 32) : IVec S245760x1 32 :=
  broadcastInDim S245760x1 ![0] bcast_S245760_S245760x1_0
    (select (cmpi .slt i (broadcastInDim S245760 ![] bcast_S_S245760 (constantI S_ 32 0#32)))
      (addi i (broadcastInDim S245760 ![] bcast_S_S245760 (constantI S_ 32 286734#32))) i)

/-- A negative vertex number wraps once by the number of vertices, 163842. -/
def wrapNeigh (i : IVec S1146894 32) : IVec S1146894x1 32 :=
  broadcastInDim S1146894x1 ![0] bcast_S1146894_S1146894x1_0
    (select (cmpi .slt i (broadcastInDim S1146894 ![] bcast_S_S1146894 (constantI S_ 32 0#32)))
      (addi i (broadcastInDim S1146894 ![] bcast_S_S1146894 (constantI S_ 32 163842#32))) i)

/-- A 64-vector as every row of a 163842 × 64 array. -/
def rows64 (v : FVec F S64 .f32) : FVec F S163842x64 .f32 :=
  broadcastInDim S163842x64 ![0, 1] bcast_S1x64_S163842x64_0_1 (broadcastInDim S1x64 ![1] bcast_S64_S1x64_1 v)

/-- y = x1 · W_upᵀ + b_up. -/
def yR (x1 : FVec F S40962x128 .f32) (wup : FVec F S448x128 .f32) (bup : FVec F S448 .f32) : FVec F S40962x448 .f32 :=
  addf (Host.dotGeneral dot_S40962x128_S128x448_S40962x448_1_0_0_1_n_n none x1 (transpose S128x448 [1, 0] wup transposes_S448x128_S128x448_1_0))
    (broadcastInDim S40962x448 ![0, 1] bcast_S1x448_S40962x448_0_1 (broadcastInDim S1x448 ![1] bcast_S448_S1x448_1 bup))

/-- The top rows gathered from y's 64-column flattening, over the averaged pairs of gathered down rows. -/
def upR (y : FVec F S40962x448 .f32) (top : IVec S40962 32) (down : IVec S245760 32) : FVec F S163842x64 .f32 :=
  concatenate S163842x64 0
    [⟨S40962x64, Host.gather gather_S286734x64_S40962x1_S40962x64_1_0_n_n_0_1_164 (shapeCast S286734x64 y shapeCasts_S40962x448_S286734x64) (wrapTop top)⟩,
     ⟨S122880x64, Host.divf
        (Host.reduceAdd (shapeCast S122880x64x2 (Host.gather gather_S286734x64_S245760x1_S245760x64_1_0_n_n_0_1_164 (shapeCast S286734x64 y shapeCasts_S40962x448_S286734x64) (wrapDown down)) shapeCasts_S245760x64_S122880x64x2)
          (constant S_ .f32 0x00000000#32) reducesTo_S122880x64x2_S122880x64_d2 h_S_)
        (broadcastInDim S122880x64 ![] bcast_S_S122880x64 (constant S_ .f32 0x40000000#32))⟩]
    concatenates_S40962x64_S122880x64_S163842x64_d0

/-- up | x2. -/
def xcatR (up x2 : FVec F S163842x64 .f32) : FVec F S163842x128 .f32 :=
  concatenate S163842x128 1 [⟨S163842x64, up⟩, ⟨S163842x64, x2⟩] concatenates_S163842x64_S163842x64_S163842x128_d1

/-- The first one-ring convolution: seven gathered neighbour rows side by side against W1ᵀ, plus b1. -/
def h1R (x : FVec F S163842x128 .f32) (neigh : IVec S1146894 32) (w1 : FVec F S64x896 .f32) (b1 : FVec F S64 .f32) : FVec F S163842x64 .f32 :=
  addf (Host.dotGeneral dot_S163842x896_S896x64_S163842x64_1_0_0_1_n_n none
      (shapeCast S163842x896 (Host.gather gather_S163842x128_S1146894x1_S1146894x128_1_0_n_n_0_1_1128 x (wrapNeigh neigh)) shapeCasts_S1146894x128_S163842x896)
      (transpose S896x64 [1, 0] w1 transposes_S64x896_S896x64_1_0))
    (rows64 b1)

/-- The column means. -/
def meanR (h : FVec F S163842x64 .f32) : FVec F S64 .f32 :=
  Host.divf (Host.reduceAdd h (constant S_ .f32 0x00000000#32) reducesTo_S163842x64_S64_d0 h_S_)
    (broadcastInDim S64 ![] bcast_S_S64 (constant S_ .f32 0x48200080#32))

/-- The number of rows less the zero degrees of freedom, as printed: 163842 − 0. -/
def dofR : FVec F S_ .f32 :=
  subf (constant S_ .f32 0x48200080#32) (sitofp .f32 (constantI S_ 32 0#32))

/-- The column variances (biased), as jnp prints them. -/
def varR (h : FVec F S163842x64 .f32) : FVec F S64 .f32 :=
  select (broadcastInDim S64 ![] bcast_S_S64 (cmpf .ogt (dofR (F := F)) (constant S_ .f32 0x00000000#32)))
    (Host.divf
      (Host.reduceAdd
        (mulf
          (subf h (broadcastInDim S163842x64 ![0, 1] bcast_S1x64_S163842x64_0_1
            (Host.divf (broadcastInDim S1x64 ![1] bcast_S64_S1x64_1 (Host.reduceAdd h (constant S_ .f32 0x00000000#32) reducesTo_S163842x64_S64_d0 h_S_))
              (broadcastInDim S1x64 ![] bcast_S_S1x64 (constant S_ .f32 0x48200080#32)))))
          (subf h (broadcastInDim S163842x64 ![0, 1] bcast_S1x64_S163842x64_0_1
            (Host.divf (broadcastInDim S1x64 ![1] bcast_S64_S1x64_1 (Host.reduceAdd h (constant S_ .f32 0x00000000#32) reducesTo_S163842x64_S64_d0 h_S_))
              (broadcastInDim S1x64 ![] bcast_S_S1x64 (constant S_ .f32 0x48200080#32))))))
        (constant S_ .f32 0x00000000#32) reducesTo_S163842x64_S64_d0 h_S_)
      (broadcastInDim S64 ![] bcast_S_S64 (dofR (F := F))))
    (broadcastInDim S64 ![] bcast_S_S64 (id (constant S_ .f32 0x7FC00000#32)))

/-- 1 / √(variance + ε), ε the f32 word 0x3727C5AC. -/
def invR (h : FVec F S163842x64 .f32) : FVec F S64 .f32 :=
  Host.rsqrt (addf (varR h) (broadcastInDim S64 ![] bcast_S_S64 (constant S_ .f32 0x3727C5AC#32)))

/-- g · ((h − mean) · inv) + be per column, before the rectifier. -/
def affR (h : FVec F S163842x64 .f32) (g be : FVec F S64 .f32) : FVec F S163842x64 .f32 :=
  addf (mulf (rows64 g) (mulf (subf h (rows64 (meanR h))) (rows64 (invR h)))) (rows64 be)

/-- Batch normalisation followed by the leaky rectifier. -/
def bnR (h : FVec F S163842x64 .f32) (g be : FVec F S64 .f32) : FVec F S163842x64 .f32 :=
  select (cmpf .oge (affR h g be) (broadcastInDim S163842x64 ![] bcast_S_S163842x64 (constant S_ .f32 0x00000000#32)))
    (affR h g be)
    (mulf (broadcastInDim S163842x64 ![] bcast_S_S163842x64 (constant S_ .f32 0x3E4CCCCD#32)) (affR h g be))

/-- Seven gathered neighbour rows of a 64-column array, side by side. -/
def gat2R (h : FVec F S163842x64 .f32) (neigh : IVec S1146894 32) : FVec F S163842x448 .f32 :=
  shapeCast S163842x448 (Host.gather gather_S163842x64_S1146894x1_S1146894x64_1_0_n_n_0_1_164 h (wrapNeigh neigh)) shapeCasts_S1146894x64_S163842x448

/-- The second one-ring convolution's linear layer. -/
def h2R (gth : FVec F S163842x448 .f32) (w2 : FVec F S64x448 .f32) (b2 : FVec F S64 .f32) : FVec F S163842x64 .f32 :=
  addf (Host.dotGeneral dot_S163842x448_S448x64_S163842x64_1_0_0_1_n_n none gth (transpose S448x64 [1, 0] w2 transposes_S64x448_S448x64_1_0))
    (rows64 b2)

/-- The whole reference as one function of its fifteen arguments. -/
def outR (a0 : FVec F S40962x128 .f32) (a1 : FVec F S163842x64 .f32) (a2 : FVec F S448x128 .f32) (a3 : FVec F S448 .f32)
    (a4 : FVec F S64x896 .f32) (a5 a6 a7 : FVec F S64 .f32) (a8 : FVec F S64x448 .f32) (a9 a10 a11 : FVec F S64 .f32)
    (a12 : IVec S1146894 32) (a13 : IVec S40962 32) (a14 : IVec S245760 32) : FVec F S163842x64 .f32 :=
  bnR (h2R (gat2R (bnR (h1R (xcatR (upR (yR a0 a2 a3) a13 a14) a1) a12 a4 a5) a6 a7) a12) a8 a9) a10 a11

end Cert.ReferenceIdeal.Stage

end
-- ==== Proof.RRun_List.lean ====
/-
  The reference's @main as lists of its host operations, in order: each printed operation's builder term as printed,
  each call of a module-local function replaced by the callee's operations over that call's buffer record.
  Seven lists, cut where a stage's value is complete and at the ends of @main's printed windows.
-/
import proofs.«417947_j4449586118756_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 32 operations: the up-convolution's linear layer, the two gathers, the pair average and the two concatenations (through %25). -/
abbrev opsA : List (HloOp τ sig (Elt F)) :=
  [ StableHlo.unary main_arg2 main_v0 ((transpose S128x448 [1, 0] · transposes_S448x128_S128x448_1_0) : (⟨S448x128, .f32⟩ : BufTy).Contents (Elt F) → (⟨S128x448, .f32⟩ : BufTy).Contents (Elt F)),
    StableHlo.binary main_arg0 main_v0 main_v1 ((fun l r => Host.dotGeneral dot_S40962x128_S128x448_S40962x448_1_0_0_1_n_n none l r) : (⟨S40962x128, .f32⟩ : BufTy).Contents (Elt F) → (⟨S128x448, .f32⟩ : BufTy).Contents (Elt F) → (⟨S40962x448, .f32⟩ : BufTy).Contents (Elt F)),
    StableHlo.unary main_arg3 main_v2 (broadcastInDim S1x448 ![1] bcast_S448_S1x448_1 : (⟨S448, .f32⟩ : BufTy).Contents (Elt F) → (⟨S1x448, .f32⟩ : BufTy).Contents (Elt F)),
    StableHlo.unary main_v2 main_v3 (broadcastInDim S40962x448 ![0, 1] bcast_S1x448_S40962x448_0_1 : (⟨S1x448, .f32⟩ : BufTy).Contents (Elt F) → (⟨S40962x448, .f32⟩ : BufTy).Contents (Elt F)),
    StableHlo.binary main_v1 main_v3 main_v4 (addf : (⟨S40962x448, .f32⟩ : BufTy).Contents (Elt F) → (⟨S40962x448, .f32⟩ : BufTy).Contents (Elt F) → (⟨S40962x448, .f32⟩ : BufTy).Contents (Elt F)),
    StableHlo.reshape main_v4 main_v5 rfl shapeCasts_S40962x448_S286734x64,
    StableHlo.nullary main_c (constantI S_ 32 0#32),
    StableHlo.unary main_c main_v6 (broadcastInDim S40962 ![] bcast_S_S40962 : (⟨S_, .i32⟩ : BufTy).Contents (Elt F) → (⟨S40962, .i32⟩ : BufTy).Contents (Elt F)),
    StableHlo.binary main_arg13 main_v6 main_v7 (cmpi .slt : (⟨S40962, .i32⟩ : BufTy).Contents (Elt F) → (⟨S40962, .i32⟩ : BufTy).Contents (Elt F) → (⟨S40962, .i1⟩ : BufTy).Contents (Elt F)),
    StableHlo.nullary main_c_0 (constantI S_ 32 286734#32),
    StableHlo.unary main_c_0 main_v8 (broadcastInDim S40962 ![] bcast_S_S40962 : (⟨S_, .i32⟩ : BufTy).Contents (Elt F) → (⟨S40962, .i32⟩ : BufTy).Contents (Elt F)),
    StableHlo.binary main_arg13 main_v8 main_v9 (addi : (⟨S40962, .i32⟩ : BufTy).Contents (Elt F) → (⟨S40962, .i32⟩ : BufTy).Contents (Elt F) → (⟨S40962, .i32⟩ : BufTy).Contents (Elt F)),
    StableHlo.ternary main_v7 main_v9 main_arg13 main_v10 (select : (⟨S40962, .i1⟩ : BufTy).Contents (Elt F) → (⟨S40962, .i32⟩ : BufTy).Contents (Elt F) → (⟨S40962, .i32⟩ : BufTy).Contents (Elt F) → (⟨S40962, .i32⟩ : BufTy).Contents (Elt F)),
    StableHlo.unary main_v10 main_v11 (broadcastInDim S40962x1 ![0] bcast_S40962_S40962x1_0 : (⟨S40962, .i32⟩ : BufTy).Contents (Elt F) → (⟨S40962x1, .i32⟩ : BufTy).Contents (Elt F)),
    StableHlo.binary main_v5 main_v11 main_v12 ((fun x i => Host.gather gather_S286734x64_S40962x1_S40962x64_1_0_n_n_0_1_164 x i) : (⟨S286734x64, .f32⟩ : BufTy).Contents (Elt F) → (⟨S40962x1, .i32⟩ : BufTy).Contents (Elt F) → (⟨S40962x64, .f32⟩ : BufTy).Contents (Elt F)),
    StableHlo.nullary main_c_1 (constantI S_ 32 0#32),
    StableHlo.unary main_c_1 main_v13 (broadcastInDim S245760 ![] bcast_S_S245760 : (⟨S_, .i32⟩ : BufTy).Contents (Elt F) → (⟨S245760, .i32⟩ : BufTy).Contents (Elt F)),
    StableHlo.binary main_arg14 main_v13 main_v14 (cmpi .slt : (⟨S245760, .i32⟩ : BufTy).Contents (Elt F) → (⟨S245760, .i32⟩ : BufTy).Contents (Elt F) → (⟨S245760, .i1⟩ : BufTy).Contents (Elt F)),
    StableHlo.nullary main_c_2 (constantI S_ 32 286734#32),
    StableHlo.unary main_c_2 main_v15 (broadcastInDim S245760 ![] bcast_S_S245760 : (⟨S_, .i32⟩ : BufTy).Contents (Elt F) → (⟨S245760, .i32⟩ : BufTy).Contents (Elt F)),
    StableHlo.binary main_arg14 main_v15 main_v16 (addi : (⟨S245760, .i32⟩ : BufTy).Contents (Elt F) → (⟨S245760, .i32⟩ : BufTy).Contents (Elt F) → (⟨S245760, .i32⟩ : BufTy).Contents (Elt F)),
    StableHlo.ternary main_v14 main_v16 main_arg14 main_v17 (select : (⟨S245760, .i1⟩ : BufTy).Contents (Elt F) → (⟨S245760, .i32⟩ : BufTy).Contents (Elt F) → (⟨S245760, .i32⟩ : BufTy).Contents (Elt F) → (⟨S245760, .i32⟩ : BufTy).Contents (Elt F)),
    StableHlo.unary main_v17 main_v18 (broadcastInDim S245760x1 ![0] bcast_S245760_S245760x1_0 : (⟨S245760, .i32⟩ : BufTy).Contents (Elt F) → (⟨S245760x1, .i32⟩ : BufTy).Contents (Elt F)),
    StableHlo.binary main_v5 main_v18 main_v19 ((fun x i => Host.gather gather_S286734x64_S245760x1_S245760x64_1_0_n_n_0_1_164 x i) : (⟨S286734x64, .f32⟩ : BufTy).Contents (Elt F) → (⟨S245760x1, .i32⟩ : BufTy).Contents (Elt F) → (⟨S245760x64, .f32⟩ : BufTy).Contents (Elt F)),
    StableHlo.reshape main_v19 main_v20 rfl shapeCasts_S245760x64_S122880x64x2,
    StableHlo.nullary main_cst (constant S_ .f32 0x00000000#32),
    StableHlo.binary main_v20 main_cst main_v21 ((fun x v => Host.reduceAdd x v reducesTo_S122880x64x2_S122880x64_d2 h_S_) : (⟨S122880x64x2, .f32⟩ : BufTy).Contents (Elt F) → (⟨S_, .f32⟩ : BufTy).Contents (Elt F) → (⟨S122880x64, .f32⟩ : BufTy).Contents (Elt F)),
    StableHlo.nullary main_cst_3 (constant S_ .f32 0x40000000#32),
    StableHlo.unary main_cst_3 main_v22 (broadcastInDim S122880x64 ![] bcast_S_S122880x64 : (⟨S_, .f32⟩ : BufTy).Contents (Elt F) → (⟨S122880x64, .f32⟩ : BufTy).Contents (Elt F)),
    StableHlo.binary main_v21 main_v22 main_v23 (Host.divf : (⟨S122880x64, .f32⟩ : BufTy).Contents (Elt F) → (⟨S122880x64, .f32⟩ : BufTy).Contents (Elt F) → (⟨S122880x64, .f32⟩ : BufTy).Contents (Elt F)),
    StableHlo.binary main_v12 main_v23 main_v24 ((fun a b => concatenate S163842x64 0 [⟨S40962x64, a⟩, ⟨S122880x64, b⟩] concatenates_S40962x64_S122880x64_S163842x64_d0) : (⟨S40962x64, .f32⟩ : BufTy).Contents (Elt F) → (⟨S122880x64, .f32⟩ : BufTy).Contents (Elt F) → (⟨S163842x64, .f32⟩ : BufTy).Contents (Elt F)),
    StableHlo.binary main_v24 main_arg1 main_v25 ((fun a b => concatenate S163842x128 1 [⟨S163842x64, a⟩, ⟨S163842x64, b⟩] concatenates_S163842x64_S163842x64_S163842x128_d1) : (⟨S163842x64, .f32⟩ : BufTy).Contents (Elt F) → (⟨S163842x64, .f32⟩ : BufTy).Contents (Elt F) → (⟨S163842x128, .f32⟩ : BufTy).Contents (Elt F)) ]

/-- The buffers those operations write, in order. -/
abbrev opsA_W : List (Ref sig .tc) :=
  [main_v0, main_v1, main_v2, main_v3, main_v4, main_v5, main_c, main_v6, main_v7, main_c_0, main_v8, main_v9, main_v10, main_v11, main_v12, main_c_1, main_v13, main_v14, main_c_2, main_v15, main_v16, main_v17, main_v18, main_v19, main_v20, main_cst, main_v21, main_cst_3, main_v22, main_v23, main_v24, main_v25]

/-- 15 operations: the first one-ring convolution (through %38). -/
abbrev opsB : List (HloOp τ sig (Elt F)) :=
  [ StableHlo.nullary main_c_4 (constantI S_ 32 0#32),
    StableHlo.unary main_c_4 main_v26 (broadcastInDim S1146894 ![] bcast_S_S1146894 : (⟨S_, .i32⟩ : BufTy).Contents (Elt F) → (⟨S1146894, .i32⟩ : BufTy).Contents (Elt F)),
    StableHlo.binary main_arg12 main_v26 main_v27 (cmpi .slt : (⟨S1146894, .i32⟩ : BufTy).Contents (Elt F) → (⟨S1146894, .i32⟩ : BufTy).Contents (Elt F) → (⟨S1146894, .i1⟩ : BufTy).Contents (Elt F)),
    StableHlo.nullary main_c_5 (constantI S_ 32 163842#32),
    StableHlo.unary main_c_5 main_v28 (broadcastInDim S1146894 ![] bcast_S_S1146894 : (⟨S_, .i32⟩ : BufTy).Contents (Elt F) → (⟨S1146894, .i32⟩ : BufTy).Contents (Elt F)),
    StableHlo.binary main_arg12 main_v28 main_v29 (addi : (⟨S1146894, .i32⟩ : BufTy).Contents (Elt F) → (⟨S1146894, .i32⟩ : BufTy).Contents (Elt F) → (⟨S1146894, .i32⟩ : BufTy).Contents (Elt F)),
    StableHlo.ternary main_v27 main_v29 main_arg12 main_v30 (select : (⟨S1146894, .i1⟩ : BufTy).Contents (Elt F) → (⟨S1146894, .i32⟩ : BufTy).Contents (Elt F) → (⟨S1146894, .i32⟩ : BufTy).Contents (Elt F) → (⟨S1146894, .i32⟩ : BufTy).Contents (Elt F)),
    StableHlo.unary main_v30 main_v31 (broadcastInDim S1146894x1 ![0] bcast_S1146894_S1146894x1_0 : (⟨S1146894, .i32⟩ : BufTy).Contents (Elt F) → (⟨S1146894x1, .i32⟩ : BufTy).Contents (Elt F)),
    StableHlo.binary main_v25 main_v31 main_v32 ((fun x i => Host.gather gather_S163842x128_S1146894x1_S1146894x128_1_0_n_n_0_1_1128 x i) : (⟨S163842x128, .f32⟩ : BufTy).Contents (Elt F) → (⟨S1146894x1, .i32⟩ : BufTy).Contents (Elt F) → (⟨S1146894x128, .f32⟩ : BufTy).Contents (Elt F)),
    StableHlo.reshape main_v32 main_v33 rfl shapeCasts_S1146894x128_S163842x896,
    StableHlo.unary main_arg4 main_v34 ((transpose S896x64 [1, 0] · transposes_S64x896_S896x64_1_0) : (⟨S64x896, .f32⟩ : BufTy).Contents (Elt F) → (⟨S896x64, .f32⟩ : BufTy).Contents (Elt F)),
    StableHlo.binary main_v33 main_v34 main_v35 ((fun l r => Host.dotGeneral dot_S163842x896_S896x64_S163842x64_1_0_0_1_n_n none l r) : (⟨S163842x896, .f32⟩ : BufTy).Contents (Elt F) → (⟨S896x64, .f32⟩ : BufTy).Contents (Elt F) → (⟨S163842x64, .f32⟩ : BufTy).Contents (Elt F)),
    StableHlo.unary main_arg5 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S163842x64 ![0, 1] bcast_S1x64_S163842x64_0_1 : (⟨S1x64, .f32⟩ : BufTy).Contents (Elt F) → (⟨S163842x64, .f32⟩ : BufTy).Contents (Elt F)),
    StableHlo.binary main_v35 main_v37 main_v38 (addf : (⟨S163842x64, .f32⟩ : BufTy).Contents (Elt F) → (⟨S163842x64, .f32⟩ : BufTy).Contents (Elt F) → (⟨S163842x64, .f32⟩ : BufTy).Contents (Elt F)) ]

/-- The buffers those operations write, in order. -/
abbrev opsB_W : List (Ref sig .tc) :=
  [main_c_4, main_v26, main_v27, main_c_5, main_v28, main_v29, main_v30, main_v31, main_v32, main_v33, main_v34, main_v35, main_v36, main_v37, main_v38]

/-- 34 operations: the first normalisation: mean, the variance function's operations, variance + ε (through %47, the end of @main's first window). -/
abbrev opsC0 : List (HloOp τ sig (Elt F)) :=
  [ StableHlo.nullary main_cst_6 (constant S_ .f32 0x00000000#32),
    StableHlo.binary main_v38 main_cst_6 main_v39 ((fun x v => Host.reduceAdd x v reducesTo_S163842x64_S64_d0 h_S_) : (⟨S163842x64, .f32⟩ : BufTy).Contents (Elt F) → (⟨S_, .f32⟩ : BufTy).Contents (Elt F) → (⟨S64, .f32⟩ : BufTy).Contents (Elt F)),
    StableHlo.nullary main_cst_7 (constant S_ .f32 0x48200080#32),
    StableHlo.unary main_cst_7 main_v40 (broadcastInDim S64 ![] bcast_S_S64 : (⟨S_, .f32⟩ : BufTy).Contents (Elt F) → (⟨S64, .f32⟩ : BufTy).Contents (Elt F)),
    StableHlo.binary main_v39 main_v40 main_v41 (Host.divf : (⟨S64, .f32⟩ : BufTy).Contents (Elt F) → (⟨S64, .f32⟩ : BufTy).Contents (Elt F) → (⟨S64, .f32⟩ : BufTy).Contents (Elt F)),
    StableHlo.nullary main_c_8 (constantI S_ 32 0#32),
    TRef.nullary main_call0.cst (constant S_ .f32 0x00000000#32),
    TRef.binary (.of main_v38 : TRef sig ⟨S163842x64, .f32⟩) main_call0.cst main_call0.v0 (fun x v => Host.reduceAdd x v reducesTo_S163842x64_S64_d0 h_S_),
    TRef.unary main_call0.v0 main_call0.v1 (broadcastInDim S1x64 ![1] bcast_S64_S1x64_1),
    TRef.nullary main_call0.cst_0 (constant S_ .f32 0x48200080#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S163842x64 ![0, 1] bcast_S1x64_S163842x64_0_1),
    TRef.binary (.of main_v38 : TRef sig ⟨S163842x64, .f32⟩) main_call0.v4 main_call0.v5 subf,
    TRef.binary main_call0.v5 main_call0.v5 main_call0.v6 mulf,
    TRef.unary (.of main_c_8 : TRef sig ⟨S_, .i32⟩) main_call0.v7 (sitofp .f32),
    TRef.nullary main_call0.cst_1 (constant S_ .f32 0x48200080#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S163842x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    StableHlo.unary main_v41 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S163842x64 ![0, 1] bcast_S1x64_S163842x64_0_1 : (⟨S1x64, .f32⟩ : BufTy).Contents (Elt F) → (⟨S163842x64, .f32⟩ : BufTy).Contents (Elt F)),
    StableHlo.binary main_v38 main_v44 main_v45 (subf : (⟨S163842x64, .f32⟩ : BufTy).Contents (Elt F) → (⟨S163842x64, .f32⟩ : BufTy).Contents (Elt F) → (⟨S163842x64, .f32⟩ : BufTy).Contents (Elt F)),
    StableHlo.nullary main_cst_9 (constant S_ .f32 0x3727C5AC#32),
    StableHlo.unary main_cst_9 main_v46 (broadcastInDim S64 ![] bcast_S_S64 : (⟨S_, .f32⟩ : BufTy).Contents (Elt F) → (⟨S64, .f32⟩ : BufTy).Contents (Elt F)),
    StableHlo.binary main_v42 main_v46 main_v47 (addf : (⟨S64, .f32⟩ : BufTy).Contents (Elt F) → (⟨S64, .f32⟩ : BufTy).Contents (Elt F) → (⟨S64, .f32⟩ : BufTy).Contents (Elt F)) ]

/-- The buffers those operations write, in order. -/
abbrev opsC0_W : List (Ref sig .tc) :=
  [main_cst_6, main_v39, main_cst_7, main_v40, main_v41, main_c_8, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v43, main_v44, main_v45, main_cst_9, main_v46, main_v47]

/-- 17 operations: the first normalisation: reciprocal root, scale, shift and the rectifier's select (through %62). -/
abbrev opsC1 : List (HloOp τ sig (Elt F)) :=
  [ StableHlo.unary main_v47 main_v48 (Host.rsqrt : (⟨S64, .f32⟩ : BufTy).Contents (Elt F) → (⟨S64, .f32⟩ : BufTy).Contents (Elt F)),
    StableHlo.unary main_v48 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S163842x64 ![0, 1] bcast_S1x64_S163842x64_0_1 : (⟨S1x64, .f32⟩ : BufTy).Contents (Elt F) → (⟨S163842x64, .f32⟩ : BufTy).Contents (Elt F)),
    StableHlo.binary main_v45 main_v50 main_v51 (mulf : (⟨S163842x64, .f32⟩ : BufTy).Contents (Elt F) → (⟨S163842x64, .f32⟩ : BufTy).Contents (Elt F) → (⟨S163842x64, .f32⟩ : BufTy).Contents (Elt F)),
    StableHlo.unary main_arg6 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S163842x64 ![0, 1] bcast_S1x64_S163842x64_0_1 : (⟨S1x64, .f32⟩ : BufTy).Contents (Elt F) → (⟨S163842x64, .f32⟩ : BufTy).Contents (Elt F)),
    StableHlo.binary main_v53 main_v51 main_v54 (mulf : (⟨S163842x64, .f32⟩ : BufTy).Contents (Elt F) → (⟨S163842x64, .f32⟩ : BufTy).Contents (Elt F) → (⟨S163842x64, .f32⟩ : BufTy).Contents (Elt F)),
    StableHlo.unary main_arg7 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S163842x64 ![0, 1] bcast_S1x64_S163842x64_0_1 : (⟨S1x64, .f32⟩ : BufTy).Contents (Elt F) → (⟨S163842x64, .f32⟩ : BufTy).Contents (Elt F)),
    StableHlo.binary main_v54 main_v56 main_v57 (addf : (⟨S163842x64, .f32⟩ : BufTy).Contents (Elt F) → (⟨S163842x64, .f32⟩ : BufTy).Contents (Elt F) → (⟨S163842x64, .f32⟩ : BufTy).Contents (Elt F)),
    StableHlo.nullary main_cst_10 (constant S_ .f32 0x00000000#32),
    StableHlo.unary main_cst_10 main_v58 (broadcastInDim S163842x64 ![] bcast_S_S163842x64 : (⟨S_, .f32⟩ : BufTy).Contents (Elt F) → (⟨S163842x64, .f32⟩ : BufTy).Contents (Elt F)),
    StableHlo.binary main_v57 main_v58 main_v59 (cmpf .oge : (⟨S163842x64, .f32⟩ : BufTy).Contents (Elt F) → (⟨S163842x64, .f32⟩ : BufTy).Contents (Elt F) → (⟨S163842x64, .i1⟩ : BufTy).Contents (Elt F)),
    StableHlo.nullary main_cst_11 (constant S_ .f32 0x3E4CCCCD#32),
    StableHlo.unary main_cst_11 main_v60 (broadcastInDim S163842x64 ![] bcast_S_S163842x64 : (⟨S_, .f32⟩ : BufTy).Contents (Elt F) → (⟨S163842x64, .f32⟩ : BufTy).Contents (Elt F)),
    StableHlo.binary main_v60 main_v57 main_v61 (mulf : (⟨S163842x64, .f32⟩ : BufTy).Contents (Elt F) → (⟨S163842x64, .f32⟩ : BufTy).Contents (Elt F) → (⟨S163842x64, .f32⟩ : BufTy).Contents (Elt F)),
    TRef.ternary (.of main_v59 : TRef sig ⟨S163842x64, .i1⟩) (.of main_v57 : TRef sig ⟨S163842x64, .f32⟩) (.of main_v61 : TRef sig ⟨S163842x64, .f32⟩) main_call1.v0 select ]

/-- The buffers those operations write, in order. -/
abbrev opsC1_W : List (Ref sig .tc) :=
  [main_v48, main_v49, main_v50, main_v51, main_v52, main_v53, main_v54, main_v55, main_v56, main_v57, main_cst_10, main_v58, main_v59, main_cst_11, main_v60, main_v61, main_call1.v0.ref]

/-- 15 operations: the second one-ring convolution (through %75). -/
abbrev opsD : List (HloOp τ sig (Elt F)) :=
  [ StableHlo.nullary main_c_12 (constantI S_ 32 0#32),
    StableHlo.unary main_c_12 main_v63 (broadcastInDim S1146894 ![] bcast_S_S1146894 : (⟨S_, .i32⟩ : BufTy).Contents (Elt F) → (⟨S1146894, .i32⟩ : BufTy).Contents (Elt F)),
    StableHlo.binary main_arg12 main_v63 main_v64 (cmpi .slt : (⟨S1146894, .i32⟩ : BufTy).Contents (Elt F) → (⟨S1146894, .i32⟩ : BufTy).Contents (Elt F) → (⟨S1146894, .i1⟩ : BufTy).Contents (Elt F)),
    StableHlo.nullary main_c_13 (constantI S_ 32 163842#32),
    StableHlo.unary main_c_13 main_v65 (broadcastInDim S1146894 ![] bcast_S_S1146894 : (⟨S_, .i32⟩ : BufTy).Contents (Elt F) → (⟨S1146894, .i32⟩ : BufTy).Contents (Elt F)),
    StableHlo.binary main_arg12 main_v65 main_v66 (addi : (⟨S1146894, .i32⟩ : BufTy).Contents (Elt F) → (⟨S1146894, .i32⟩ : BufTy).Contents (Elt F) → (⟨S1146894, .i32⟩ : BufTy).Contents (Elt F)),
    StableHlo.ternary main_v64 main_v66 main_arg12 main_v67 (select : (⟨S1146894, .i1⟩ : BufTy).Contents (Elt F) → (⟨S1146894, .i32⟩ : BufTy).Contents (Elt F) → (⟨S1146894, .i32⟩ : BufTy).Contents (Elt F) → (⟨S1146894, .i32⟩ : BufTy).Contents (Elt F)),
    StableHlo.unary main_v67 main_v68 (broadcastInDim S1146894x1 ![0] bcast_S1146894_S1146894x1_0 : (⟨S1146894, .i32⟩ : BufTy).Contents (Elt F) → (⟨S1146894x1, .i32⟩ : BufTy).Contents (Elt F)),
    StableHlo.binary main_v62 main_v68 main_v69 ((fun x i => Host.gather gather_S163842x64_S1146894x1_S1146894x64_1_0_n_n_0_1_164 x i) : (⟨S163842x64, .f32⟩ : BufTy).Contents (Elt F) → (⟨S1146894x1, .i32⟩ : BufTy).Contents (Elt F) → (⟨S1146894x64, .f32⟩ : BufTy).Contents (Elt F)),
    StableHlo.reshape main_v69 main_v70 rfl shapeCasts_S1146894x64_S163842x448,
    StableHlo.unary main_arg8 main_v71 ((transpose S448x64 [1, 0] · transposes_S64x448_S448x64_1_0) : (⟨S64x448, .f32⟩ : BufTy).Contents (Elt F) → (⟨S448x64, .f32⟩ : BufTy).Contents (Elt F)),
    StableHlo.binary main_v70 main_v71 main_v72 ((fun l r => Host.dotGeneral dot_S163842x448_S448x64_S163842x64_1_0_0_1_n_n none l r) : (⟨S163842x448, .f32⟩ : BufTy).Contents (Elt F) → (⟨S448x64, .f32⟩ : BufTy).Contents (Elt F) → (⟨S163842x64, .f32⟩ : BufTy).Contents (Elt F)),
    StableHlo.unary main_arg9 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S163842x64 ![0, 1] bcast_S1x64_S163842x64_0_1 : (⟨S1x64, .f32⟩ : BufTy).Contents (Elt F) → (⟨S163842x64, .f32⟩ : BufTy).Contents (Elt F)),
    StableHlo.binary main_v72 main_v74 main_v75 (addf : (⟨S163842x64, .f32⟩ : BufTy).Contents (Elt F) → (⟨S163842x64, .f32⟩ : BufTy).Contents (Elt F) → (⟨S163842x64, .f32⟩ : BufTy).Contents (Elt F)) ]

/-- The buffers those operations write, in order. -/
abbrev opsD_W : List (Ref sig .tc) :=
  [main_c_12, main_v63, main_v64, main_c_13, main_v65, main_v66, main_v67, main_v68, main_v69, main_v70, main_v71, main_v72, main_v73, main_v74, main_v75]

/-- 49 operations: the second normalisation up to the rectifier's slope constant (through %97, the end of @main's second window). -/
abbrev opsE1 : List (HloOp τ sig (Elt F)) :=
  [ StableHlo.nullary main_cst_14 (constant S_ .f32 0x00000000#32),
    StableHlo.binary main_v75 main_cst_14 main_v76 ((fun x v => Host.reduceAdd x v reducesTo_S163842x64_S64_d0 h_S_) : (⟨S163842x64, .f32⟩ : BufTy).Contents (Elt F) → (⟨S_, .f32⟩ : BufTy).Contents (Elt F) → (⟨S64, .f32⟩ : BufTy).Contents (Elt F)),
    StableHlo.nullary main_cst_15 (constant S_ .f32 0x48200080#32),
    StableHlo.unary main_cst_15 main_v77 (broadcastInDim S64 ![] bcast_S_S64 : (⟨S_, .f32⟩ : BufTy).Contents (Elt F) → (⟨S64, .f32⟩ : BufTy).Contents (Elt F)),
    StableHlo.binary main_v76 main_v77 main_v78 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    TRef.nullary main_call2.cst (constant S_ .f32 0x00000000#32),
    TRef.binary (.of main_v75 : TRef sig ⟨S163842x64, .f32⟩) main_call2.cst main_call2.v0 (fun x v => Host.reduceAdd x v reducesTo_S163842x64_S64_d0 h_S_),
    TRef.unary main_call2.v0 main_call2.v1 (broadcastInDim S1x64 ![1] bcast_S64_S1x64_1),
    TRef.nullary main_call2.cst_0 (constant S_ .f32 0x48200080#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S163842x64 ![0, 1] bcast_S1x64_S163842x64_0_1),
    TRef.binary (.of main_v75 : TRef sig ⟨S163842x64, .f32⟩) main_call2.v4 main_call2.v5 subf,
    TRef.binary main_call2.v5 main_call2.v5 main_call2.v6 mulf,
    TRef.unary (.of main_c_16 : TRef sig ⟨S_, .i32⟩) main_call2.v7 (sitofp .f32),
    TRef.nullary main_call2.cst_1 (constant S_ .f32 0x48200080#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S163842x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    StableHlo.unary main_v78 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S163842x64 ![0, 1] bcast_S1x64_S163842x64_0_1 : (⟨S1x64, .f32⟩ : BufTy).Contents (Elt F) → (⟨S163842x64, .f32⟩ : BufTy).Contents (Elt F)),
    StableHlo.binary main_v75 main_v81 main_v82 (subf : (⟨S163842x64, .f32⟩ : BufTy).Contents (Elt F) → (⟨S163842x64, .f32⟩ : BufTy).Contents (Elt F) → (⟨S163842x64, .f32⟩ : BufTy).Contents (Elt F)),
    StableHlo.nullary main_cst_17 (constant S_ .f32 0x3727C5AC#32),
    StableHlo.unary main_cst_17 main_v83 (broadcastInDim S64 ![] bcast_S_S64 : (⟨S_, .f32⟩ : BufTy).Contents (Elt F) → (⟨S64, .f32⟩ : BufTy).Contents (Elt F)),
    StableHlo.binary main_v79 main_v83 main_v84 (addf : (⟨S64, .f32⟩ : BufTy).Contents (Elt F) → (⟨S64, .f32⟩ : BufTy).Contents (Elt F) → (⟨S64, .f32⟩ : BufTy).Contents (Elt F)),
    StableHlo.unary main_v84 main_v85 (Host.rsqrt : (⟨S64, .f32⟩ : BufTy).Contents (Elt F) → (⟨S64, .f32⟩ : BufTy).Contents (Elt F)),
    StableHlo.unary main_v85 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S163842x64 ![0, 1] bcast_S1x64_S163842x64_0_1 : (⟨S1x64, .f32⟩ : BufTy).Contents (Elt F) → (⟨S163842x64, .f32⟩ : BufTy).Contents (Elt F)),
    StableHlo.binary main_v82 main_v87 main_v88 (mulf : (⟨S163842x64, .f32⟩ : BufTy).Contents (Elt F) → (⟨S163842x64, .f32⟩ : BufTy).Contents (Elt F) → (⟨S163842x64, .f32⟩ : BufTy).Contents (Elt F)),
    StableHlo.unary main_arg10 main_v89 (broadcastInDim S1x64 ![1] bcast_S64_S1x64_1 : (⟨S64, .f32⟩ : BufTy).Contents (Elt F) → (⟨S1x64, .f32⟩ : BufTy).Contents (Elt F)),
    StableHlo.unary main_v89 main_v90 (broadcastInDim S163842x64 ![0, 1] bcast_S1x64_S163842x64_0_1 : (⟨S1x64, .f32⟩ : BufTy).Contents (Elt F) → (⟨S163842x64, .f32⟩ : BufTy).Contents (Elt F)),
    StableHlo.binary main_v90 main_v88 main_v91 (mulf : (⟨S163842x64, .f32⟩ : BufTy).Contents (Elt F) → (⟨S163842x64, .f32⟩ : BufTy).Contents (Elt F) → (⟨S163842x64, .f32⟩ : BufTy).Contents (Elt F)),
    StableHlo.unary main_arg11 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S163842x64 ![0, 1] bcast_S1x64_S163842x64_0_1 : (⟨S1x64, .f32⟩ : BufTy).Contents (Elt F) → (⟨S163842x64, .f32⟩ : BufTy).Contents (Elt F)),
    StableHlo.binary main_v91 main_v93 main_v94 (addf : (⟨S163842x64, .f32⟩ : BufTy).Contents (Elt F) → (⟨S163842x64, .f32⟩ : BufTy).Contents (Elt F) → (⟨S163842x64, .f32⟩ : BufTy).Contents (Elt F)),
    StableHlo.nullary main_cst_18 (constant S_ .f32 0x00000000#32),
    StableHlo.unary main_cst_18 main_v95 (broadcastInDim S163842x64 ![] bcast_S_S163842x64 : (⟨S_, .f32⟩ : BufTy).Contents (Elt F) → (⟨S163842x64, .f32⟩ : BufTy).Contents (Elt F)),
    StableHlo.binary main_v94 main_v95 main_v96 (cmpf .oge : (⟨S163842x64, .f32⟩ : BufTy).Contents (Elt F) → (⟨S163842x64, .f32⟩ : BufTy).Contents (Elt F) → (⟨S163842x64, .i1⟩ : BufTy).Contents (Elt F)),
    StableHlo.nullary main_cst_19 (constant S_ .f32 0x3E4CCCCD#32),
    StableHlo.unary main_cst_19 main_v97 (broadcastInDim S163842x64 ![] bcast_S_S163842x64 : (⟨S_, .f32⟩ : BufTy).Contents (Elt F) → (⟨S163842x64, .f32⟩ : BufTy).Contents (Elt F)) ]

/-- The buffers those operations write, in order. -/
abbrev opsE1_W : List (Ref sig .tc) :=
  [main_cst_14, main_v76, main_cst_15, main_v77, main_v78, main_c_16, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v80, main_v81, main_v82, main_cst_17, main_v83, main_v84, main_v85, main_v86, main_v87, main_v88, main_v89, main_v90, main_v91, main_v92, main_v93, main_v94, main_cst_18, main_v95, main_v96, main_cst_19, main_v97]

/-- 2 operations: the second rectifier: the scaled copy and the select (%98, %99). -/
abbrev opsE2 : List (HloOp τ sig (Elt F)) :=
  [ StableHlo.binary main_v97 main_v94 main_v98 (mulf : (⟨S163842x64, .f32⟩ : BufTy).Contents (Elt F) → (⟨S163842x64, .f32⟩ : BufTy).Contents (Elt F) → (⟨S163842x64, .f32⟩ : BufTy).Contents (Elt F)),
    TRef.ternary (.of main_v96 : TRef sig ⟨S163842x64, .i1⟩) (.of main_v94 : TRef sig ⟨S163842x64, .f32⟩) (.of main_v98 : TRef sig ⟨S163842x64, .f32⟩) main_call3.v0 select ]

/-- The buffers those operations write, in order. -/
abbrev opsE2_W : List (Ref sig .tc) :=
  [main_v98, main_call3.v0.ref]

end Cert.ReferenceIdeal.RefRun

end
-- ==== Proof.RRun_Ops.lean ====
/-
  @main of the reference is the straight line of the seven operation lists: its three printed windows unfold, the
  two calls of the variance function and the two of the select function at their sites, to the lists' operations in
  order. With it the side facts a straight line's run asks of its operations (every buffer a TensorCore reference,
  nothing left undetermined, nothing scoped), and which buffers each list writes: a buffer a list does not write
  keeps its contents through it.
-/
import proofs.«417947_j4449586118756_2_alg».proof.Proof.RRun_List
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 164 operations, in order. -/
abbrev ops : List (HloOp τ sig (Elt F)) :=
  opsA ++ (opsB ++ (opsC0 ++ (opsC1 ++ (opsD ++ (opsE1 ++ opsE2)))))

set_option maxRecDepth 16384 in
/-- @main's first window, the variance function's body unfolded at its call. -/
theorem main_part0_eq (c : Dev nD) : main_part0 (F := F) c = seq (opsA ++ (opsB ++ opsC0)) := by
  chain_rfl

set_option maxRecDepth 16384 in
/-- @main's second window, the select's and the variance function's bodies unfolded at their calls. -/
theorem main_part1_eq (c : Dev nD) : main_part1 (F := F) c = seq (opsC1 ++ (opsD ++ opsE1)) := by
  chain_rfl

/-- @main's last window. -/
theorem main_part2_eq (c : Dev nD) : main_part2 (F := F) c = seq opsE2 := by
  chain_rfl

/-- @main is the straight line of its operations. -/
theorem main_eq (c : Dev nD) : main (F := F) c = seq ops := by
  have h : main (F := F) c = (main_part0 c >>= fun _ => main_part1 c >>= fun _ => main_part2 c) := rfl
  rw [h, main_part0_eq, main_part1_eq, main_part2_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation of `opsA` touches TensorCore buffers only. -/
theorem opsA_sub : (opsA : List (HloOp τ sig (Elt F))).Forall fun op => op.bufs ⊆ tcRefs τ sig := by
  simp only [opsA, List.Forall, nullary_bufs_sub, unary_bufs_sub, binary_bufs_sub, ternary_bufs_sub, reshape_bufs_sub, and_self]

/-- Every operation of `opsA` determines what it writes. -/
theorem opsA_fresh : (opsA : List (HloOp τ sig (Elt F))).Forall fun op => op.fresh = ∅ := by
  simp only [opsA, List.Forall]
  repeat' apply And.intro
  all_goals rfl

/-- The operations of `opsA` write the buffers of `opsA_W` and no other. -/
theorem opsA_writes : (opsA : List (HloOp τ sig (Elt F))).Forall fun op =>
    op.writes ⊆ (opsA_W.map (Proc.devRef (τ := τ) .tc)).toFinset := by
  simp only [opsA, List.Forall, nullary_writes, unary_writes, binary_writes, ternary_writes, reshape_writes,
    Finset.singleton_subset_iff, List.mem_toFinset]
  repeat' apply And.intro
  all_goals exact List.mem_map_of_mem (by decide)

/-- A buffer `opsA` does not write keeps its contents through it. -/
theorem opsA_keep (V : Valuation τ sig (Elt F)) (r : Ref sig .tc) (h : r ∉ opsA_W) :
    after opsA V (Proc.devRef .tc r) = V (Proc.devRef .tc r) :=
  after_of_writes_sub opsA V opsA_writes h

/-- Every operation of `opsB` touches TensorCore buffers only. -/
theorem opsB_sub : (opsB : List (HloOp τ sig (Elt F))).Forall fun op => op.bufs ⊆ tcRefs τ sig := by
  simp only [opsB, List.Forall, nullary_bufs_sub, unary_bufs_sub, binary_bufs_sub, ternary_bufs_sub, reshape_bufs_sub, and_self]

/-- Every operation of `opsB` determines what it writes. -/
theorem opsB_fresh : (opsB : List (HloOp τ sig (Elt F))).Forall fun op => op.fresh = ∅ := by
  simp only [opsB, List.Forall]
  repeat' apply And.intro
  all_goals rfl

/-- The operations of `opsB` write the buffers of `opsB_W` and no other. -/
theorem opsB_writes : (opsB : List (HloOp τ sig (Elt F))).Forall fun op =>
    op.writes ⊆ (opsB_W.map (Proc.devRef (τ := τ) .tc)).toFinset := by
  simp only [opsB, List.Forall, nullary_writes, unary_writes, binary_writes, ternary_writes, reshape_writes,
    Finset.singleton_subset_iff, List.mem_toFinset]
  repeat' apply And.intro
  all_goals exact List.mem_map_of_mem (by decide)

/-- A buffer `opsB` does not write keeps its contents through it. -/
theorem opsB_keep (V : Valuation τ sig (Elt F)) (r : Ref sig .tc) (h : r ∉ opsB_W) :
    after opsB V (Proc.devRef .tc r) = V (Proc.devRef .tc r) :=
  after_of_writes_sub opsB V opsB_writes h

/-- Every operation of `opsC0` touches TensorCore buffers only. -/
theorem opsC0_sub : (opsC0 : List (HloOp τ sig (Elt F))).Forall fun op => op.bufs ⊆ tcRefs τ sig := by
  simp only [opsC0, List.Forall, nullary_bufs_sub, unary_bufs_sub, binary_bufs_sub, ternary_bufs_sub, reshape_bufs_sub, and_self]

/-- Every operation of `opsC0` determines what it writes. -/
theorem opsC0_fresh : (opsC0 : List (HloOp τ sig (Elt F))).Forall fun op => op.fresh = ∅ := by
  simp only [opsC0, List.Forall]
  repeat' apply And.intro
  all_goals rfl

/-- The operations of `opsC0` write the buffers of `opsC0_W` and no other. -/
theorem opsC0_writes : (opsC0 : List (HloOp τ sig (Elt F))).Forall fun op =>
    op.writes ⊆ (opsC0_W.map (Proc.devRef (τ := τ) .tc)).toFinset := by
  simp only [opsC0, List.Forall, nullary_writes, unary_writes, binary_writes, ternary_writes, reshape_writes,
    Finset.singleton_subset_iff, List.mem_toFinset]
  repeat' apply And.intro
  all_goals exact List.mem_map_of_mem (by decide)

/-- A buffer `opsC0` does not write keeps its contents through it. -/
theorem opsC0_keep (V : Valuation τ sig (Elt F)) (r : Ref sig .tc) (h : r ∉ opsC0_W) :
    after opsC0 V (Proc.devRef .tc r) = V (Proc.devRef .tc r) :=
  after_of_writes_sub opsC0 V opsC0_writes h

/-- Every operation of `opsC1` touches TensorCore buffers only. -/
theorem opsC1_sub : (opsC1 : List (HloOp τ sig (Elt F))).Forall fun op => op.bufs ⊆ tcRefs τ sig := by
  simp only [opsC1, List.Forall, nullary_bufs_sub, unary_bufs_sub, binary_bufs_sub, ternary_bufs_sub, reshape_bufs_sub, and_self]

/-- Every operation of `opsC1` determines what it writes. -/
theorem opsC1_fresh : (opsC1 : List (HloOp τ sig (Elt F))).Forall fun op => op.fresh = ∅ := by
  simp only [opsC1, List.Forall]
  repeat' apply And.intro
  all_goals rfl

/-- The operations of `opsC1` write the buffers of `opsC1_W` and no other. -/
theorem opsC1_writes : (opsC1 : List (HloOp τ sig (Elt F))).Forall fun op =>
    op.writes ⊆ (opsC1_W.map (Proc.devRef (τ := τ) .tc)).toFinset := by
  simp only [opsC1, List.Forall, nullary_writes, unary_writes, binary_writes, ternary_writes, reshape_writes,
    Finset.singleton_subset_iff, List.mem_toFinset]
  repeat' apply And.intro
  all_goals exact List.mem_map_of_mem (by decide)

/-- A buffer `opsC1` does not write keeps its contents through it. -/
theorem opsC1_keep (V : Valuation τ sig (Elt F)) (r : Ref sig .tc) (h : r ∉ opsC1_W) :
    after opsC1 V (Proc.devRef .tc r) = V (Proc.devRef .tc r) :=
  after_of_writes_sub opsC1 V opsC1_writes h

/-- Every operation of `opsD` touches TensorCore buffers only. -/
theorem opsD_sub : (opsD : List (HloOp τ sig (Elt F))).Forall fun op => op.bufs ⊆ tcRefs τ sig := by
  simp only [opsD, List.Forall, nullary_bufs_sub, unary_bufs_sub, binary_bufs_sub, ternary_bufs_sub, reshape_bufs_sub, and_self]

/-- Every operation of `opsD` determines what it writes. -/
theorem opsD_fresh : (opsD : List (HloOp τ sig (Elt F))).Forall fun op => op.fresh = ∅ := by
  simp only [opsD, List.Forall]
  repeat' apply And.intro
  all_goals rfl

/-- The operations of `opsD` write the buffers of `opsD_W` and no other. -/
theorem opsD_writes : (opsD : List (HloOp τ sig (Elt F))).Forall fun op =>
    op.writes ⊆ (opsD_W.map (Proc.devRef (τ := τ) .tc)).toFinset := by
  simp only [opsD, List.Forall, nullary_writes, unary_writes, binary_writes, ternary_writes, reshape_writes,
    Finset.singleton_subset_iff, List.mem_toFinset]
  repeat' apply And.intro
  all_goals exact List.mem_map_of_mem (by decide)

/-- A buffer `opsD` does not write keeps its contents through it. -/
theorem opsD_keep (V : Valuation τ sig (Elt F)) (r : Ref sig .tc) (h : r ∉ opsD_W) :
    after opsD V (Proc.devRef .tc r) = V (Proc.devRef .tc r) :=
  after_of_writes_sub opsD V opsD_writes h

/-- Every operation of `opsE1` touches TensorCore buffers only. -/
theorem opsE1_sub : (opsE1 : List (HloOp τ sig (Elt F))).Forall fun op => op.bufs ⊆ tcRefs τ sig := by
  simp only [opsE1, List.Forall, nullary_bufs_sub, unary_bufs_sub, binary_bufs_sub, ternary_bufs_sub, reshape_bufs_sub, and_self]

/-- Every operation of `opsE1` determines what it writes. -/
theorem opsE1_fresh : (opsE1 : List (HloOp τ sig (Elt F))).Forall fun op => op.fresh = ∅ := by
  simp only [opsE1, List.Forall]
  repeat' apply And.intro
  all_goals rfl

/-- The operations of `opsE1` write the buffers of `opsE1_W` and no other. -/
theorem opsE1_writes : (opsE1 : List (HloOp τ sig (Elt F))).Forall fun op =>
    op.writes ⊆ (opsE1_W.map (Proc.devRef (τ := τ) .tc)).toFinset := by
  simp only [opsE1, List.Forall, nullary_writes, unary_writes, binary_writes, ternary_writes, reshape_writes,
    Finset.singleton_subset_iff, List.mem_toFinset]
  repeat' apply And.intro
  all_goals exact List.mem_map_of_mem (by decide)

/-- A buffer `opsE1` does not write keeps its contents through it. -/
theorem opsE1_keep (V : Valuation τ sig (Elt F)) (r : Ref sig .tc) (h : r ∉ opsE1_W) :
    after opsE1 V (Proc.devRef .tc r) = V (Proc.devRef .tc r) :=
  after_of_writes_sub opsE1 V opsE1_writes h

/-- Every operation of `opsE2` touches TensorCore buffers only. -/
theorem opsE2_sub : (opsE2 : List (HloOp τ sig (Elt F))).Forall fun op => op.bufs ⊆ tcRefs τ sig := by
  simp only [opsE2, List.Forall, nullary_bufs_sub, unary_bufs_sub, binary_bufs_sub, ternary_bufs_sub, reshape_bufs_sub, and_self]

/-- Every operation of `opsE2` determines what it writes. -/
theorem opsE2_fresh : (opsE2 : List (HloOp τ sig (Elt F))).Forall fun op => op.fresh = ∅ := by
  simp only [opsE2, List.Forall]
  repeat' apply And.intro
  all_goals rfl

/-- The operations of `opsE2` write the buffers of `opsE2_W` and no other. -/
theorem opsE2_writes : (opsE2 : List (HloOp τ sig (Elt F))).Forall fun op =>
    op.writes ⊆ (opsE2_W.map (Proc.devRef (τ := τ) .tc)).toFinset := by
  simp only [opsE2, List.Forall, nullary_writes, unary_writes, binary_writes, ternary_writes, reshape_writes,
    Finset.singleton_subset_iff, List.mem_toFinset]
  repeat' apply And.intro
  all_goals exact List.mem_map_of_mem (by decide)

/-- A buffer `opsE2` does not write keeps its contents through it. -/
theorem opsE2_keep (V : Valuation τ sig (Elt F)) (r : Ref sig .tc) (h : r ∉ opsE2_W) :
    after opsE2 V (Proc.devRef .tc r) = V (Proc.devRef .tc r) :=
  after_of_writes_sub opsE2 V opsE2_writes h

/-- Every operation of @main touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp opsA_sub op h, List.forall_iff_forall_mem.mp opsB_sub op h,
      List.forall_iff_forall_mem.mp opsC0_sub op h, List.forall_iff_forall_mem.mp opsC1_sub op h,
      List.forall_iff_forall_mem.mp opsD_sub op h, List.forall_iff_forall_mem.mp opsE1_sub op h,
      List.forall_iff_forall_mem.mp opsE2_sub op h]

/-- Every operation of @main determines what it writes. -/
theorem ops_fresh : ∀ op ∈ (ops : List (HloOp τ sig (Elt F))), op.fresh = ∅ := fun op h => by
  simp only [ops, List.mem_append] at h
  rcases h with h | h | h | h | h | h | h
  exacts [List.forall_iff_forall_mem.mp opsA_fresh op h, List.forall_iff_forall_mem.mp opsB_fresh op h,
    List.forall_iff_forall_mem.mp opsC0_fresh op h, List.forall_iff_forall_mem.mp opsC1_fresh op h,
    List.forall_iff_forall_mem.mp opsD_fresh op h, List.forall_iff_forall_mem.mp opsE1_fresh op h,
    List.forall_iff_forall_mem.mp opsE2_fresh op h]

/-- The device's buffers after @main, list by list. -/
theorem after_ops (V : Valuation τ sig (Elt F)) :
    after ops V = after opsE2 (after opsE1 (after opsD (after opsC1 (after opsC0 (after opsB (after opsA V)))))) := by
  simp only [ops, StableHlo.after_append]

end Cert.ReferenceIdeal.RefRun

end
-- ==== Proof.RRun_A.lean ====
/-
  The first stretch of the reference's run, from any contents V of the device's buffers: after the 32 operations
  through the second concatenation, the buffer of %25 holds the staged term  xcatR (upR (yR x1 W_up b_up) top down) x2
  of V's contents at the argument buffers. Each operation's result is read off at its own buffer and left alone at
  every other; what remains is the same composed term on both sides.
-/
import proofs.«417947_j4449586118756_2_alg».proof.Proof.RRun_List
import proofs.«417947_j4449586118756_2_alg».proof.Proof.RStage

noncomputable section

namespace Cert.ReferenceIdeal.RefRun

open Cert.ReferenceIdeal Cert.ReferenceIdeal.Gen Cert.ReferenceIdeal.Stage Idealize.ShloMosaic Idealize.ShloMosaic.TcCoe Idealize.SL.Sem Idealize.ShloMosaic.StableHlo

variable {F : FTy → Type} [FloatOps F]

attribute [local irreducible] Host.gather Host.divf concatenate in
set_option maxRecDepth 8192 in
set_option maxHeartbeats 1000000 in
/-- The contents of %25 after the first 32 operations. -/
theorem A_v25 (V : Valuation τ sig (Elt F)) :
    after opsA V (Proc.devRef .tc main_v25)
      = xcatR (upR (yR (V (Proc.devRef .tc main_arg0)) (V (Proc.devRef .tc main_arg2)) (V (Proc.devRef .tc main_arg3)))
            (V (Proc.devRef .tc main_arg13)) (V (Proc.devRef .tc main_arg14)))
          (V (Proc.devRef .tc main_arg1)) := by
  simp only [opsA]
  after_results_simp
  rfl

end Cert.ReferenceIdeal.RefRun

end
-- ==== Proof.RRun_B.lean ====
/-
  The second stretch of the reference's run, from any contents V of the device's buffers: after the 15 operations
  of the first one-ring convolution the buffer of %38 holds  h1R x neigh W1 b1  of V's contents at %25 and at the
  argument buffers. Each operation's result is read off at its own buffer and left alone at every other.
-/
import proofs.«417947_j4449586118756_2_alg».proof.Proof.RRun_List
import proofs.«417947_j4449586118756_2_alg».proof.Proof.RStage

noncomputable section

namespace Cert.ReferenceIdeal.RefRun

open Cert.ReferenceIdeal Cert.ReferenceIdeal.Gen Cert.ReferenceIdeal.Stage Idealize.ShloMosaic Idealize.ShloMosaic.TcCoe Idealize.SL.Sem Idealize.ShloMosaic.StableHlo

variable {F : FTy → Type} [FloatOps F]

attribute [local irreducible] Host.gather in
set_option maxRecDepth 8192 in
set_option maxHeartbeats 1000000 in
/-- The contents of %38 after the first one-ring convolution's operations. -/
theorem B_v38 (V : Valuation τ sig (Elt F)) :
    after opsB V (Proc.devRef .tc main_v38)
      = h1R (V (Proc.devRef .tc main_v25)) (V (Proc.devRef .tc main_arg12)) (V (Proc.devRef .tc main_arg4)) (V (Proc.devRef .tc main_arg5)) := by
  simp only [opsB]
  after_results_simp
  rfl

end Cert.ReferenceIdeal.RefRun

end
-- ==== Proof.RRun_C.lean ====
/-
  The first normalisation of the reference's run, from any contents V of the device's buffers: after its 51
  operations (the column mean; the variance function's operations and, inside it, the select function's; the
  reciprocal root of variance + ε; scale and shift; the rectifier's comparison, scaled copy and select) the buffer of
  %62 holds  bnR h γ β  of V's contents at %38 and at the two argument buffers. Each operation's result is read
  off at its own buffer and left alone at every other; the typed references of the inlined calls are literal, so
  their transports are the identity.
-/
import proofs.«417947_j4449586118756_2_alg».proof.Proof.RRun_List
import proofs.«417947_j4449586118756_2_alg».proof.Proof.RStage
import Idealize.ShloMosaic.Lib.Pipeline.Frame

noncomputable section

namespace Cert.ReferenceIdeal.RefRun

open Cert.ReferenceIdeal Cert.ReferenceIdeal.Gen Cert.ReferenceIdeal.Stage Idealize.ShloMosaic Idealize.ShloMosaic.TcCoe Idealize.SL.Sem Idealize.ShloMosaic.StableHlo

variable {F : FTy → Type} [FloatOps F]

attribute [local irreducible] Host.divf Host.rsqrt in
set_option maxRecDepth 16384 in
set_option maxHeartbeats 4000000 in
/-- The contents of %62 after the first normalisation's operations. -/
theorem C_v62 (V : Valuation τ sig (Elt F)) :
    after opsC1 (after opsC0 V) (Proc.devRef .tc main_v62)
      = bnR (V (Proc.devRef .tc main_v38)) (V (Proc.devRef .tc main_arg6)) (V (Proc.devRef .tc main_arg7)) := by
  rw [← StableHlo.after_append]
  simp only [opsC0, opsC1, List.cons_append, List.nil_append]
  after_results_simp
  rfl

end Cert.ReferenceIdeal.RefRun

end
-- ==== Proof.RRun_D.lean ====
/-
  The fourth stretch of the reference's run, from any contents V of the device's buffers: after the 15 operations
  of the second one-ring convolution the buffer of %75 holds  h2R (gat2R h neigh) W2 b2  of V's contents at %62 and
  at the argument buffers. Each operation's result is read off at its own buffer and left alone at every other.
-/
import proofs.«417947_j4449586118756_2_alg».proof.Proof.RRun_List
import proofs.«417947_j4449586118756_2_alg».proof.Proof.RStage

noncomputable section

namespace Cert.ReferenceIdeal.RefRun

open Cert.ReferenceIdeal Cert.ReferenceIdeal.Gen Cert.ReferenceIdeal.Stage Idealize.ShloMosaic Idealize.ShloMosaic.TcCoe Idealize.SL.Sem Idealize.ShloMosaic.StableHlo

variable {F : FTy → Type} [FloatOps F]

attribute [local irreducible] Host.gather in
set_option maxRecDepth 8192 in
set_option maxHeartbeats 1000000 in
/-- The contents of %75 after the second one-ring convolution's operations. -/
theorem D_v75 (V : Valuation τ sig (Elt F)) :
    after opsD V (Proc.devRef .tc main_v75)
      = h2R (gat2R (V (Proc.devRef .tc main_v62)) (V (Proc.devRef .tc main_arg12))) (V (Proc.devRef .tc main_arg8)) (V (Proc.devRef .tc main_arg9)) := by
  simp only [opsD]
  after_results_simp
  rfl

end Cert.ReferenceIdeal.RefRun

end
-- ==== Proof.RRun_E.lean ====
/-
  The second normalisation of the reference's run, from any contents V of the device's buffers: after its 51
  operations (the column mean; the variance function's operations and, inside it, the select function's; the
  reciprocal root of variance + ε; scale and shift; the rectifier's comparison, scaled copy and select) the buffer of
  %99 holds  bnR h γ β  of V's contents at %75 and at the two argument buffers. Each operation's result is read
  off at its own buffer and left alone at every other; the typed references of the inlined calls are literal, so
  their transports are the identity.
-/
import proofs.«417947_j4449586118756_2_alg».proof.Proof.RRun_List
import proofs.«417947_j4449586118756_2_alg».proof.Proof.RStage
import Idealize.ShloMosaic.Lib.Pipeline.Frame

noncomputable section

namespace Cert.ReferenceIdeal.RefRun

open Cert.ReferenceIdeal Cert.ReferenceIdeal.Gen Cert.ReferenceIdeal.Stage Idealize.ShloMosaic Idealize.ShloMosaic.TcCoe Idealize.SL.Sem Idealize.ShloMosaic.StableHlo

variable {F : FTy → Type} [FloatOps F]

attribute [local irreducible] Host.divf Host.rsqrt in
set_option maxRecDepth 16384 in
set_option maxHeartbeats 4000000 in
/-- The contents of %99 after the second normalisation's operations. -/
theorem E_v99 (V : Valuation τ sig (Elt F)) :
    after opsE2 (after opsE1 V) (Proc.devRef .tc main_v99)
      = bnR (V (Proc.devRef .tc main_v75)) (V (Proc.devRef .tc main_arg10)) (V (Proc.devRef .tc main_arg11)) := by
  rw [← StableHlo.after_append]
  simp only [opsE1, opsE2, List.cons_append, List.nil_append]
  after_results_simp
  rfl

end Cert.ReferenceIdeal.RefRun

end
-- ==== Proof.RRun.lean ====
/-
  The reference's run: @main is a straight line of host operations (the two calls of the variance function and the
  calls of the select function inlined at their call sites), so every weakly fair execution terminates with each buffer
  at the operations' composed term of the launch contents. The result buffer's term is the staged function `outR` of
  the fifteen argument arrays, and no operation writes an argument.
-/
import proofs.«417947_j4449586118756_2_alg».proof.Proof.Gen.ReferenceIdeal
import proofs.«417947_j4449586118756_2_alg».proof.Proof.RStage
import proofs.«417947_j4449586118756_2_alg».proof.Proof.RRun_Ops
import proofs.«417947_j4449586118756_2_alg».proof.Proof.RRun_A
import proofs.«417947_j4449586118756_2_alg».proof.Proof.RRun_B
import proofs.«417947_j4449586118756_2_alg».proof.Proof.RRun_C
import proofs.«417947_j4449586118756_2_alg».proof.Proof.RRun_D
import proofs.«417947_j4449586118756_2_alg».proof.Proof.RRun_E
import Idealize.ShloMosaic.PureOps.Ideal
import Idealize.ShloMosaic.Lib.StableHlo.Run

noncomputable section

namespace Cert.ReferenceIdeal.RefRun

open Cert.ReferenceIdeal Cert.ReferenceIdeal.Gen Cert.ReferenceIdeal.Stage Idealize.ShloMosaic Idealize.ShloMosaic.TcCoe Idealize.SL.Sem Idealize.ShloMosaic.StableHlo

section Pieces

variable {F : FTy → Type} [FloatOps F]

/-- A buffer the first two lists do not write keeps its contents through them. -/
theorem keepB (V : Valuation τ sig (Elt F)) (r : Ref sig .tc) (hA : r ∉ opsA_W) (hB : r ∉ opsB_W) :
    after opsB (after opsA V) (Proc.devRef .tc r) = V (Proc.devRef .tc r) :=
  (opsB_keep _ r hB).trans (opsA_keep V r hA)

/-- … through the first normalisation. -/
theorem keepC (V : Valuation τ sig (Elt F)) (r : Ref sig .tc) (hA : r ∉ opsA_W) (hB : r ∉ opsB_W)
    (hC0 : r ∉ opsC0_W) (hC1 : r ∉ opsC1_W) :
    after opsC1 (after opsC0 (after opsB (after opsA V))) (Proc.devRef .tc r) = V (Proc.devRef .tc r) :=
  (opsC1_keep _ r hC1).trans ((opsC0_keep _ r hC0).trans (keepB V r hA hB))

/-- … through the second one-ring convolution. -/
theorem keepD (V : Valuation τ sig (Elt F)) (r : Ref sig .tc) (hA : r ∉ opsA_W) (hB : r ∉ opsB_W)
    (hC0 : r ∉ opsC0_W) (hC1 : r ∉ opsC1_W) (hD : r ∉ opsD_W) :
    after opsD (after opsC1 (after opsC0 (after opsB (after opsA V)))) (Proc.devRef .tc r) = V (Proc.devRef .tc r) :=
  (opsD_keep _ r hD).trans (keepC V r hA hB hC0 hC1)

/-- A buffer no list writes keeps its contents through @main. -/
theorem keep (V : Valuation τ sig (Elt F)) (r : Ref sig .tc) (hA : r ∉ opsA_W) (hB : r ∉ opsB_W)
    (hC0 : r ∉ opsC0_W) (hC1 : r ∉ opsC1_W) (hD : r ∉ opsD_W) (hE1 : r ∉ opsE1_W) (hE2 : r ∉ opsE2_W) :
    after ops V (Proc.devRef .tc r) = V (Proc.devRef .tc r) := by
  rw [after_ops]
  exact (opsE2_keep _ r hE2).trans ((opsE1_keep _ r hE1).trans (keepD V r hA hB hC0 hC1 hD))

/-- The result buffer after @main: the five stretches' terms, each read at the contents the stretches before it
    leave, the argument buffers among them as launched. -/
theorem out_eq (V : Valuation τ sig (Elt F)) :
    after ops V (Proc.devRef .tc main_v99)
      = outR (V (Proc.devRef .tc main_arg0))
          (V (Proc.devRef .tc main_arg1))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11))
          (V (Proc.devRef .tc main_arg12))
          (V (Proc.devRef .tc main_arg13))
          (V (Proc.devRef .tc main_arg14)) := by
  rw [after_ops]
  refine (E_v99 _).trans ?_
  rw [D_v75, C_v62, B_v38, A_v25]
  rw [keepD V main_arg10 (by decide) (by decide) (by decide) (by decide) (by decide),
    keepD V main_arg11 (by decide) (by decide) (by decide) (by decide) (by decide),
    keepC V main_arg12 (by decide) (by decide) (by decide) (by decide),
    keepC V main_arg8 (by decide) (by decide) (by decide) (by decide),
    keepC V main_arg9 (by decide) (by decide) (by decide) (by decide),
    keepB V main_arg6 (by decide) (by decide), keepB V main_arg7 (by decide) (by decide),
    opsA_keep V main_arg12 (by decide), opsA_keep V main_arg4 (by decide), opsA_keep V main_arg5 (by decide)]
  rfl

end Pieces

/-- Every weakly fair execution of the reference terminates, nothing faulting, with the result at `outR` of the launch
    contents of the arguments and every argument array as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v99)
        = outR (F := Ideal) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v99).trans (out_eq _),
      (h c main_arg0).trans (keep _ main_arg0 (by decide) (by decide) (by decide) (by decide) (by decide) (by decide) (by decide)),
      (h c main_arg1).trans (keep _ main_arg1 (by decide) (by decide) (by decide) (by decide) (by decide) (by decide) (by decide)),
      (h c main_arg2).trans (keep _ main_arg2 (by decide) (by decide) (by decide) (by decide) (by decide) (by decide) (by decide)),
      (h c main_arg3).trans (keep _ main_arg3 (by decide) (by decide) (by decide) (by decide) (by decide) (by decide) (by decide)),
      (h c main_arg4).trans (keep _ main_arg4 (by decide) (by decide) (by decide) (by decide) (by decide) (by decide) (by decide)),
      (h c main_arg5).trans (keep _ main_arg5 (by decide) (by decide) (by decide) (by decide) (by decide) (by decide) (by decide)),
      (h c main_arg6).trans (keep _ main_arg6 (by decide) (by decide) (by decide) (by decide) (by decide) (by decide) (by decide)),
      (h c main_arg7).trans (keep _ main_arg7 (by decide) (by decide) (by decide) (by decide) (by decide) (by decide) (by decide)),
      (h c main_arg8).trans (keep _ main_arg8 (by decide) (by decide) (by decide) (by decide) (by decide) (by decide) (by decide)),
      (h c main_arg9).trans (keep _ main_arg9 (by decide) (by decide) (by decide) (by decide) (by decide) (by decide) (by decide)),
      (h c main_arg10).trans (keep _ main_arg10 (by decide) (by decide) (by decide) (by decide) (by decide) (by decide) (by decide)),
      (h c main_arg11).trans (keep _ main_arg11 (by decide) (by decide) (by decide) (by decide) (by decide) (by decide) (by decide)),
      (h c main_arg12).trans (keep _ main_arg12 (by decide) (by decide) (by decide) (by decide) (by decide) (by decide) (by decide)),
      (h c main_arg13).trans (keep _ main_arg13 (by decide) (by decide) (by decide) (by decide) (by decide) (by decide) (by decide)),
      (h c main_arg14).trans (keep _ main_arg14 (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.BridgeLin.lean ====
/-
  The two plain linear layers. On the kernel side the rows are zero-padded to a multiple of 8192, the region computes row · column sums plus the bias row, and the padding rows are sliced off; on the reference side the same sums are one dot_general against the transposed weights plus the broadcast bias. Entry by entry both are the sum over k of x(r, k) · W(j, k), plus b(j).
-/
import proofs.«417947_j4449586118756_2_alg».proof.Proof.KStage
import proofs.«417947_j4449586118756_2_alg».proof.Proof.RStage
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.Lib.ReduceAll
import Idealize.ShloMosaic.Lib.StableHlo.Predicate
import Idealize.ShloMosaic.PureOps.Ideal.Laws

set_option maxRecDepth 16384

noncomputable section

namespace Cert.Bridge

open Idealize.ShloMosaic Idealize.ShloMosaic.ValueIdx Cert.Spec
open Cert.KernelIdeal.Stage Cert.ReferenceIdeal.Stage

/-! ## Both sides at any sizes: M rows padded to Mp, K contracted columns, N output columns -/

section AnySize
variable {M Mp K N : Nat}

/-- The linear region's entry (r, j): row r of A against column j of B, plus the bias row's entry j. -/
theorem regLin_ix2 (A : A2 M K) (B : A2 K N) (C : A2 1 N) (r : Fin M) (j : Fin N) :
    regLin A B C (ix2 r j) = (∑ k : Fin K, A (ix2 r k) * B (ix2 k j)) + C (ix2 (0 : Fin 1) j) := rfl

/-- Rows padded only at the high end: a row below M of the padded array is that row of the operand. -/
theorem padRows_apply (hi : Fin (Sh2 M K).rank → Nat) (x : (Sh2 M K).Idx → EReal) {u : Shape} (z : u.Idx → EReal)
    (hp : (Sh2 M K).Pads ![0, 0] hi ![0, 0] (Sh2 Mp K)) (hu : 0 < u.numel)
    (r : Fin M) (r' : Fin Mp) (hr : r'.val = r.val) (k : Fin K) :
    pad (Sh2 Mp K) ![0, 0] hi ![0, 0] x z hp hu (ix2 r' k) = x (ix2 r k) :=
  pad_apply_of_inside _ _ _ x z hp hu _ _ fun a => match a with
    | ⟨0, _⟩ => by show r'.val = 0 + r.val * (0 + 1); omega
    | ⟨1, _⟩ => by show k.val = 0 + k.val * (0 + 1); omega

/-- The kernel's side: pad the rows, run the linear region against the transposed weights and the bias as one row,
    cut the padding rows off. Entry (r, j) is Σₖ x(r, k) · w(j, k) + b(j). -/
theorem linK_apply (hi : Fin (Sh2 M K).rank → Nat) (x : (Sh2 M K).Idx → EReal) (w : (Sh2 N K).Idx → EReal)
    (b : (⟨1, ![N]⟩ : Shape).Idx → EReal) {u : Shape} (z : u.Idx → EReal)
    (hp : (Sh2 M K).Pads ![0, 0] hi ![0, 0] (Sh2 Mp K)) (hu : 0 < u.numel)
    (ht : (Sh2 N K).Transposes [1, 0] (Sh2 K N)) (hc : (⟨1, ![N]⟩ : Shape).ShapeCasts (Sh2 1 N))
    (hs : (Sh2 Mp N).Slices ![0, 0] (Sh2 M N)) (hM : M ≤ Mp) (r : Fin M) (j : Fin N) :
    extractStridedSlice (Sh2 M N) ![0, 0]
        (regLin (pad (Sh2 Mp K) ![0, 0] hi ![0, 0] x z hp hu) (transpose (Sh2 K N) [1, 0] w ht) (shapeCast (Sh2 1 N) b hc))
        hs (ix2 r j)
      = (∑ k : Fin K, x (ix2 r k) * w (ix2 j k)) + b (ix1 j) := by
  have hr : r.val < Mp := Nat.lt_of_lt_of_le r.isLt hM
  refine (slice2_axis0_apply 0 _ hs r j ⟨r.val, hr⟩ (Nat.zero_add _).symm).trans ?_
  refine (regLin_ix2 _ _ _ _ _).trans ?_
  refine congrArg₂ (· + ·) (Finset.sum_congr rfl fun k _ => congrArg₂ (· * ·) ?_ ?_) ?_
  · exact padRows_apply hi x z hp hu r ⟨r.val, hr⟩ rfl k
  · exact transpose_ix2_apply w ht k j
  · exact shapeCast_a_1a_apply b hc 0 j

/-- A vector laid out as one row and then copied down M rows reads its entry j at (r, j). -/
theorem rowsBias_apply (b : (⟨1, ![N]⟩ : Shape).Idx → EReal)
    (h1 : (⟨1, ![N]⟩ : Shape).BroadcastsInDim (Sh2 1 N) ![1]) (h2 : (Sh2 1 N).BroadcastsInDim (Sh2 M N) ![0, 1])
    (r : Fin M) (j : Fin N) :
    broadcastInDim (Sh2 M N) ![0, 1] h2 (broadcastInDim (Sh2 1 N) ![1] h1 b) (ix2 r j) = b (ix1 j) := by
  have hj : j.val = if N = 1 then 0 else j.val := by
    split
    · have := j.isLt; omega
    · rfl
  refine (broadcastInDim_apply ![0, 1] h2 _ (ix2 r j) (ix2 (0 : Fin 1) j) fun a => match a with
    | ⟨0, _⟩ => by exact rfl
    | ⟨1, _⟩ => by exact hj).trans ?_
  exact broadcastInDim_apply ![1] h1 b (ix2 (0 : Fin 1) j) (ix1 j) fun a => match a with
    | ⟨0, _⟩ => by exact hj

/-- The reference's side: one plain matrix product against the transposed weights plus the bias copied down the rows.
    Entry (r, j) is Σₖ x(r, k) · w(j, k) + b(j). -/
theorem linR_apply (D : DotDims (Sh2 M K) (Sh2 K N) (Sh2 M N)) (hD : D = DotDims.plain M K N)
    (x : FVec Ideal (Sh2 M K) .f32) (w : FVec Ideal (Sh2 N K) .f32) (b : FVec Ideal ⟨1, ![N]⟩ .f32)
    (ht : (Sh2 N K).Transposes [1, 0] (Sh2 K N))
    (h1 : (⟨1, ![N]⟩ : Shape).BroadcastsInDim (Sh2 1 N) ![1]) (h2 : (Sh2 1 N).BroadcastsInDim (Sh2 M N) ![0, 1])
    (r : Fin M) (j : Fin N) :
    addf (Host.dotGeneral D none x (transpose (Sh2 K N) [1, 0] w ht))
        (broadcastInDim (Sh2 M N) ![0, 1] h2 (broadcastInDim (Sh2 1 N) ![1] h1 b)) (ix2 r j)
      = (∑ k : Fin K, x (ix2 r k) * w (ix2 j k)) + b (ix1 j) := by
  subst hD
  refine congrArg₂ (· + ·) ?_ (rowsBias_apply b h1 h2 r j)
  refine (StackMember.dotGeneral_plain_apply none x _ r j).trans ?_
  exact Finset.sum_congr rfl fun k _ => congrArg (x (ix2 r k) * ·) (transpose_ix2_apply w ht k j)

end AnySize

/-- y: region 0 on the padded x1, sliced, is x1 · W_upᵀ + b_up. -/
theorem y_eq (x1 : FVec Ideal Cert.KernelIdeal.S40962x128 .f32) (wup : FVec Ideal Cert.KernelIdeal.S448x128 .f32) (bup : FVec Ideal Cert.KernelIdeal.S448 .f32) :
    yK x1 wup bup = yR (F := Ideal) x1 wup bup := by
  funext i
  obtain ⟨r, j, rfl⟩ : ∃ (r : Fin 40962) (j : Fin 448), i = ix2 r j := ⟨i 0, i 1, eq_ix2 i⟩
  unfold yK yR
  exact (linK_apply (M := 40962) (Mp := 49152) (K := 128) (N := 448) _ x1 wup bup _ _ _ _ _ _ (by omega) r j).trans
    (linR_apply (M := 40962) (K := 128) (N := 448) _ rfl x1 wup bup _ _ _ r j).symm

/-- h2: region 3 on the padded gathered rows, sliced, is G · W2ᵀ + b2. -/
theorem h2_eq (gth : FVec Ideal Cert.KernelIdeal.S163842x448 .f32) (w2 : FVec Ideal Cert.KernelIdeal.S64x448 .f32) (b2 : FVec Ideal Cert.KernelIdeal.S64 .f32) :
    h2K gth w2 b2 = h2R (F := Ideal) gth w2 b2 := by
  funext i
  obtain ⟨r, j, rfl⟩ : ∃ (r : Fin 163842) (j : Fin 64), i = ix2 r j := ⟨i 0, i 1, eq_ix2 i⟩
  unfold h2K h2R rows64
  exact (linK_apply (M := 163842) (Mp := 172032) (K := 448) (N := 64) _ gth w2 b2 _ _ _ _ _ _ (by omega) r j).trans
    (linR_apply (M := 163842) (K := 448) (N := 64) _ rfl gth w2 b2 _ _ _ r j).symm

end Cert.Bridge

end
-- ==== Proof.BridgeTake.lean ====
/-
  A take whose indices are in range is the plain gather: the wrapped index is the index itself, the in-range test is true on every row, so the select keeps the gathered rows and the NaN fill is never read. With that, `up` and the seven gathered neighbour rows are the same terms on both sides.
-/
import proofs.«417947_j4449586118756_2_alg».proof.Proof.KStage
import proofs.«417947_j4449586118756_2_alg».proof.Proof.RStage
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

set_option maxRecDepth 16384

noncomputable section

namespace Cert.Bridge

open Idealize.ShloMosaic Idealize.ShloMosaic.ValueIdx Cert.Spec
open Cert.KernelIdeal.Stage Cert.ReferenceIdeal.Stage

/-! ## Words: a small non-negative index is its own wrap and passes the range test -/

/-- A word below 2³¹ is not negative, so the wrap (add the row count when negative) leaves it as it is. -/
theorem wrap_word (w M : BitVec 32) (hw : w.toNat < 2 ^ 31) :
    Scalar.select (IntOp.cmpi .slt w 0#32) (IntOp.addi w M) w = w := by
  have h : ¬ IntOp.cmpi .slt w 0#32 = 1#1 := by
    rw [StableHlo.Predicate.slt_iff_toNat hw (by decide)]
    exact Nat.not_lt_zero _
  exact if_neg h

/-- A word between 0 and `hi` (itself below 2³¹) passes both signed comparisons of the range test. -/
theorem ok_word (w hi : BitVec 32) (hhi : hi.toNat < 2 ^ 31) (hw : w.toNat ≤ hi.toNat) :
    IntOp.andi (IntOp.cmpi .sge w 0#32) (IntOp.cmpi .sle w hi) = 1#1 := by
  have hw' : w.toNat < 2 ^ 31 := by omega
  exact IntOp.andi_eq_one.2
    ⟨(StableHlo.Predicate.sge_iff_toNat hw' (by decide)).2 (Nat.zero_le _),
     (StableHlo.Predicate.sle_iff_toNat hw' hhi).2 hw⟩

/-- The two together: the wrapped word of an in-range index passes the range test. -/
theorem ok_wrap_word (w M hi : BitVec 32) (hhi : hi.toNat < 2 ^ 31) (hw : w.toNat ≤ hi.toNat) :
    IntOp.andi (IntOp.cmpi .sge (Scalar.select (IntOp.cmpi .slt w 0#32) (IntOp.addi w M) w) 0#32)
      (IntOp.cmpi .sle (Scalar.select (IntOp.cmpi .slt w 0#32) (IntOp.addi w M) w) hi) = 1#1 := by
  rw [wrap_word w M (by omega)]
  exact ok_word w hi hhi hw

/-! ## A conjunction of ones is one; a select on an all-ones mask is its first branch -/

/-- A left fold by `and` from 1 over ones is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduce by `and` from the initial value 1 of an array of ones is 1 at every result index. -/
theorem reduce_andi_const_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) :
    Host.reduce IntOp.andi x init h hu = fun _ => 1#1 := by
  funext j
  rw [Host.reduce_eq_foldl, hinit]
  exact foldl_andi_one x hx _

/-- A select whose mask is a broadcast of the all-ones array keeps its first branch everywhere. -/
theorem select_bcast_one {α : Type} {s t : Shape} (dims : Fin s.rank → Fin t.rank) (h : s.BroadcastsInDim t dims)
    (a b : t.Idx → α) : select (broadcastInDim t dims h (fun _ => 1#1)) a b = a := by
  funext i
  exact select_one _ _

/-! ## The three takes of the kernel program are the plain gathers -/

section Takes

open Cert.KernelIdeal Cert.KernelIdeal.Gen

/-- Every wrapped vertex number passes the range test 0 … 163841. -/
theorem okBig_neigh (neigh : IVec S1146894 32) (hn : ∀ i, (neigh i).toNat < 163842) :
    okBigK 163841#32 (wrapNeighK neigh) = fun _ => 1#1 := by
  have hb : ∀ j, (neigh j).toNat ≤ (163841#32 : BitVec 32).toNat := fun j => by
    have := hn j
    show _ ≤ 163841
    omega
  unfold okBigK
  refine reduce_andi_const_one _ _ _ _ rfl (fun i => ?_)
  exact ok_wrap_word (neigh _) 163842#32 163841#32 (by decide) (hb _)

/-- Every wrapped top index passes the range test 0 … 286733. -/
theorem okTop_top (top : IVec S40962 32) (ht : ∀ i, (top i).toNat < 286734) :
    okTopK (wrapTopK top) = fun _ => 1#1 := by
  have hb : ∀ j, (top j).toNat ≤ (286733#32 : BitVec 32).toNat := fun j => by
    have := ht j
    show _ ≤ 286733
    omega
  unfold okTopK
  refine reduce_andi_const_one _ _ _ _ rfl (fun i => ?_)
  exact ok_wrap_word (top _) 286734#32 286733#32 (by decide) (hb _)

/-- Every wrapped down index passes the range test 0 … 286733. -/
theorem okDown_down (down : IVec S245760 32) (hd : ∀ i, (down i).toNat < 286734) :
    okDownK (wrapDownK down) = fun _ => 1#1 := by
  have hb : ∀ j, (down j).toNat ≤ (286733#32 : BitVec 32).toNat := fun j => by
    have := hd j
    show _ ≤ 286733
    omega
  unfold okDownK
  refine reduce_andi_const_one _ _ _ _ rfl (fun i => ?_)
  exact ok_wrap_word (down _) 286734#32 286733#32 (by decide) (hb _)

/-- The taken neighbour rows are the gathered rows. -/
theorem takeNeigh_eq (h : FVec Ideal S163842x64 .f32) (neigh : IVec S1146894 32) (hn : ∀ i, (neigh i).toNat < 163842) :
    takeNeighK h neigh = Host.gather gather_S163842x64_S1146894x1_S1146894x64_1_0_n_n_0_1_164 h (wrapNeighK neigh) := by
  unfold takeNeighK
  rw [okBig_neigh neigh hn]
  exact select_bcast_one _ _ _ _

/-- The taken top rows are the gathered rows. -/
theorem takeTop_eq (yf : FVec Ideal S286734x64 .f32) (top : IVec S40962 32) (ht : ∀ i, (top i).toNat < 286734) :
    takeTopK yf top = Host.gather gather_S286734x64_S40962x1_S40962x64_1_0_n_n_0_1_164 yf (wrapTopK top) := by
  unfold takeTopK
  rw [okTop_top top ht]
  exact select_bcast_one _ _ _ _

/-- The taken down rows are the gathered rows. -/
theorem takeDown_eq (yf : FVec Ideal S286734x64 .f32) (down : IVec S245760 32) (hd : ∀ i, (down i).toNat < 286734) :
    takeDownK yf down = Host.gather gather_S286734x64_S245760x1_S245760x64_1_0_n_n_0_1_164 yf (wrapDownK down) := by
  unfold takeDownK
  rw [okDown_down down hd]
  exact select_bcast_one _ _ _ _

end Takes

attribute [local irreducible] Host.gather Host.reduceAdd Host.divf concatenate shapeCast

/-- up: with every top and down index below 286734 the two takes are the reference's gathers. -/
theorem up_eq (y : FVec Ideal Cert.KernelIdeal.S40962x448 .f32) (top : IVec Cert.KernelIdeal.S40962 32) (down : IVec Cert.KernelIdeal.S245760 32)
    (ht : ∀ i, (top i).toNat < 286734) (hd : ∀ i, (down i).toNat < 286734) :
    upK y top down = upR (F := Ideal) y top down := by
  unfold upK
  rw [takeTop_eq _ top ht, takeDown_eq _ down hd]
  rfl

/-- The seven neighbour rows: with every vertex number below 163842 the take is the reference's gather. -/
theorem gat2_eq (h : FVec Ideal Cert.KernelIdeal.S163842x64 .f32) (neigh : IVec Cert.KernelIdeal.S1146894 32) (hn : ∀ i, (neigh i).toNat < 163842) :
    gat2K h neigh = gat2R (F := Ideal) h neigh := by
  unfold gat2K
  rw [takeNeigh_eq h neigh hn]
  rfl

end Cert.Bridge

end
-- ==== Proof.SpecConv.lean ====
/-
  The first one-ring convolution, entry by entry: for vertex n and output channel o, the sum over the neighbour slot
  j < 7 and the input channel c < 128 of x(neigh(7 n + j), c) · W1(o, 128 j + c), plus b1(o), where x = up | x2 and a
  neighbour word is read as a row number (its unsigned value, reduced below the row count so that the function is total;
  on the precondition's domain the reduction does nothing).
-/
import proofs.«417947_j4449586118756_2_alg».proof.Proof.Spec

noncomputable section

namespace Cert.Spec

open Idealize.ShloMosaic Idealize.ShloMosaic.ValueIdx

/-- The shape of a vector of length a. -/
abbrev Sh1 (a : Nat) : Shape := ⟨1, ![a]⟩

/-- A word read as one of 163842 rows. -/
def vertexOf (w : BitVec 32) : Fin 163842 := ⟨w.toNat % 163842, Nat.mod_lt _ (by decide)⟩

theorem vertexOf_val_of_lt {w : BitVec 32} (h : w.toNat < 163842) : (vertexOf w).val = w.toNat := Nat.mod_eq_of_lt h

/-- Entry (n, o) of the first one-ring convolution. -/
def conv1At (up x2 : A2 163842 64) (neigh : (Sh1 1146894).Idx → BitVec 32) (w1 : A2 64 896) (b1 : (Sh1 64).Idx → EReal)
    (n : Fin 163842) (o : Fin 64) : EReal :=
  (∑ j : Fin 7, ∑ c : Fin 128,
      catAt up x2 (vertexOf (neigh (ix1 (⟨7 * n.val + j.val, by have := n.isLt; have := j.isLt; omega⟩ : Fin 1146894)))) c
        * w1 (ix2 o (⟨128 * j.val + c.val, by have := j.isLt; have := c.isLt; omega⟩ : Fin 896)))
    + b1 (ix1 o)

/-- The first one-ring convolution as an array. -/
def conv1Spec (up x2 : A2 163842 64) (neigh : (Sh1 1146894).Idx → BitVec 32) (w1 : A2 64 896) (b1 : (Sh1 64).Idx → EReal) : A2 163842 64 :=
  fun i => conv1At up x2 neigh w1 b1 (i 0) (i 1)

end Cert.Spec

end
-- ==== Proof.GatherRows.lean ====
/-
  A gather of whole rows: the operand is an N × C array, the start indices an M × 1 column of words, the result M × C.
  Entry (r, q) of the result is the operand's entry (ρ, q) where ρ is the r-th word read as a signed integer and
  clamped into 0 … N − 1 (the gather clamps every start index so that the one-row slice fits).
-/
import Idealize.ShloMosaic.Lib.ValueIdx

noncomputable section

namespace Cert.Spec

open Idealize.ShloMosaic Idealize.ShloMosaic.ValueIdx

variable {α : Type}

/-- The dimension numbers of a row gather: offset axis 1, collapsed axis 0, start index map [0], the index vector on
    axis 1, slices of one row. -/
abbrev rowDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather read at (r, q): the operand at the clamped r-th start index, column q. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (q : Fin C) :
    Host.gather (rowDims N M C wf) x idx (ix2 r q)
      = x (ix2 (⟨min (idx (ix2 r (0 : Fin 1))).toInt.toNat (N - 1), by omega⟩ : Fin N) q) := by
  unfold Host.gather
  congr 1
  funext a
  refine Fin.ext ?_
  match a with
  | ⟨0, _⟩ =>
    show (rowDims N M C wf).start (ix2 r q) idx 0 + (rowDims N M C wf).batchCoord (ix2 r q) 0 + (rowDims N M C wf).offCoord (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M C wf).startIndexMap from List.mem_singleton.mpr rfl)]
    have hsi : (rowDims N M C wf).siIdx (ix2 r q) ⟨List.idxOf (0 : Fin 2) (rowDims N M C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N M C wf).start (ix2 r q) idx 1 + (rowDims N M C wf).batchCoord (ix2 r q) 1 + (rowDims N M C wf).offCoord (ix2 r q) 1 = q.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowDims N M C wf).startIndexMap from h10)]
    unfold GatherDims.offCoord
    rw [dif_pos (show (1 : Fin 2) ∈ (rowDims N M C wf).sKept from (GatherDims.mem_sKept _ _).mpr ⟨h10, List.not_mem_nil⟩)]
    have hk : (rowDims N M C wf).sKept = ([1] : List (Fin 2)) := by
      first
        | rfl
        | (show ((⟨2, ![N, C]⟩ : Shape).kept (([0] : List (Fin 2)) ++ [])) = [1]; simp [Shape.kept, List.finRange])
        | decide +revert
    have hi : List.idxOf (1 : Fin 2) (rowDims N M C wf).sKept = 0 := by rw [hk]; rfl
    simp only [hi, Nat.zero_add]
    rfl

end Cert.Spec

end
-- ==== Proof.BridgeConv1K.lean ====
/-
  The kernel's side of the first one-ring convolution. Z1(n', 64 j + o) is the sum over c of x(n', c) · W1(o, 128 j + c) (the regrouped, transposed weights read back to W1); row 7 n' + j of Z1's 64-column flattening is Z1(n', 64 j + ·); for vertex n and slot j the flat row number 7 · neigh(7 n + j) + j is in range and needs no wrap when neigh(7 n + j) < 163842, so the take is the gather and reads Z1(neigh(7 n + j), 64 j + o); the sum over the seven slots from the zero word, plus b1(o), is the convolution's entry.
-/
import proofs.«417947_j4449586118756_2_alg».proof.Proof.KStage
import proofs.«417947_j4449586118756_2_alg».proof.Proof.RStage
import proofs.«417947_j4449586118756_2_alg».proof.Proof.SpecConv
import proofs.«417947_j4449586118756_2_alg».proof.Proof.GatherRows
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.Lib.ReduceAll
import Idealize.ShloMosaic.Lib.StableHlo.Predicate
import Idealize.ShloMosaic.PureOps.Ideal.Laws

set_option maxRecDepth 16384

noncomputable section

namespace Cert.Bridge

open Idealize.ShloMosaic Idealize.ShloMosaic.ValueIdx Cert.Spec
open Cert.KernelIdeal Cert.KernelIdeal.Gen
open Cert.KernelIdeal.Stage Cert.ReferenceIdeal.Stage

namespace Conv1K

/-- The regrouped, transposed weights read back to W1: entry (c, 64 j + o) is W1(o, 128 j + c). -/
theorem wcatK_apply (w1 : FVec Ideal S64x896 .f32) (c : Fin 128) (j : Fin 7) (o : Fin 64) :
    wcatK w1 (ix2 c (⟨64 * j.val + o.val, by have := j.isLt; have := o.isLt; omega⟩ : Fin 448))
      = w1 (ix2 o (⟨128 * j.val + c.val, by have := j.isLt; have := c.isLt; omega⟩ : Fin 896)) := by
  have hj := j.isLt; have ho := o.isLt; have hc := c.isLt
  unfold wcatK
  refine (transpose_apply [1, 0] _ _ (ix2 c (⟨64 * j.val + o.val, by omega⟩ : Fin 448))
    (ix2 (⟨64 * j.val + o.val, by omega⟩ : Fin 448) c) ?_).trans ?_
  · intro b; match b with
    | ⟨0, _⟩ => rfl
    | ⟨1, _⟩ => rfl
  refine (shapeCast_apply _ _ (ix2 (⟨64 * j.val + o.val, by omega⟩ : Fin 448) c) (ix3 j o c) ?_).trans ?_
  · rw [Shape.rowMajor_val_three, Shape.rowMajor_val_two]
    show (j.val * 64 + o.val) * 128 + c.val = (64 * j.val + o.val) * 128 + c.val
    omega
  refine (transpose_apply [1, 0, 2] _ _ (ix3 j o c) (ix3 o j c) ?_).trans ?_
  · intro b; match b with
    | ⟨0, _⟩ => rfl
    | ⟨1, _⟩ => rfl
    | ⟨2, _⟩ => rfl
  refine shapeCast_apply _ _ (ix3 o j c) (ix2 o (⟨128 * j.val + c.val, by omega⟩ : Fin 896)) ?_
  rw [Shape.rowMajor_val_three, Shape.rowMajor_val_two]
  show o.val * 896 + (128 * j.val + c.val) = (o.val * 7 + j.val) * 128 + c.val
  omega

/-- A row below 163842 of the zero-padded array is the array's own row. -/
theorem pad_row_apply (x : FVec Ideal S163842x64 .f32) (n : Fin 163842) (q : Fin 64) :
    pad S172032x64 ![0, 0] ![8190, 0] ![0, 0] x zpad pads_S163842x64_S172032x64_081900_000 h_S_
        (ix2 (⟨n.val, by have := n.isLt; omega⟩ : Fin 172032) q) = x (ix2 n q) := by
  refine pad_apply_of_inside _ _ _ x _ _ _ _ (ix2 n q) ?_
  intro a; match a with
    | ⟨0, _⟩ => show n.val = 0 + n.val * (0 + 1); omega
    | ⟨1, _⟩ => show q.val = 0 + q.val * (0 + 1); omega

/-- The concatenated row of the padded arrays at a row below 163842 is the concatenated row of the arrays. -/
theorem catAt_pad (up x2 : FVec Ideal S163842x64 .f32) (n : Fin 163842) (c : Fin 128) :
    catAt (M := 172032)
        (pad S172032x64 ![0, 0] ![8190, 0] ![0, 0] up zpad pads_S163842x64_S172032x64_081900_000 h_S_)
        (pad S172032x64 ![0, 0] ![8190, 0] ![0, 0] x2 zpad pads_S163842x64_S172032x64_081900_000 h_S_)
        (⟨n.val, by have := n.isLt; omega⟩ : Fin 172032) c
      = catAt up x2 n c := by
  unfold catAt
  by_cases h : c.val < 64
  · rw [dif_pos h, dif_pos h]; exact pad_row_apply up n ⟨c.val, h⟩
  · rw [dif_neg h, dif_neg h]; exact pad_row_apply x2 n ⟨c.val - 64, by have := c.isLt; omega⟩

/-- Z1(n, 64 j + o) is the sum over c of x(n, c) · W1(o, 128 j + c). -/
theorem z1K_apply (up x2 : FVec Ideal S163842x64 .f32) (w1 : FVec Ideal S64x896 .f32) (n : Fin 163842) (j : Fin 7) (o : Fin 64) :
    z1K up x2 w1 (ix2 n (⟨64 * j.val + o.val, by have := j.isLt; have := o.isLt; omega⟩ : Fin 448))
      = ∑ c : Fin 128, catAt up x2 n c * w1 (ix2 o (⟨128 * j.val + c.val, by have := j.isLt; have := c.isLt; omega⟩ : Fin 896)) := by
  have hj := j.isLt; have ho := o.isLt; have hn := n.isLt
  unfold z1K
  refine (extractStridedSlice_apply ![0, 0] _ _ (ix2 n (⟨64 * j.val + o.val, by omega⟩ : Fin 448))
    (ix2 (⟨n.val, by omega⟩ : Fin 172032) (⟨64 * j.val + o.val, by omega⟩ : Fin 448)) ?_).trans ?_
  · intro a; match a with
    | ⟨0, _⟩ => show n.val = 0 + n.val; omega
    | ⟨1, _⟩ => show 64 * j.val + o.val = 0 + (64 * j.val + o.val); omega
  unfold regCat
  refine Finset.sum_congr rfl fun c _ => ?_
  exact congrArg₂ (· * ·) (catAt_pad up x2 n c) (wcatK_apply w1 c j o)

/-- Row 7 n + j of Z1's 64-column flattening is Z1(n, 64 j + ·). -/
theorem zflat_apply (z1 : FVec Ideal S163842x448 .f32) (n : Fin 163842) (j : Fin 7) (o : Fin 64) :
    shapeCast S1146894x64 z1 shapeCasts_S163842x448_S1146894x64
        (ix2 (⟨7 * n.val + j.val, by have := n.isLt; have := j.isLt; omega⟩ : Fin 1146894) o)
      = z1 (ix2 n (⟨64 * j.val + o.val, by have := j.isLt; have := o.isLt; omega⟩ : Fin 448)) := by
  have hj := j.isLt; have ho := o.isLt; have hn := n.isLt
  refine shapeCast_apply _ _ _ (ix2 n (⟨64 * j.val + o.val, by omega⟩ : Fin 448)) ?_
  rw [Shape.rowMajor_val_two, Shape.rowMajor_val_two]
  show n.val * 448 + (64 * j.val + o.val) = (7 * n.val + j.val) * 64 + o.val
  omega

/-- The flat row number at 7 n + j is 7 · neigh(7 n + j) + j as words. -/
theorem flatIdxK_apply (neigh : IVec S1146894 32) (n : Fin 163842) (j : Fin 7) :
    flatIdxK neigh (ix1 (⟨7 * n.val + j.val, by have := n.isLt; have := j.isLt; omega⟩ : Fin 1146894))
      = neigh (ix1 (⟨7 * n.val + j.val, by have := n.isLt; have := j.isLt; omega⟩ : Fin 1146894)) * 7#32 + BitVec.ofNat 32 j.val := by
  have hj := j.isLt; have hn := n.isLt
  unfold flatIdxK
  refine (shapeCast_apply _ _ (ix1 (⟨7 * n.val + j.val, by omega⟩ : Fin 1146894)) (ix2 n j) ?_).trans ?_
  · rw [Shape.rowMajor_val_two, Shape.rowMajor_val_one]
    show n.val * 7 + j.val = 7 * n.val + j.val
    omega
  show IntOp.addi (IntOp.muli (shapeCast S163842x7 neigh shapeCasts_S1146894_S163842x7 (ix2 n j)) 7#32)
      (broadcastInDim S163842x7 ![0, 1] bcast_S1x7_S163842x7_0_1 (broadcastInDim S1x7 ![1] bcast_S7_S1x7_1 (iotaInDim S7 32 0)) (ix2 n j)) = _
  have e1 : shapeCast S163842x7 neigh shapeCasts_S1146894_S163842x7 (ix2 n j)
      = neigh (ix1 (⟨7 * n.val + j.val, by omega⟩ : Fin 1146894)) := by
    refine shapeCast_apply _ _ (ix2 n j) (ix1 (⟨7 * n.val + j.val, by omega⟩ : Fin 1146894)) ?_
    rw [Shape.rowMajor_val_two, Shape.rowMajor_val_one]
    show 7 * n.val + j.val = n.val * 7 + j.val
    omega
  have e2 : broadcastInDim S163842x7 ![0, 1] bcast_S1x7_S163842x7_0_1 (broadcastInDim S1x7 ![1] bcast_S7_S1x7_1 (iotaInDim S7 32 0)) (ix2 n j)
      = BitVec.ofNat 32 j.val := by
    refine (broadcastInDim_apply _ _ _ (ix2 n j) (ix2 (0 : Fin 1) j) ?_).trans ?_
    · intro a; match a with
      | ⟨0, _⟩ => rfl
      | ⟨1, _⟩ => rfl
    refine (broadcastInDim_apply _ _ _ (ix2 (0 : Fin 1) j) (ix1 j) ?_).trans ?_
    · intro a; match a with
      | ⟨0, _⟩ => rfl
    rfl
  rw [e1, e2]
  rfl

/-- With neigh(7 n + j) below 163842 the flat row number's value is 7 · neigh(7 n + j) + j: nothing wraps. -/
theorem flatIdxK_toNat (neigh : IVec S1146894 32) (hn : ∀ i, (neigh i).toNat < 163842) (n : Fin 163842) (j : Fin 7) :
    (flatIdxK neigh (ix1 (⟨7 * n.val + j.val, by have := n.isLt; have := j.isLt; omega⟩ : Fin 1146894))).toNat
      = 7 * (neigh (ix1 (⟨7 * n.val + j.val, by have := n.isLt; have := j.isLt; omega⟩ : Fin 1146894))).toNat + j.val := by
  have hj := j.isLt
  have hw := hn (ix1 (⟨7 * n.val + j.val, by have := n.isLt; omega⟩ : Fin 1146894))
  rw [flatIdxK_apply, BitVec.toNat_add, BitVec.toNat_mul, BitVec.toNat_ofNat]
  show ((neigh _).toNat * 7 % 2 ^ 32 + j.val % 2 ^ 32) % 2 ^ 32 = _
  omega

/-- Every flat row number is below 1146894. -/
theorem flatIdxK_lt (neigh : IVec S1146894 32) (hn : ∀ i, (neigh i).toNat < 163842) (i : S1146894.Idx) :
    (flatIdxK neigh i).toNat < 1146894 := by
  obtain ⟨r, rfl⟩ : ∃ r : Fin 1146894, i = ix1 r := ⟨i 0, eq_ix1 i⟩
  have hr := r.isLt
  have e : r = (⟨7 * (⟨r.val / 7, by omega⟩ : Fin 163842).val + (⟨r.val % 7, by omega⟩ : Fin 7).val, by show 7 * (r.val / 7) + r.val % 7 < 1146894; omega⟩ : Fin 1146894) :=
    Fin.ext (by show r.val = 7 * (r.val / 7) + r.val % 7; omega)
  rw [e, flatIdxK_toNat neigh hn]
  have hw := hn (ix1 (⟨7 * (⟨r.val / 7, by omega⟩ : Fin 163842).val + (⟨r.val % 7, by omega⟩ : Fin 7).val, by show 7 * (r.val / 7) + r.val % 7 < 1146894; omega⟩ : Fin 1146894))
  show 7 * (neigh _).toNat + r.val % 7 < 1146894
  omega

/-- A fold by `and` from 1 over words that are all 1 is 1. -/
theorem fold_andi_one {ι : Type} (S : Finset ι) (f : ι → BitVec 1) (b : BitVec 1) (hb : b = 1#1) (hf : ∀ i, f i = 1#1) :
    S.fold IntOp.andi b f = 1#1 := by
  induction S using Finset.cons_induction with
  | empty => rw [Finset.fold_empty]; exact hb
  | cons a S ha ih => rw [Finset.fold_cons, ih, hf a]; rfl

/-- A reduction by `and` from 1 of an array of ones is 1 at every index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_fold]
  exact fold_andi_one _ _ _ hinit hx

/-- A row number that is not negative as a signed word is left as it is by the wrap. -/
theorem wrapFlatK_apply (idx : IVec S1146894 32) (r : Fin 1146894) (hr : (idx (ix1 r)).toNat < 2 ^ 31) :
    wrapFlatK idx (ix2 r (0 : Fin 1)) = idx (ix1 r) := by
  unfold wrapFlatK
  refine (broadcastInDim_apply _ _ _ (ix2 r (0 : Fin 1)) (ix1 r) ?_).trans ?_
  · intro a; match a with
    | ⟨0, _⟩ => rfl
  show Scalar.select (IntOp.cmpi .slt (idx (ix1 r)) 0#32) (IntOp.addi (idx (ix1 r)) 1146894#32) (idx (ix1 r)) = _
  have hc : IntOp.cmpi .slt (idx (ix1 r)) 0#32 = 0#1 := by
    refine eq_zero_of_ne_one fun h => ?_
    have h' := (StableHlo.Predicate.slt_iff_toNat hr (by decide)).1 h
    exact Nat.not_lt_zero _ h'
  rw [hc, select_zero]

/-- With every row number below 1146894 the range mask is 1 everywhere. -/
theorem okBigK_flat (idx : IVec S1146894 32) (hidx : ∀ i, (idx i).toNat < 1146894) (i : S1146894.Idx) :
    okBigK 1146893#32 (wrapFlatK idx) i = 1#1 := by
  unfold okBigK
  refine reduce_andi_one _ _ _ _ _ rfl fun k => ?_
  obtain ⟨r, z, rfl⟩ : ∃ (r : Fin 1146894) (z : Fin 1), k = ix2 r z := ⟨k 0, k 1, eq_ix2 k⟩
  obtain rfl : z = 0 := Subsingleton.elim _ _
  have hr := hidx (ix1 r)
  show IntOp.andi (IntOp.cmpi .sge (wrapFlatK idx (ix2 r (0 : Fin 1))) 0#32)
      (IntOp.cmpi .sle (wrapFlatK idx (ix2 r (0 : Fin 1))) 1146893#32) = 1#1
  rw [wrapFlatK_apply idx r (by omega)]
  have h3 : (1146893#32 : BitVec 32).toNat = 1146893 := rfl
  have e1 : IntOp.cmpi .sge (idx (ix1 r)) 0#32 = 1#1 :=
    (StableHlo.Predicate.sge_iff_toNat (by omega) (by decide)).2 (Nat.zero_le _)
  have e2 : IntOp.cmpi .sle (idx (ix1 r)) 1146893#32 = 1#1 :=
    (StableHlo.Predicate.sle_iff_toNat (by omega) (by decide)).2 (by rw [h3]; omega)
  rw [e1, e2]
  rfl

/-- The program's row gather is the whole-row gather of an 1146894 × 64 array at an 1146894 × 1 column. -/
theorem gDims_eq : gather_S1146894x64_S1146894x1_S1146894x64_1_0_n_n_0_1_164
    = rowDims 1146894 1146894 64 gather_S1146894x64_S1146894x1_S1146894x64_1_0_n_n_0_1_164_wf := rfl

/-- The take at the flat row numbers is the gather: row r, column o reads the flattening's row idx(r). -/
theorem takeFlatK_apply (zf : FVec Ideal S1146894x64 .f32) (idx : IVec S1146894 32) (hidx : ∀ i, (idx i).toNat < 1146894)
    (r : Fin 1146894) (o : Fin 64) :
    takeFlatK zf idx (ix2 r o) = zf (ix2 (⟨(idx (ix1 r)).toNat, hidx _⟩ : Fin 1146894) o) := by
  have hr := hidx (ix1 r)
  unfold takeFlatK
  refine (select_apply _ _ _ _).trans ?_
  have hm : broadcastInDim S1146894x64 ![0] bcast_S1146894_S1146894x64_0 (okBigK 1146893#32 (wrapFlatK idx)) (ix2 r o) = 1#1 := by
    refine (broadcastInDim_apply _ _ _ (ix2 r o) (ix1 r) ?_).trans (okBigK_flat idx hidx _)
    intro a; match a with
    | ⟨0, _⟩ => rfl
  rw [hm, select_one, gDims_eq]
  refine (gather_rows_apply (by decide) _ zf (wrapFlatK idx) r o).trans ?_
  refine congrArg zf (congrArg (fun p => ix2 p o) (Fin.ext ?_))
  show min (wrapFlatK idx (ix2 r (0 : Fin 1))).toInt.toNat (1146894 - 1) = (idx (ix1 r)).toNat
  rw [wrapFlatK_apply idx r (by omega), StableHlo.Predicate.toInt_eq_toNat_of_lt (by omega), Int.toNat_natCast]
  omega

/-- Entry (n, j, o) of the taken rows viewed 163842 × 7 × 64 is row 7 n + j, column o. -/
theorem cube_apply (T : FVec Ideal S1146894x64 .f32) (n : Fin 163842) (j : Fin 7) (o : Fin 64) :
    shapeCast S163842x7x64 T shapeCasts_S1146894x64_S163842x7x64 (ix3 n j o)
      = T (ix2 (⟨7 * n.val + j.val, by have := n.isLt; have := j.isLt; omega⟩ : Fin 1146894) o) := by
  have hj := j.isLt; have hn := n.isLt
  refine shapeCast_apply _ _ (ix3 n j o) (ix2 (⟨7 * n.val + j.val, by omega⟩ : Fin 1146894) o) ?_
  rw [Shape.rowMajor_val_three, Shape.rowMajor_val_two]
  show (7 * n.val + j.val) * 64 + o.val = (n.val * 7 + j.val) * 64 + o.val
  omega

/-- The bias row broadcast over the vertices reads b1(o). -/
theorem bias_apply (b1 : FVec Ideal S64 .f32) (n : Fin 163842) (o : Fin 64) :
    broadcastInDim S163842x64 ![0, 1] bcast_S1x64_S163842x64_0_1 (shapeCast S1x64 b1 shapeCasts_S64_S1x64) (ix2 n o) = b1 (ix1 o) := by
  refine (broadcastInDim_apply _ _ _ (ix2 n o) (ix2 (0 : Fin 1) o) ?_).trans ?_
  · intro a; match a with
    | ⟨0, _⟩ => rfl
    | ⟨1, _⟩ => rfl
  refine shapeCast_apply _ _ (ix2 (0 : Fin 1) o) (ix1 o) ?_
  rw [Shape.rowMajor_val_two, Shape.rowMajor_val_one]
  show o.val = 0 * 64 + o.val
  omega

/-- The seven slots of vertex n summed from the zero word: the sum over j of the cube's entries (n, j, o). -/
theorem slots_apply (X : FVec Ideal S163842x7x64 .f32) (n : Fin 163842) (o : Fin 64) :
    Host.reduceAdd X (constant S_ .f32 0x00000000#32) reducesTo_S163842x7x64_S163842x64_d1 h_S_ (ix2 n o)
      = ∑ j : Fin 7, X (ix3 n j o) := by
  have hR : S163842x7x64.Reduces [1] S163842x64 := by decide
  refine (hostReduceAdd_apply X _ _ _ (ix2 n o)).trans ?_
  refine (Ideal.hostReduceAdd_single reducesTo_S163842x7x64_S163842x64_d1 hR X _ (ix2 n o)).trans ?_
  show Ideal.ofBits .f32 0x00000000#32 + ∑ j : Fin 7, X (hR.lift (ix2 n o) j) = _
  rw [Ideal.ofBits_zero_f32, zero_add]
  refine Finset.sum_congr rfl fun j _ => congrArg X ?_
  funext a; refine Fin.ext ?_
  match a with
  | ⟨0, _⟩ => rfl
  | ⟨1, _⟩ => rfl
  | ⟨2, _⟩ => rfl

/-- Entry (n, o) of the kernel's matmul-then-take-and-sum. -/
theorem h1K_apply (up x2 : FVec Ideal S163842x64 .f32) (neigh : IVec S1146894 32) (w1 : FVec Ideal S64x896 .f32) (b1 : FVec Ideal S64 .f32)
    (hn : ∀ i, (neigh i).toNat < 163842) (n : Fin 163842) (o : Fin 64) :
    h1K (z1K up x2 w1) neigh b1 (ix2 n o) = conv1At up x2 neigh w1 b1 n o := by
  have hnl := n.isLt
  unfold h1K conv1At
  refine (addf_apply _ _ _).trans ?_
  rw [slots_apply, bias_apply]
  refine congrArg (· + b1 (ix1 o)) (Finset.sum_congr rfl fun j _ => ?_)
  have hj := j.isLt
  have hw := hn (ix1 (⟨7 * n.val + j.val, by omega⟩ : Fin 1146894))
  rw [cube_apply, takeFlatK_apply _ _ (flatIdxK_lt neigh hn)]
  -- the row read is 7 · v + j with v the neighbour's vertex number
  have hrow : (⟨(flatIdxK neigh (ix1 (⟨7 * n.val + j.val, by omega⟩ : Fin 1146894))).toNat, flatIdxK_lt neigh hn _⟩ : Fin 1146894)
      = (⟨7 * (vertexOf (neigh (ix1 (⟨7 * n.val + j.val, by omega⟩ : Fin 1146894)))).val + j.val,
          by have := (vertexOf (neigh (ix1 (⟨7 * n.val + j.val, by omega⟩ : Fin 1146894)))).isLt; omega⟩ : Fin 1146894) :=
    Fin.ext (by
      show (flatIdxK neigh _).toNat = 7 * (vertexOf _).val + j.val
      rw [flatIdxK_toNat neigh hn, vertexOf_val_of_lt hw])
  rw [hrow, zflat_apply, z1K_apply]

end Conv1K

/-- The kernel's matmul-then-take-and-sum is the convolution, entry by entry. -/
theorem h1K_eq (up x2 : FVec Ideal Cert.KernelIdeal.S163842x64 .f32) (neigh : IVec Cert.KernelIdeal.S1146894 32) (w1 : FVec Ideal Cert.KernelIdeal.S64x896 .f32) (b1 : FVec Ideal Cert.KernelIdeal.S64 .f32)
    (hn : ∀ i, (neigh i).toNat < 163842) :
    h1K (z1K up x2 w1) neigh b1 = conv1Spec up x2 neigh w1 b1 := by
  funext i
  obtain ⟨n, o, rfl⟩ : ∃ (n : Fin 163842) (o : Fin 64), i = ix2 n o := ⟨i 0, i 1, eq_ix2 i⟩
  exact Conv1K.h1K_apply up x2 neigh w1 b1 hn n o

end Cert.Bridge

end
-- ==== Proof.BridgeConv1R.lean ====
/-
  The reference's side of the first one-ring convolution. Row 7 n + j of the gathered array is row neigh(7 n + j) of x = up | x2 (no wrap and no clamp when the word is below 163842); laid side by side, column k = 128 j + c of vertex n's 896-column row is x(neigh(7 n + j), c); the dot_general against W1ᵀ is the sum over k < 896 of that times W1(o, k), which regrouped by k = 128 j + c (a bijection of Fin 896 with Fin 7 × Fin 128; addition on the extended reals is commutative and associative) is the double sum over slot and channel; plus b1(o).
-/
import proofs.«417947_j4449586118756_2_alg».proof.Proof.KStage
import proofs.«417947_j4449586118756_2_alg».proof.Proof.RStage
import proofs.«417947_j4449586118756_2_alg».proof.Proof.SpecConv
import proofs.«417947_j4449586118756_2_alg».proof.Proof.GatherRows
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

set_option maxRecDepth 16384

noncomputable section

namespace Cert.Bridge

open Idealize.ShloMosaic Idealize.ShloMosaic.ValueIdx Cert.Spec
open Cert.KernelIdeal.Stage Cert.ReferenceIdeal.Stage
open Cert.ReferenceIdeal Cert.ReferenceIdeal.Gen

/-! ## The concatenation, the transposed weight and the bias at an index -/

/-- The row-wise concatenation read at (r, c): the left half below column 64, the right half from it. -/
theorem xcatR_apply (up x2 : FVec Ideal S163842x64 .f32) (r : Fin 163842) (c : Fin 128) :
    xcatR (F := Ideal) up x2 (ix2 r c) = catAt up x2 r c := by
  unfold xcatR catAt
  by_cases h : c.val < 64
  · rw [dif_pos h]
    refine concatenate_pair_apply_left (1 : Fin 2) up x2 _ (ix2 r c) rfl (ix2 r ⟨c.val, h⟩) ?_
    intro b
    match b with
    | ⟨0, _⟩ => rfl
    | ⟨1, _⟩ => rfl
  · rw [dif_neg h]
    refine concatenate_pair_apply_right (1 : Fin 2) up x2 _ (ix2 r c) rfl rfl (ix2 r ⟨c.val - 64, by omega⟩) ?_ ?_
    · intro b hb
      match b with
      | ⟨0, _⟩ => rfl
      | ⟨1, _⟩ => exact absurd rfl hb
    · show (c.val - 64) + 64 = c.val
      omega

/-- The transposed weight read at (k, o) is the weight at (o, k). -/
theorem w1T_apply (w1 : FVec Ideal S64x896 .f32) (k : Fin 896) (o : Fin 64) :
    transpose S896x64 [1, 0] w1 transposes_S64x896_S896x64_1_0 (ix2 k o) = w1 (ix2 o k) := by
  refine transpose_apply _ w1 _ (ix2 k o) (ix2 o k) ?_
  intro b
  match b with
  | ⟨0, _⟩ => rfl
  | ⟨1, _⟩ => rfl

/-- The bias as every row: entry (n, o) is b(o). -/
theorem rows64_entry (b : FVec Ideal S64 .f32) (n : Fin 163842) (o : Fin 64) :
    rows64 (F := Ideal) b (ix2 n o) = b (ix1 o) := by
  unfold rows64
  refine (broadcastInDim_apply _ _ _ (ix2 n o) (ix2 (0 : Fin 1) o) ?_).trans ?_
  · intro a
    match a with
    | ⟨0, _⟩ => rfl
    | ⟨1, _⟩ => rfl
  · refine broadcastInDim_apply _ _ _ (ix2 (0 : Fin 1) o) (ix1 o) ?_
    intro a
    match a with
    | ⟨0, _⟩ => rfl

/-! ## The gather: row p of the gathered array is row neigh(p) of up | x2 -/

/-- A word below 163842 is not negative, so the wrap leaves it. -/
theorem wrapNeigh_apply (neigh : IVec S1146894 32) (hn : ∀ i, (neigh i).toNat < 163842) (p : Fin 1146894) :
    wrapNeigh neigh (ix2 p (0 : Fin 1)) = neigh (ix1 p) := by
  unfold wrapNeigh
  refine (broadcastInDim_apply _ _ _ (ix2 p (0 : Fin 1)) (ix1 p) ?_).trans ?_
  · intro a
    match a with
    | ⟨0, _⟩ => rfl
  · rw [select_apply]
    have hlt := hn (ix1 p)
    have hc : cmpi .slt neigh (broadcastInDim S1146894 ![] bcast_S_S1146894 (constantI S_ 32 0#32)) (ix1 p) = 0#1 := by
      apply eq_zero_of_ne_one
      intro h1
      have h2 : IntOp.cmpi .slt (neigh (ix1 p)) (0#32) = 1#1 := h1
      rw [StableHlo.Predicate.slt_iff_toNat (by omega) (by decide)] at h2
      simp at h2
    rw [hc, select_zero]

/-- A word below 163842, read signed and clamped into the rows, is the vertex it names. -/
theorem clamp_val {w : BitVec 32} (h : w.toNat < 163842) : min w.toInt.toNat (163842 - 1) = (vertexOf w).val := by
  rw [vertexOf_val_of_lt h]
  have hi : w.toInt = (w.toNat : Int) := BitVec.toInt_eq_toNat_of_lt (by omega)
  rw [hi, Int.toNat_natCast]
  omega

/-- Row p of the gathered array is row neigh(p) of up | x2. -/
theorem gat1_apply (up x2 : FVec Ideal S163842x64 .f32) (neigh : IVec S1146894 32) (hn : ∀ i, (neigh i).toNat < 163842)
    (p : Fin 1146894) (c : Fin 128) :
    Host.gather gather_S163842x128_S1146894x1_S1146894x128_1_0_n_n_0_1_1128 (xcatR (F := Ideal) up x2) (wrapNeigh neigh) (ix2 p c)
      = catAt up x2 (vertexOf (neigh (ix1 p))) c := by
  refine (gather_rows_apply (N := 163842) (M := 1146894) (C := 128) (by omega)
    gather_S163842x128_S1146894x1_S1146894x128_1_0_n_n_0_1_1128_wf (xcatR (F := Ideal) up x2) (wrapNeigh neigh) p c).trans ?_
  refine (congrArg (fun r => xcatR (F := Ideal) up x2 (ix2 r c)) (Fin.ext ?_)).trans (xcatR_apply up x2 (vertexOf (neigh (ix1 p))) c)
  show min (wrapNeigh neigh (ix2 p (0 : Fin 1))).toInt.toNat (163842 - 1) = (vertexOf (neigh (ix1 p))).val
  rw [wrapNeigh_apply neigh hn p]
  exact clamp_val (hn (ix1 p))

/-! ## Side by side -/

/-- Seven gathered rows side by side: column 128 j + c of vertex n's long row is entry (7 n + j, c). -/
theorem cast896_apply {α : Type} (G : S1146894x128.Idx → α) (n : Fin 163842) (j : Fin 7) (c : Fin 128) :
    shapeCast S163842x896 G shapeCasts_S1146894x128_S163842x896
        (ix2 n (⟨128 * j.val + c.val, by have := j.isLt; have := c.isLt; omega⟩ : Fin 896))
      = G (ix2 (⟨7 * n.val + j.val, by have := n.isLt; have := j.isLt; omega⟩ : Fin 1146894) c) := by
  refine shapeCast_apply G _ _ _ ?_
  rw [Shape.rowMajor_val_two, Shape.rowMajor_val_two]
  show (7 * n.val + j.val) * 128 + c.val = n.val * 896 + (128 * j.val + c.val)
  omega

/-! ## The product against the transposed weight -/

theorem lhs1_0 (j : S163842x64.Idx) (k : dot_S163842x896_S896x64_S163842x64_1_0_0_1_n_n.contr.Idx) :
    (dot_S163842x896_S896x64_S163842x64_1_0_0_1_n_n.lhsIdx j k 0).val = (j 0).val := by
  unfold DotDims.lhsIdx
  rw [dif_neg (show ¬(0 : Fin S163842x896.rank) ∈ dot_S163842x896_S896x64_S163842x64_1_0_0_1_n_n.lhsBatch by decide),
    dif_pos (show (0 : Fin S163842x896.rank) ∈ dot_S163842x896_S896x64_S163842x64_1_0_0_1_n_n.lhsNonContracting by decide)]
  rfl

theorem lhs1_1 (j : S163842x64.Idx) (k : dot_S163842x896_S896x64_S163842x64_1_0_0_1_n_n.contr.Idx) :
    (dot_S163842x896_S896x64_S163842x64_1_0_0_1_n_n.lhsIdx j k 1).val = (k ⟨0, by decide⟩).val :=
  DotDims.lhsIdx_val_of_single _ (cl := (1 : Fin S163842x896.rank)) rfl j k

theorem rhs1_0 (j : S163842x64.Idx) (k : dot_S163842x896_S896x64_S163842x64_1_0_0_1_n_n.contr.Idx) :
    (dot_S163842x896_S896x64_S163842x64_1_0_0_1_n_n.rhsIdx j k 0).val = (k ⟨0, by decide⟩).val :=
  DotDims.rhsIdx_val_of_single _ (cr := (0 : Fin S896x64.rank)) rfl j k

theorem rhs1_1 (j : S163842x64.Idx) (k : dot_S163842x896_S896x64_S163842x64_1_0_0_1_n_n.contr.Idx) :
    (dot_S163842x896_S896x64_S163842x64_1_0_0_1_n_n.rhsIdx j k 1).val = (j 1).val := by
  unfold DotDims.rhsIdx
  rw [dif_neg (show ¬(1 : Fin S896x64.rank) ∈ dot_S163842x896_S896x64_S163842x64_1_0_0_1_n_n.rhsBatch by decide),
    dif_pos (show (1 : Fin S896x64.rank) ∈ dot_S163842x896_S896x64_S163842x64_1_0_0_1_n_n.rhsNonContracting by decide)]
  rfl

/-- The product against the transposed weight, read at (n, o): the sum over the 896 columns. -/
theorem dot1_apply (A : FVec Ideal S163842x896 .f32) (B : FVec Ideal S896x64 .f32) (n : Fin 163842) (o : Fin 64) :
    Host.dotGeneral (F := Ideal) dot_S163842x896_S896x64_S163842x64_1_0_0_1_n_n none A B (ix2 n o)
      = ∑ k : Fin 896, A (ix2 n k) * B (ix2 k o) := by
  show FloatOps.dotGeneral dot_S163842x896_S896x64_S163842x64_1_0_0_1_n_n none .single A B (ix2 n o) = _
  rw [Ideal.dotGeneral_apply,
    ← Equiv.sum_comp (contrEquiv1 dot_S163842x896_S896x64_S163842x64_1_0_0_1_n_n 896 rfl rfl).symm]
  refine Finset.sum_congr rfl fun k _ => ?_
  have hk := contrEquiv1_symm_val dot_S163842x896_S896x64_S163842x64_1_0_0_1_n_n 896 rfl rfl k
  have l2 : dot_S163842x896_S896x64_S163842x64_1_0_0_1_n_n.lhsIdx (ix2 n o)
      ((contrEquiv1 dot_S163842x896_S896x64_S163842x64_1_0_0_1_n_n 896 rfl rfl).symm k) = ix2 n k := by
    funext ax; apply Fin.ext
    match ax with
    | ⟨0, _⟩ => exact lhs1_0 _ _
    | ⟨1, _⟩ => exact (lhs1_1 _ _).trans hk
  have r2 : dot_S163842x896_S896x64_S163842x64_1_0_0_1_n_n.rhsIdx (ix2 n o)
      ((contrEquiv1 dot_S163842x896_S896x64_S163842x64_1_0_0_1_n_n 896 rfl rfl).symm k) = ix2 k o := by
    funext ax; apply Fin.ext
    match ax with
    | ⟨0, _⟩ => exact (rhs1_0 _ _).trans hk
    | ⟨1, _⟩ => exact rhs1_1 _ _
  rw [l2, r2]

/-! ## Regrouping the 896 columns by slot and channel -/

/-- A sum over 896 columns is the sum over 7 slots of the sums over the slot's 128 columns. -/
theorem sum_896 (f : Fin 896 → EReal) :
    ∑ k : Fin 896, f k = ∑ j : Fin 7, ∑ c : Fin 128, f ⟨128 * j.val + c.val, by have := j.isLt; have := c.isLt; omega⟩ := by
  rw [← Equiv.sum_comp (finProdFinEquiv (m := 7) (n := 128)) f, Fintype.sum_prod_type]
  refine Finset.sum_congr rfl fun j _ => Finset.sum_congr rfl fun c _ => congrArg f (Fin.ext ?_)
  show c.val + 128 * j.val = 128 * j.val + c.val
  omega

/-! ## The convolution -/

/-- The reference's gather-then-matmul is the convolution, entry by entry. -/
theorem h1R_eq (up x2 : FVec Ideal Cert.ReferenceIdeal.S163842x64 .f32) (neigh : IVec Cert.ReferenceIdeal.S1146894 32) (w1 : FVec Ideal Cert.ReferenceIdeal.S64x896 .f32) (b1 : FVec Ideal Cert.ReferenceIdeal.S64 .f32)
    (hn : ∀ i, (neigh i).toNat < 163842) :
    h1R (F := Ideal) (xcatR up x2) neigh w1 b1 = conv1Spec up x2 neigh w1 b1 := by
  funext i
  obtain ⟨n, o, rfl⟩ : ∃ (n : Fin 163842) (o : Fin 64), i = ix2 n o := ⟨i 0, i 1, eq_ix2 i⟩
  show h1R (F := Ideal) (xcatR up x2) neigh w1 b1 (ix2 n o) = conv1At up x2 neigh w1 b1 n o
  unfold h1R conv1At
  rw [addf_apply, rows64_entry, dot1_apply, sum_896]
  congr 1
  refine Finset.sum_congr rfl fun j _ => Finset.sum_congr rfl fun c _ => ?_
  rw [cast896_apply, gat1_apply up x2 neigh hn, w1T_apply]

end Cert.Bridge

end
-- ==== Proof.BridgeConv1.lean ====
/-
  The first one-ring convolution: the kernel's matmul-then-gather-and-sum and the reference's gather-then-matmul are
  both, entry by entry, the double sum over neighbour slot and input channel (SpecConv's `conv1Spec`).
-/
import proofs.«417947_j4449586118756_2_alg».proof.Proof.BridgeConv1K
import proofs.«417947_j4449586118756_2_alg».proof.Proof.BridgeConv1R

noncomputable section

namespace Cert.Bridge

open Idealize.ShloMosaic Cert.KernelIdeal.Stage Cert.ReferenceIdeal.Stage

/-- h1: matmul-then-gather-and-sum is gather-then-matmul, when every vertex number is below 163842. -/
theorem h1_eq (up x2 : FVec Ideal Cert.KernelIdeal.S163842x64 .f32) (neigh : IVec Cert.KernelIdeal.S1146894 32) (w1 : FVec Ideal Cert.KernelIdeal.S64x896 .f32) (b1 : FVec Ideal Cert.KernelIdeal.S64 .f32)
    (hn : ∀ i, (neigh i).toNat < 163842) :
    h1K (z1K up x2 w1) neigh b1 = h1R (F := Ideal) (xcatR up x2) neigh w1 b1 :=
  (h1K_eq up x2 neigh w1 b1 hn).trans (h1R_eq up x2 neigh w1 b1 hn).symm

end Cert.Bridge

end
-- ==== Proof.BridgeBn.lean ====
/-
  Batch normalisation with the leaky rectifier. Both programs compute the column mean, the biased variance and 1/√(variance + ε) with the same host operations; the kernel then applies g · ((x − μ) · s) + β and the rectifier inside a region on the zero-padded rows and slices the padding off, the reference applies the same expression with host operations. Entry by entry the two are the same term.
-/
import proofs.«417947_j4449586118756_2_alg».proof.Proof.KStage
import proofs.«417947_j4449586118756_2_alg».proof.Proof.RStage
import Idealize.ShloMosaic.Lib.Pipeline.Value
import Idealize.ShloMosaic.Lib.ValueIdx
import Idealize.ShloMosaic.Lib.ValueLayout
import Idealize.ShloMosaic.Lib.KernelVsHost
import Idealize.ShloMosaic.Lib.ReduceAll
import Idealize.ShloMosaic.Lib.StableHlo.Predicate
import Idealize.ShloMosaic.PureOps.Ideal.Laws

set_option maxRecDepth 16384

noncomputable section

namespace Cert.Bridge

open Idealize.ShloMosaic Idealize.ShloMosaic.ValueIdx Cert.Spec
open Cert.KernelIdeal.Stage Cert.ReferenceIdeal.Stage

/-! ## The statistics

  The column sum, the division by the row count, the centred squares' column sum, the guard on the degrees of freedom
  and the reciprocal root are written with the same operations on the same shapes in the two programs, so each
  statistic is one term read twice. The sums, the division and the root stay closed: only the structure is compared. -/

attribute [local irreducible] Host.reduceAdd Host.divf Host.rsqrt in
/-- The statistics are the same functions of h on both sides. -/
theorem mean_eq (h : FVec Ideal Cert.KernelIdeal.S163842x64 .f32) : meanK h = meanR (F := Ideal) h := rfl

attribute [local irreducible] Host.reduceAdd Host.divf Host.rsqrt in
/-- The biased column variances are the same function of h on both sides. -/
theorem var_eq (h : FVec Ideal Cert.KernelIdeal.S163842x64 .f32) : varK h = varR (F := Ideal) h := rfl

attribute [local irreducible] Host.reduceAdd Host.divf Host.rsqrt in
theorem inv_eq (h : FVec Ideal Cert.KernelIdeal.S163842x64 .f32) : invK h = invR (F := Ideal) h := rfl

/-! ## The kernel side, entry by entry -/

/-- The zero-padded array read at a row r < 163842 of the unpadded one is the unpadded array there: no low padding
    and no interior padding, so row r of the result is row r of the operand. -/
theorem pad_row (h : FVec Ideal Cert.KernelIdeal.S163842x64 .f32) (r : Fin 163842) (q : Fin 64) (r' : Fin 172032)
    (hr : r'.val = r.val) :
    pad Cert.KernelIdeal.S172032x64 ![0, 0] ![8190, 0] ![0, 0] h zpad
      Cert.KernelIdeal.Gen.pads_S163842x64_S172032x64_081900_000 Cert.KernelIdeal.Gen.h_S_ (ix2 r' q) = h (ix2 r q) :=
  pad_apply_of_inside _ _ _ _ _ _ _ (ix2 r' q) (ix2 r q) (fun a => by
    match a with
    | ⟨0, _⟩ => show r'.val = 0 + r.val * (0 + 1); omega
    | ⟨1, _⟩ => show q.val = 0 + q.val * (0 + 1); omega)

/-- The normalising map at the entry (p, q): the entry of X there, with column q of the four one-line arrays. -/
theorem regBn_ix2 {M N : Nat} (X : A2 M N) (mu s g be : A2 1 N) (p : Fin M) (q : Fin N) :
    regBn X mu s g be (ix2 p q)
      = bnAct (X (ix2 p q)) (mu (ix2 (0 : Fin 1) q)) (s (ix2 (0 : Fin 1) q)) (g (ix2 (0 : Fin 1) q)) (be (ix2 (0 : Fin 1) q)) := rfl

/-- The kernel's normalised array at (r, q): the slice starts at row 0, row r lies inside the unpadded array, and a
    64-vector viewed as one line of 64 reads at (0, q) its entry q. -/
theorem bnK_apply (h : FVec Ideal Cert.KernelIdeal.S163842x64 .f32) (g be : FVec Ideal Cert.KernelIdeal.S64 .f32)
    (r : Fin 163842) (q : Fin 64) :
    bnK h g be (ix2 r q) = bnAct (h (ix2 r q)) (meanK h (ix1 q)) (invK h (ix1 q)) (g (ix1 q)) (be (ix1 q)) := by
  unfold bnK
  refine (slice2_axis0_apply (n0 := 172032) (n1 := 64) (m := 163842) 0 _ _ r q ⟨r.val, by omega⟩ (Nat.zero_add _).symm).trans ?_
  refine (regBn_ix2 _ _ _ _ _ _ q).trans ?_
  exact congr (congr (congr (congr (congrArg bnAct (pad_row h r q _ rfl))
    (shapeCast_a_1a_apply (meanK h) _ 0 q)) (shapeCast_a_1a_apply (invK h) _ 0 q))
    (shapeCast_a_1a_apply g _ 0 q)) (shapeCast_a_1a_apply be _ 0 q)

/-! ## The reference side, entry by entry -/

/-- A 64-vector laid over every row reads at (r, q) its entry q: first the one line is copied down the rows, then the
    vector is that one line. -/
theorem rows64_apply (v : FVec Ideal Cert.ReferenceIdeal.S64 .f32) (r : Fin 163842) (q : Fin 64) :
    rows64 (F := Ideal) v (ix2 r q) = v (ix1 q) := by
  unfold rows64
  refine (broadcastInDim_apply _ _ _ (ix2 r q) (ix2 (0 : Fin 1) q) (fun a => ?_)).trans ?_
  · match a with
    | ⟨0, _⟩ => rfl
    | ⟨1, _⟩ => rfl
  · exact broadcastInDim_apply _ _ _ (ix2 (0 : Fin 1) q) (ix1 q) (fun a => match a with | ⟨0, _⟩ => rfl)

/-- The reference's affine map at (r, q): g_q · ((h − mean_q) · inv_q) + β_q. -/
theorem affR_apply (h : FVec Ideal Cert.ReferenceIdeal.S163842x64 .f32) (g be : FVec Ideal Cert.ReferenceIdeal.S64 .f32)
    (r : Fin 163842) (q : Fin 64) :
    affR (F := Ideal) h g be (ix2 r q)
      = g (ix1 q) * ((h (ix2 r q) - meanR h (ix1 q)) * invR h (ix1 q)) + be (ix1 q) := by
  unfold affR
  rw [addf_apply, mulf_apply, mulf_apply, subf_apply, rows64_apply, rows64_apply, rows64_apply, rows64_apply]

/-- The reference's normalised array at (r, q): the comparison with the constant 0 and the product with the constant
    0.2 are, at one entry, the rectifier's own comparison and product. -/
theorem bnR_apply (h : FVec Ideal Cert.ReferenceIdeal.S163842x64 .f32) (g be : FVec Ideal Cert.ReferenceIdeal.S64 .f32)
    (r : Fin 163842) (q : Fin 64) :
    bnR (F := Ideal) h g be (ix2 r q)
      = bnAct (h (ix2 r q)) (meanR h (ix1 q)) (invR h (ix1 q)) (g (ix1 q)) (be (ix1 q)) := by
  unfold bnR bnAct
  rw [select_apply, cmpf_apply, mulf_apply, affR_apply]
  rfl

/-- The normalising region on the padded rows, sliced, is the reference's normalisation. -/
theorem bn_eq (h : FVec Ideal Cert.KernelIdeal.S163842x64 .f32) (g be : FVec Ideal Cert.KernelIdeal.S64 .f32) :
    bnK h g be = bnR (F := Ideal) h g be := by
  funext i
  obtain ⟨r, q, rfl⟩ : ∃ (r : Fin 163842) (q : Fin 64), i = ix2 r q := ⟨i 0, i 1, eq_ix2 i⟩
  rw [bnK_apply, bnR_apply, mean_eq, inv_eq]

end Cert.Bridge

end
-- ==== Proof.BridgeOut.lean ====
/-
  The two programs as functions of their fifteen arguments are one function on the precondition's domain: stage by
  stage, y, up, the first convolution, its normalisation, the seven gathered rows, the second convolution and its
  normalisation agree, each stage fed the previous stage's (equal) value.
-/
import proofs.«417947_j4449586118756_2_alg».proof.Proof.BridgeLin
import proofs.«417947_j4449586118756_2_alg».proof.Proof.BridgeTake
import proofs.«417947_j4449586118756_2_alg».proof.Proof.BridgeConv1
import proofs.«417947_j4449586118756_2_alg».proof.Proof.BridgeBn

noncomputable section

namespace Cert.Bridge

open Idealize.ShloMosaic Cert.KernelIdeal.Stage Cert.ReferenceIdeal.Stage

/-- With every index in range the kernel program's result is the reference's. -/
theorem out_eq (a0 : FVec Ideal Cert.KernelIdeal.S40962x128 .f32) (a1 : FVec Ideal Cert.KernelIdeal.S163842x64 .f32) (a2 : FVec Ideal Cert.KernelIdeal.S448x128 .f32) (a3 : FVec Ideal Cert.KernelIdeal.S448 .f32)
    (a4 : FVec Ideal Cert.KernelIdeal.S64x896 .f32) (a5 a6 a7 : FVec Ideal Cert.KernelIdeal.S64 .f32) (a8 : FVec Ideal Cert.KernelIdeal.S64x448 .f32) (a9 a10 a11 : FVec Ideal Cert.KernelIdeal.S64 .f32)
    (a12 : IVec Cert.KernelIdeal.S1146894 32) (a13 : IVec Cert.KernelIdeal.S40962 32) (a14 : IVec Cert.KernelIdeal.S245760 32)
    (hn : ∀ i, (a12 i).toNat < 163842) (ht : ∀ i, (a13 i).toNat < 286734) (hd : ∀ i, (a14 i).toNat < 286734) :
    outK a0 a1 a2 a3 a4 a5 a6 a7 a8 a9 a10 a11 a12 a13 a14 = outR (F := Ideal) a0 a1 a2 a3 a4 a5 a6 a7 a8 a9 a10 a11 a12 a13 a14 := by
  unfold outK outR
  have e1 : yK a0 a2 a3 = yR (F := Ideal) a0 a2 a3 := y_eq a0 a2 a3
  have e2 : upK (yK a0 a2 a3) a13 a14 = upR (F := Ideal) (yR a0 a2 a3) a13 a14 := by
    rw [e1]; exact up_eq _ a13 a14 ht hd
  have e3 : h1K (z1K (upK (yK a0 a2 a3) a13 a14) a1 a4) a12 a5 = h1R (F := Ideal) (xcatR (upR (yR a0 a2 a3) a13 a14) a1) a12 a4 a5 := by
    rw [e2]; exact h1_eq _ a1 a12 a4 a5 hn
  have e4 : bnK (h1K (z1K (upK (yK a0 a2 a3) a13 a14) a1 a4) a12 a5) a6 a7
      = bnR (F := Ideal) (h1R (xcatR (upR (yR a0 a2 a3) a13 a14) a1) a12 a4 a5) a6 a7 := by
    rw [e3]; exact bn_eq _ a6 a7
  have e5 : gat2K (bnK (h1K (z1K (upK (yK a0 a2 a3) a13 a14) a1 a4) a12 a5) a6 a7) a12
      = gat2R (F := Ideal) (bnR (h1R (xcatR (upR (yR a0 a2 a3) a13 a14) a1) a12 a4 a5) a6 a7) a12 := by
    rw [e4]; exact gat2_eq _ a12 hn
  have e6 : h2K (gat2K (bnK (h1K (z1K (upK (yK a0 a2 a3) a13 a14) a1 a4) a12 a5) a6 a7) a12) a8 a9
      = h2R (F := Ideal) (gat2R (bnR (h1R (xcatR (upR (yR a0 a2 a3) a13 a14) a1) a12 a4 a5) a6 a7) a12) a8 a9 := by
    rw [e5]; exact h2_eq _ a8 a9
  rw [e6]; exact bn_eq _ a10 a11

end Cert.Bridge

end
-- ==== Proof.PreIdx.lean ====
/-
  What the precondition says of the three index arrays: the last three conjuncts of the printed predicate are, for each
  array, "every entry is ≥ 0 and < the number of rows it indexes" (signed 32-bit comparisons, reduced with ∧ over the
  array). Read as a statement about the entries' unsigned values: every entry is below the row count.
-/
import proofs.«417947_j4449586118756_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

set_option maxRecDepth 16384

noncomputable section

namespace Cert.PreIdx

open Idealize.ShloMosaic Idealize.ShloMosaic.ValueIdx Cert.Pre_finite_inputs

/-- A 32-bit word that tests signed-nonnegative and signed-below a small literal N has unsigned value below N:
    a word whose signed reading is nonnegative reads the same signed and unsigned. -/
theorem lt_of_cmp {a : BitVec 32} {N : Nat} (hN : N < 2 ^ 31)
    (h : IntOp.andi (IntOp.cmpi .sge a 0#32) (IntOp.cmpi .slt a (BitVec.ofNat 32 N)) = 1#1) : a.toNat < N := by
  obtain ⟨h1, h2⟩ := IntOp.andi_eq_one.1 h
  rw [IntOp.cmpi_sge, show (0#32 : BitVec 32).toInt = 0 from by decide] at h1
  rw [IntOp.cmpi_slt, StableHlo.Predicate.toInt_ofNat_small N hN] at h2
  have hlt := a.isLt
  rw [BitVec.toInt_eq_toNat_cond] at h1 h2
  split at h1 <;> omega

/-- The scalar shape has one index. -/
instance : Subsingleton S_.Idx := ⟨fun _ _ => funext fun d => d.elim0⟩

/-- A conjunction of two bit arrays that is 1 at an index has both bits 1 there. -/
theorem andi_apply_eq_one {s : Shape} (x y : IVec s 1) (i : s.Idx) : andi x y i = 1#1 ↔ x i = 1#1 ∧ y i = 1#1 :=
  IntOp.andi_eq_one

/-- One index array's conjunct read back: if "0 ≤ a ∧ a < N", compared entrywise against the broadcast scalars and
    reduced with ∧ over the whole array, came out 1, every entry's unsigned value is below N. -/
theorem all_lt {s : Shape} {axes : List (Fin s.rank)} (a : IVec s 32) (N : Nat) (hN : N < 2 ^ 31)
    (hb : S_.BroadcastsInDim s (![] : Fin 0 → Fin s.rank)) (hr : s.ReducesTo axes S_) (h0 : 0 < S_.numel)
    (e : Host.reduce IntOp.andi
          (andi (cmpi .sge a (broadcastInDim s ![] hb (constantI S_ 32 0#32)))
                (cmpi .slt a (broadcastInDim s ![] hb (constantI S_ 32 (BitVec.ofNat 32 N)))))
          (constantI S_ 1 1#1) hr h0 ix0 = 1#1) (i : s.Idx) : (a i).toNat < N :=
  lt_of_cmp hN (Host.reduce_andi_all _ _ hr h0 ix0 e i)

/-- Under the precondition every neighbour entry is below 163842 and every top and down index below 286734. -/
theorem ranges (a0 : FVec Ideal S40962x128 .f32) (a1 : FVec Ideal S163842x64 .f32) (a2 : FVec Ideal S448x128 .f32) (a3 : FVec Ideal S448 .f32)
    (a4 : FVec Ideal S64x896 .f32) (a5 a6 a7 : FVec Ideal S64 .f32) (a8 : FVec Ideal S64x448 .f32) (a9 a10 a11 : FVec Ideal S64 .f32)
    (a12 : IVec S1146894 32) (a13 : IVec S40962 32) (a14 : IVec S245760 32)
    (h : Cert.Pre_finite_inputs.fn (F := Ideal) a0 a1 a2 a3 a4 a5 a6 a7 a8 a9 a10 a11 a12 a13 a14 = fun _ => 1#1) :
    (∀ i, (a12 i).toNat < 163842) ∧ (∀ i, (a13 i).toNat < 286734) ∧ (∀ i, (a14 i).toNat < 286734) := by
  have h0 : Cert.Pre_finite_inputs.fn (F := Ideal) a0 a1 a2 a3 a4 a5 a6 a7 a8 a9 a10 a11 a12 a13 a14 ix0 = 1#1 := congrFun h ix0
  dsimp only [fn, fn_part1, fn_part2, fn_part3, fn_part4] at h0
  -- the running conjunction, split from the outside: (((… ∧ all₁₂) ∧ all₁₃) ∧ all₁₄)
  obtain ⟨h1, h14⟩ := (andi_apply_eq_one _ _ _).1 h0
  obtain ⟨h2, h13⟩ := (andi_apply_eq_one _ _ _).1 h1
  obtain ⟨_, h12⟩ := (andi_apply_eq_one _ _ _).1 h2
  exact ⟨all_lt a12 163842 (by norm_num) _ _ _ h12, all_lt a13 286734 (by norm_num) _ _ _ h13,
    all_lt a14 286734 (by norm_num) _ _ _ h14⟩

end Cert.PreIdx

end
-- ==== Proof.lean ====
/-
  The certificate. The kernel program (five Pallas regions between host operations) and the jnp reference compute, at
  the ideal instance, the same array on the precondition's domain (every float input finite; every neighbour, top and
  down index inside the array it indexes):
  * the three frames: the word-level kernel's and the idealized kernel's are the generated frame theorems; the
    reference's is its run (written by hand: a straight line of host operations) with the result forgotten;
  * the idealization rewrote nothing, so `preserves` asks nothing;
  * the value: the kernel's run leaves in the result buffer `outK` of the arguments (the regions' output arrays read
    as whole-array functions, threaded through the host operations between them), the reference's run leaves `outR`,
    and on the domain `outK = outR` stage by stage — the linear layers as row-by-column sums, a take with in-range
    indices as the plain gather, the first convolution's "matmul, then gather and sum seven slots" as the reference's
    "gather seven rows, then matmul" by regrouping one finite sum, and the normalisation as the same pointwise map with
    the same batch statistics.
-/
import proofs.«417947_j4449586118756_2_alg».proof.Defs
import proofs.«417947_j4449586118756_2_alg».proof.Proof.Gen.Kernel
import proofs.«417947_j4449586118756_2_alg».proof.Proof.Gen.Kernel.Skeleton
import proofs.«417947_j4449586118756_2_alg».proof.Proof.Gen.Kernel.Launch
import proofs.«417947_j4449586118756_2_alg».proof.Proof.Gen.Kernel.Points
import proofs.«417947_j4449586118756_2_alg».proof.Proof.Gen.Kernel.Frame
import proofs.«417947_j4449586118756_2_alg».proof.Proof.Gen.KernelIdeal
import proofs.«417947_j4449586118756_2_alg».proof.Proof.Gen.KernelIdeal.Skeleton
import proofs.«417947_j4449586118756_2_alg».proof.Proof.Gen.KernelIdeal.Launch
import proofs.«417947_j4449586118756_2_alg».proof.Proof.Gen.KernelIdeal.Points
import proofs.«417947_j4449586118756_2_alg».proof.Proof.Gen.KernelIdeal.Frame
import proofs.«417947_j4449586118756_2_alg».proof.Proof.Gen.ReferenceIdeal
import proofs.«417947_j4449586118756_2_alg».proof.Proof.Gen.Pre_finite_inputs
import proofs.«417947_j4449586118756_2_alg».proof.Proof.KRun
import proofs.«417947_j4449586118756_2_alg».proof.Proof.KChain
import proofs.«417947_j4449586118756_2_alg».proof.Proof.RRun
import proofs.«417947_j4449586118756_2_alg».proof.Proof.BridgeOut
import proofs.«417947_j4449586118756_2_alg».proof.Proof.PreIdx
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference runs and leaves its arguments as launched: its run with the result forgotten. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- Both runs end with the same result array: `outK` of the kernel's arguments, which on the domain is `outR` of the
    reference's (equal) arguments. -/
theorem algebraic : Cert.algebraic_KernelIdeal_ReferenceIdeal := by
  intro m ρ m' ρ' hpre hagree
  refine ⟨fun c => Cert.KernelIdeal.Stage.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Chain.out_eq m ρ c), (h c).2⟩)
      (Cert.KernelIdeal.Gen.run_named m ρ)
  · refine (θ_run Cert.ReferenceIdeal.defs _ _).mono (fun r h c => ⟨(h c).1.trans ?_, (h c).2⟩)
      (Cert.ReferenceIdeal.RefRun.run m' ρ')
    obtain ⟨hn, ht, hd⟩ := Cert.PreIdx.ranges _ _ _ _ _ _ _ _ _ _ _ _ _ _ _ (hpre c)
    obtain ⟨e0, e1, e2, e3, e4, e5, e6, e7, e8, e9, e10, e11, e12, e13, e14⟩ := hagree c
    rw [e0, e1, e2, e3, e4, e5, e6, e7, e8, e9, e10, e11, e12, e13, e14]
    exact (Cert.Bridge.out_eq _ _ _ _ _ _ _ _ _ _ _ _ _ _ _ hn ht hd).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
